-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S5 : Shape := ⟨1, ![5]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel
  bcast_S_S5 : S_.BroadcastsInDim S5 (![] : Fin 0 → Fin S5.rank)
  reducesTo_S5_S_d0 : S5.ReducesTo [0] S_

variable [Facts]

def fn {F : FTy → Type} [FloatOps F] (main_arg0 : FVec F S4096x50257 .f32) (main_arg1 : IVec S4096 32) (main_arg2 : FVec F S5 .f32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  let main_v4 : FVec F S5 .f32 := Host.absf main_arg2
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  main_v8
-- ==== Kernel.lean ====
abbrev S4096x50257 : Shape := ⟨2, ![4096, 50257]⟩
abbrev S4096 : Shape := ⟨1, ![4096]⟩
abbrev S5 : Shape := ⟨1, ![5]⟩
abbrev S_ : Shape := ⟨0, ![]⟩
abbrev S4096x1 : Shape := ⟨2, ![4096, 1]⟩
abbrev S1x5 : Shape := ⟨2, ![1, 5]⟩
abbrev S4096x5 : Shape := ⟨2, ![4096, 5]⟩
abbrev S4096x5x1 : Shape := ⟨3, ![4096, 5, 1]⟩
abbrev S1 : Shape := ⟨1, ![1]⟩
abbrev S1x1x1 : Shape := ⟨3, ![1, 1, 1]⟩
abbrev S512x3072 : Shape := ⟨2, ![512, 3072]⟩
abbrev S512x1 : Shape := ⟨2, ![512, 1]⟩
abbrev S512 : Shape := ⟨1, ![512]⟩

abbrev nBuf : Space → Nat
  | .hbm => 68
  | .vmem => 6
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S5, .f32⟩
  | .hbm, ⟨3, _⟩ => ⟨S5, .i32⟩
  | .hbm, ⟨4, _⟩ => ⟨S_, .i32⟩
  | .hbm, ⟨5, _⟩ => ⟨S5, .i32⟩
  | .hbm, ⟨6, _⟩ => ⟨S5, .i32⟩
  | .hbm, ⟨7, _⟩ => ⟨S4096x1, .i32⟩
  | .hbm, ⟨8, _⟩ => ⟨S1x5, .i32⟩
  | .hbm, ⟨9, _⟩ => ⟨S4096x5, .i32⟩
  | .hbm, ⟨10, _⟩ => ⟨S4096x5, .i32⟩
  | .hbm, ⟨11, _⟩ => ⟨S4096x5, .i32⟩
  | .hbm, ⟨12, _⟩ => ⟨S_, .i32⟩
  | .hbm, ⟨13, _⟩ => ⟨S4096x5, .i32⟩
  | .hbm, ⟨14, _⟩ => ⟨S4096x5, .i1⟩
  | .hbm, ⟨15, _⟩ => ⟨S_, .i32⟩
  | .hbm, ⟨16, _⟩ => ⟨S4096x5, .i32⟩
  | .hbm, ⟨17, _⟩ => ⟨S4096x5, .i1⟩
  | .hbm, ⟨18, _⟩ => ⟨S4096x5, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S4096x5, .i32⟩
  | .hbm, ⟨23, _⟩ => ⟨S4096x5, .i32⟩
  | .hbm, ⟨24, _⟩ => ⟨S_, .i32⟩
  | .hbm, ⟨25, _⟩ => ⟨S4096x5, .i32⟩
  | .hbm, ⟨26, _⟩ => ⟨S4096x5, .i32⟩
  | .hbm, ⟨27, _⟩ => ⟨S1x5, .f32⟩
  | .hbm, ⟨28, _⟩ => ⟨S_, .f32⟩
  | .hbm, ⟨29, _⟩ => ⟨S_, .f32⟩
  | .hbm, ⟨30, _⟩ => ⟨S4096x5, .f32⟩
  | .hbm, ⟨31, _⟩ => ⟨S4096x5, .f32⟩
  | .hbm, ⟨32, _⟩ => ⟨S4096x5, .f32⟩
  | .hbm, ⟨33, _⟩ => ⟨S_, .f32⟩
  | .hbm, ⟨34, _⟩ => ⟨S4096, .f32⟩
  | .hbm, ⟨35, _⟩ => ⟨S_, .i32⟩
  | .hbm, ⟨36, _⟩ => ⟨S4096x5, .i32⟩
  | .hbm, ⟨37, _⟩ => ⟨S4096x5, .i1⟩
  | .hbm, ⟨38, _⟩ => ⟨S_, .i32⟩
  | .hbm, ⟨39, _⟩ => ⟨S4096x5, .i32⟩
  | .hbm, ⟨40, _⟩ => ⟨S4096x5, .i32⟩
  | .hbm, ⟨41, _⟩ => ⟨S4096x5, .i32⟩
  | .hbm, ⟨42, _⟩ => ⟨S4096x5x1, .i32⟩
  | .hbm, ⟨43, _⟩ => ⟨S1, .i32⟩
  | .hbm, ⟨44, _⟩ => ⟨S_, .i32⟩
  | .hbm, ⟨45, _⟩ => ⟨S4096x5x1, .i32⟩
  | .hbm, ⟨46, _⟩ => ⟨S4096x5x1, .i1⟩
  | .hbm, ⟨47, _⟩ => ⟨S1x1x1, .i32⟩
  | .hbm, ⟨48, _⟩ => ⟨S4096x5x1, .i32⟩
  | .hbm, ⟨49, _⟩ => ⟨S4096x5x1, .i1⟩
  | .hbm, ⟨50, _⟩ => ⟨S4096x5x1, .i1⟩
  | .hbm, ⟨51, _⟩ => ⟨S_, .i1⟩
  | .hbm, ⟨52, _⟩ => ⟨S4096x5, .i1⟩
  | .hbm, ⟨53, _⟩ => ⟨S4096x5, .f32⟩
  | .hbm, ⟨54, _⟩ => ⟨S_, .f32⟩
  | .hbm, ⟨55, _⟩ => ⟨S4096x5, .f32⟩
  | .hbm, ⟨56, _⟩ => ⟨S4096x5, .f32⟩
  | .hbm, ⟨57, _⟩ => ⟨S4096x5, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local _ .vmem, ⟨0, _⟩ => ⟨S512x3072, .f32⟩
  | .local _ .vmem, ⟨1, _⟩ => ⟨S512x3072, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v17 : Ref sig .tc := ⟨.hbm, 56, rfl⟩
abbrev main_v18 : Ref sig .tc := ⟨.hbm, 57, rfl⟩
abbrev main_cst_5 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_6 : Ref sig .tc := ⟨.hbm, 64, rfl⟩
abbrev main_v24 : Ref sig .tc := ⟨.hbm, 65, rfl⟩
abbrev main_cst_7 : Ref sig .tc := ⟨.hbm, 66, rfl⟩
abbrev main_v25 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 17], ![false, false]⟩

def k0_cond4 (i : grid0.Coords) : BitVec 1 :=
  let arg1 : BitVec 32 := BitVec.ofNat 32 (i 1).val
  let c16_i32 : BitVec 32 := 16#32
  let v4 : BitVec 1 := Scalar.cmpi .eq arg1 c16_i32
  let v10 : BitVec 32 := Scalar.extui v4
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  bcast_S_S5 : S_.BroadcastsInDim S5 (![] : Fin 0 → Fin S5.rank)
  bcast_S4096_S4096x1_0 : S4096.BroadcastsInDim S4096x1 (![0] : Fin 1 → Fin S4096x1.rank)
  bcast_S5_S1x5_1 : S5.BroadcastsInDim S1x5 (![1] : Fin 1 → Fin S1x5.rank)
  bcast_S4096x1_S4096x5_0_1 : S4096x1.BroadcastsInDim S4096x5 (![0, 1] : Fin 2 → Fin S4096x5.rank)
  bcast_S1x5_S4096x5_0_1 : S1x5.BroadcastsInDim S4096x5 (![0, 1] : Fin 2 → Fin S4096x5.rank)
  bcast_S_S4096x5 : S_.BroadcastsInDim S4096x5 (![] : Fin 0 → Fin S4096x5.rank)
  reducesTo_S4096x5_S4096_d1 : S4096x5.ReducesTo [1] S4096
  h_S_ : 0 < S_.numel
  shapeCasts_S4096x5_S4096x5x1 : S4096x5.ShapeCasts S4096x5x1
  bcast_S_S4096x5x1 : S_.BroadcastsInDim S4096x5x1 (![] : Fin 0 → Fin S4096x5x1.rank)
  bcast_S1_S1x1x1_2 : S1.BroadcastsInDim S1x1x1 (![2] : Fin 1 → Fin S1x1x1.rank)
  bcast_S1x1x1_S4096x5x1_0_1_2 : S1x1x1.BroadcastsInDim S4096x5x1 (![0, 1, 2] : Fin 3 → Fin S4096x5x1.rank)
  reducesTo_S4096x5x1_S4096x5_d2 : S4096x5x1.ReducesTo [2] S4096x5
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3072_S512x3072_0_0 : ∀ a, (![0, 0] : Fin 2 → Nat) a + S512x3072.size a ≤ S512x3072.size a
  h_S512x3072 : 0 < S512x3072.numel
  iota_S512x3072_d1_w32 : S512x3072.Iotas .tc 32 [1]
  reduces_S512x3072_S512 : S512x3072.Reduces [1] S512
  shapeCasts_S512_S512x1 : S512.ShapeCasts S512x1
  broadcasts_S512x1_S512x3072 : S512x1.Broadcasts S512x3072
  shapeCasts_S4096x1_S4096 : S4096x1.ShapeCasts S4096
  reducesTo_S4096_S_d0 : S4096.ReducesTo [0] S_
  gather_S4096x50257_S4096x5x1_S4096x5_n_1_0_0_1_2_11_wf : GatherDims.WF S4096x50257 S4096x5x1 S4096x5 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x3072.size a < S4096x50257.size a
  hwx0_0 : ∀ i : grid0.Coords, EltTy.bits .f32 = 32 ∨ (Rect.unit (s := S4096x50257) (fun a => cc0_transform_0 i a * S512x3072.size a) (fun a => (Pipeline.Clip.of (cc0_transform_0 i a) (S512x3072.size a) (S4096x50257.size a)).extent (S512x3072.size a)) fun a => Pipeline.Clip.inb (Pipeline.Clip.ok_of (hstart0_0 i a))).WholeWords (EltTy.packing .f32)
  hwxs0_0 : ∀ i : grid0.Coords, EltTy.bits .f32 = 32 ∨ (Rect.unit (s := S512x3072) (fun _ => 0) (fun a => (Pipeline.Clip.of (cc0_transform_0 i a) (S512x3072.size a) (S4096x50257.size a)).extent (S512x3072.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)

variable [Facts₀]

def gather_S4096x50257_S4096x5x1_S4096x5_n_1_0_0_1_2_11 : GatherDims S4096x50257 S4096x5x1 S4096x5 where
  offsetDims := []
  collapsedSliceDims := [1]
  operandBatchingDims := [0]
  startIndicesBatchingDims := [0]
  startIndexMap := [1]
  indexVectorDim := 2
  sliceSizes := ![1, 1]
  wf := gather_S4096x50257_S4096x5x1_S4096x5_n_1_0_0_1_2_11_wf

abbrev win0_0 : Pipeline.Window sig grid0 :=
  Pipeline.Window.ofSpecClip (Memref.whole main_arg0) S512x3072.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v20) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond4 i == 1#1) | ⟨_ + 2, h⟩ => absurd h (Nat.not_lt.2 (Nat.le_add_left _ _))

class Facts : Prop extends Facts₀ where

variable [Facts]
-- ==== ReferenceIdeal.lean ====
abbrev S4096x50257 : Shape := ⟨2, ![4096, 50257]⟩
abbrev S4096 : Shape := ⟨1, ![4096]⟩
abbrev S5 : Shape := ⟨1, ![5]⟩
abbrev S_ : Shape := ⟨0, ![]⟩
abbrev S4096x1 : Shape := ⟨2, ![4096, 1]⟩
abbrev S1x5 : Shape := ⟨2, ![1, 5]⟩
abbrev S4096x5 : Shape := ⟨2, ![4096, 5]⟩
abbrev S4096x5x1 : Shape := ⟨3, ![4096, 5, 1]⟩
abbrev S4096x5x2 : Shape := ⟨3, ![4096, 5, 2]⟩

abbrev nBuf : Space → Nat
  | .hbm => 79
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S5, .f32⟩
  | .hbm, ⟨3, _⟩ => ⟨S5, .i32⟩
  | .hbm, ⟨4, _⟩ => ⟨S_, .i32⟩
  | .hbm, ⟨5, _⟩ => ⟨S5, .i32⟩
  | .hbm, ⟨6, _⟩ => ⟨S5, .i32⟩
  | .hbm, ⟨7, _⟩ => ⟨S4096x1, .i32⟩
  | .hbm, ⟨8, _⟩ => ⟨S1x5, .i32⟩
  | .hbm, ⟨9, _⟩ => ⟨S4096x5, .i32⟩
  | .hbm, ⟨10, _⟩ => ⟨S4096x5, .i32⟩
  | .hbm, ⟨11, _⟩ => ⟨S4096x5, .i32⟩
  | .hbm, ⟨12, _⟩ => ⟨S_, .i32⟩
  | .hbm, ⟨13, _⟩ => ⟨S4096x5, .i32⟩
  | .hbm, ⟨14, _⟩ => ⟨S4096x5, .i1⟩
  | .hbm, ⟨15, _⟩ => ⟨S_, .i32⟩
  | .hbm, ⟨16, _⟩ => ⟨S4096x5, .i32⟩
  | .hbm, ⟨17, _⟩ => ⟨S4096x5, .i1⟩
  | .hbm, ⟨18, _⟩ => ⟨S4096x5, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S4096x5, .i32⟩
  | .hbm, ⟨23, _⟩ => ⟨S4096x5, .i32⟩
  | .hbm, ⟨24, _⟩ => ⟨S_, .i32⟩
  | .hbm, ⟨25, _⟩ => ⟨S4096x5, .i32⟩
  | .hbm, ⟨26, _⟩ => ⟨S4096x5, .i32⟩
  | .hbm, ⟨27, _⟩ => ⟨S1x5, .f32⟩
  | .hbm, ⟨28, _⟩ => ⟨S_, .f32⟩
  | .hbm, ⟨29, _⟩ => ⟨S_, .f32⟩
  | .hbm, ⟨30, _⟩ => ⟨S4096x5, .f32⟩
  | .hbm, ⟨31, _⟩ => ⟨S4096x5, .f32⟩
  | .hbm, ⟨32, _⟩ => ⟨S4096x5, .f32⟩
  | .hbm, ⟨33, _⟩ => ⟨S_, .f32⟩
  | .hbm, ⟨34, _⟩ => ⟨S4096x50257, .f32⟩
  | .hbm, ⟨35, _⟩ => ⟨S4096, .i32⟩
  | .hbm, ⟨36, _⟩ => ⟨S4096x1, .i32⟩
  | .hbm, ⟨37, _⟩ => ⟨S_, .i32⟩
  | .hbm, ⟨38, _⟩ => ⟨S4096x1, .i32⟩
  | .hbm, ⟨39, _⟩ => ⟨S4096x1, .i1⟩
  | .hbm, ⟨40, _⟩ => ⟨S_, .i32⟩
  | .hbm, ⟨41, _⟩ => ⟨S4096x1, .i32⟩
  | .hbm, ⟨42, _⟩ => ⟨S4096x1, .i32⟩
  | .hbm, ⟨43, _⟩ => ⟨S4096x1, .i32⟩
  | .hbm, ⟨44, _⟩ => ⟨S_, .i32⟩
  | .hbm, ⟨45, _⟩ => ⟨S4096x5, .i32⟩
  | .hbm, ⟨46, _⟩ => ⟨S4096x5, .i1⟩
  | .hbm, ⟨47, _⟩ => ⟨S_, .i32⟩
  | .hbm, ⟨48, _⟩ => ⟨S4096x5, .i32⟩
  | .hbm, ⟨49, _⟩ => ⟨S4096x5, .i32⟩
  | .hbm, ⟨50, _⟩ => ⟨S4096x5, .i32⟩
  | .hbm, ⟨51, _⟩ => ⟨S4096x5, .i32⟩
  | .hbm, ⟨52, _⟩ => ⟨S4096x5x1, .i32⟩
  | .hbm, ⟨53, _⟩ => ⟨S4096x5x1, .i32⟩
  | .hbm, ⟨54, _⟩ => ⟨S4096x5x2, .i32⟩
  | .hbm, ⟨55, _⟩ => ⟨S4096x50257, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1, .f32⟩
  | .hbm, ⟨62, _⟩ => ⟨S4096x50257, .f32⟩
  | .hbm, ⟨63, _⟩ => ⟨S4096x50257, .f32⟩
  | .hbm, ⟨64, _⟩ => ⟨S4096x50257, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1, .f32⟩
  | .hbm, ⟨69, _⟩ => ⟨S4096x50257, .f32⟩
  | .hbm, ⟨70, _⟩ => ⟨S4096x50257, .f32⟩
  | .hbm, ⟨71, _⟩ => ⟨S4096x50257, .f32⟩
  | .hbm, ⟨72, _⟩ => ⟨S_, .f32⟩
  | .hbm, ⟨73, _⟩ => ⟨S4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_c_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call2_cst : Ref sig .tc := ⟨.hbm, 56, rfl⟩
abbrev main_call2_v0 : Ref sig .tc := ⟨.hbm, 57, rfl⟩
abbrev main_call2_cst_0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_cst_1 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_v34 : Ref sig .tc := ⟨.hbm, 70, rfl⟩
abbrev main_v35 : Ref sig .tc := ⟨.hbm, 71, rfl⟩
abbrev main_cst_9 : Ref sig .tc := ⟨.hbm, 72, rfl⟩
abbrev main_v36 : Ref sig .tc := ⟨.hbm, 73, rfl⟩
abbrev main_cst_10 : Ref sig .tc := ⟨.hbm, 74, rfl⟩
abbrev main_v37 : Ref sig .tc := ⟨.hbm, 75, rfl⟩
abbrev main_cst_11 : Ref sig .tc := ⟨.hbm, 76, rfl⟩
abbrev main_v38 : Ref sig .tc := ⟨.hbm, 77, rfl⟩
abbrev main_v39 : Ref sig .tc := ⟨.hbm, 78, rfl⟩

abbrev nD : Nat := 1
abbrev τ : Topo := Topo.v7x

variable {F : FTy → Type} [FloatOps F]

class Facts₀ : Prop where
  bcast_S_S5 : S_.BroadcastsInDim S5 (![] : Fin 0 → Fin S5.rank)
  bcast_S4096_S4096x1_0 : S4096.BroadcastsInDim S4096x1 (![0] : Fin 1 → Fin S4096x1.rank)
  bcast_S5_S1x5_1 : S5.BroadcastsInDim S1x5 (![1] : Fin 1 → Fin S1x5.rank)
  bcast_S4096x1_S4096x5_0_1 : S4096x1.BroadcastsInDim S4096x5 (![0, 1] : Fin 2 → Fin S4096x5.rank)
  bcast_S1x5_S4096x5_0_1 : S1x5.BroadcastsInDim S4096x5 (![0, 1] : Fin 2 → Fin S4096x5.rank)
  bcast_S_S4096x5 : S_.BroadcastsInDim S4096x5 (![] : Fin 0 → Fin S4096x5.rank)
  bcast_S_S4096x50257 : S_.BroadcastsInDim S4096x50257 (![] : Fin 0 → Fin S4096x50257.rank)
  bcast_S_S4096x1 : S_.BroadcastsInDim S4096x1 (![] : Fin 0 → Fin S4096x1.rank)
  bcast_S4096x5_S4096x5x1_0_1 : S4096x5.BroadcastsInDim S4096x5x1 (![0, 1] : Fin 2 → Fin S4096x5x1.rank)
  concatenates_S4096x5x1_S4096x5x1_S4096x5x2_d2 : Shape.Concatenates [S4096x5x1, S4096x5x1] S4096x5x2 2
  reducesTo_S4096x50257_S4096_d1 : S4096x50257.ReducesTo [1] S4096
  h_S_ : 0 < S_.numel
  bcast_S_S4096 : S_.BroadcastsInDim S4096 (![] : Fin 0 → Fin S4096.rank)
  bcast_S4096x1_S4096x50257_0_1 : S4096x1.BroadcastsInDim S4096x50257 (![0, 1] : Fin 2 → Fin S4096x50257.rank)
  reducesTo_S4096_S_d0 : S4096.ReducesTo [0] S_
  scatter_S4096x50257_S4096x5x2_S4096x5_n_01_01_2_wf : ScatterDims.WF S4096x50257 S4096x5x2 S4096x5 [] [0, 1] [0, 1] 2

variable [Facts₀]

def scatter_S4096x50257_S4096x5x2_S4096x5_n_01_01_2 : ScatterDims S4096x50257 S4096x5x2 S4096x5 where
  updateWindowDims := []
  insertedWindowDims := [0, 1]
  scatterDimsToOperandDims := [0, 1]
  indexVectorDim := 2
  wf := scatter_S4096x50257_S4096x5x2_S4096x5_n_01_01_2_wf

class Facts : Prop extends Facts₀ where

variable [Facts]
-- ==== Proof.K.Cases.lean ====
/-
  The kernel's control, decided over the grid. The grid is 8 row blocks by 17 column blocks, the column block moving
  fastest: point `t` is row block `t / 17`, column block `t % 17`. The body has four conditionals on the column block:
  the accumulators are reset at column block 0; the masked update runs at column block 16 (the one block that
  overhangs the array's 50257 columns); the plain update runs at every other column block; and the output block is
  stored, from the accumulators, at column block 16 — the only points at which the pipeline writes it back.
  So three kinds of point: FIRST (column block 0), MIDDLE (1 … 15), LAST (16).
-/
import proofs.«413743_j37546604102464_2_alg».proof.Proof.Gen.Kernel.Launch
import proofs.«413743_j37546604102464_2_alg».proof.Proof.Gen.Kernel.Skeleton
import proofs.«413743_j37546604102464_2_alg».proof.Proof.Gen.Kernel.Points
import proofs.«413743_j37546604102464_2_alg».proof.Proof.Gen.Kernel.Frame
import Idealize.ShloMosaic.Lib.Pipeline.FrameBody
import Idealize.ShloMosaic.Lib.Pipeline.FrameSuffix
import Idealize.ShloMosaic.Lib.Pipeline.Value
import Idealize.ShloMosaic.Lib.StableHlo.Predicate
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions, as the body computes them from the column block -/

/-- "This is column block 0": the accumulators are reset. -/
abbrev condFirst (i : grid0.Coords) : Prop :=
  (Scalar.cmpi .ne (Scalar.extui (Scalar.cmpi .eq (BitVec.ofNat 32 (i 1).val) 0#32)) 0#32) = 1#1
/-- "This is column block 16": the masked update. -/
abbrev condLast (i : grid0.Coords) : Prop :=
  (Scalar.cmpi .ne (Scalar.extui (Scalar.cmpi .eq (BitVec.ofNat 32 (i 1).val) 16#32)) 0#32) = 1#1
/-- "This is not column block 16": the plain update. -/
abbrev condNotLast (i : grid0.Coords) : Prop :=
  (Scalar.cmpi .ne (Scalar.extui (Scalar.cmpi .ne (BitVec.ofNat 32 (i 1).val) 16#32)) 0#32) = 1#1
/-- "This is column block 16", again: the output block is stored. -/
abbrev condOut (i : grid0.Coords) : Prop := k0_cond4 i = 1#1

theorem hcondFirst : ∀ t : Fin cfg0.N, condFirst (grid0.coords t) ↔ t.val % 17 = 0 :=
  (by decide +kernel : ∀ t : Fin grid0.N, condFirst (grid0.coords t) ↔ t.val % 17 = 0)
theorem hcondLast : ∀ t : Fin cfg0.N, condLast (grid0.coords t) ↔ t.val % 17 = 16 :=
  (by decide +kernel : ∀ t : Fin grid0.N, condLast (grid0.coords t) ↔ t.val % 17 = 16)
theorem hcondNotLast : ∀ t : Fin cfg0.N, condNotLast (grid0.coords t) ↔ ¬t.val % 17 = 16 :=
  (by decide +kernel : ∀ t : Fin grid0.N, condNotLast (grid0.coords t) ↔ ¬t.val % 17 = 16)
theorem hcondOut : ∀ t : Fin cfg0.N, condOut (grid0.coords t) ↔ t.val % 17 = 16 :=
  (by decide +kernel : ∀ t : Fin grid0.N, condOut (grid0.coords t) ↔ t.val % 17 = 16)

/-! ## Where the windows are idle, and where the output is written back -/

/-- The input window is never idle. -/
theorem live0 : ∀ t : Fin cfg0.N, cfg0.idle 0 (grid0.coords t) = false := by decide +kernel
/-- Off the last column block the output window is idle and not written back. -/
theorem idle1 : ∀ t : Fin cfg0.N, ¬t.val % 17 = 16 → cfg0.idle 1 (grid0.coords t) = true := by decide +kernel
theorem noFlush1 : ∀ t : Fin cfg0.N, ¬t.val % 17 = 16 → (cfg0.win 1).flush t = false := by decide +kernel
/-- At the last column block it is live. -/
theorem live1 : ∀ t : Fin cfg0.N, t.val % 17 = 16 → cfg0.idle 1 (grid0.coords t) = false := by decide +kernel
/-- The output window is never fetched. -/
theorem noFetch1 : ∀ t : Fin cfg0.N, (cfg0.win 1).fetch t = false := by decide +kernel

/-! ## The memrefs the body is called with -/

abbrev ms0 (t : Fin cfg0.N) : Memref sig .tc .vmem S512x3072 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .f32 := win0_1.stage (cfg0.slots t 1)
abbrev hs1 (t : Fin cfg0.N) : (ms1 t).IsWhole := hstage0_1 ((cfg0.slots t 1).cast nbuf0_1)
/-- The running maximum's buffer and the running sum's. -/
abbrev scMax : Memref sig .tc .vmem S512x1 .f32 := Memref.whole cc0_scratch0
abbrev scSum : Memref sig .tc .vmem S512x1 .f32 := Memref.whole cc0_scratch1
/-- Views through which contents of the output block and of the two accumulators are stated. -/
abbrev VOut : View sig .tc .vmem S512x1 .f32 := (Memref.whole cc0_stg1_0 : Memref sig .tc .vmem S512x1 .f32).view
abbrev VMax : View sig .tc .vmem S512x1 .f32 := scMax.view
abbrev VSum : View sig .tc .vmem S512x1 .f32 := scSum.view

/-- What the launch hands the region besides the windows: the two accumulators at some contents, and the generator
    register. -/
theorem PhiA_eq (c : Dev nD) :
    (Pipeline.ΦA spec0 c : sProp 𝕄)
      = iprop(iprop((∃ d, owns (c : Thread nD τ) scMax fullShare d) ∗ (∃ d, owns (c : Thread nD τ) scSum fullShare d)) ∗ (∃ r, prngReg c r)) := by
  unfold Pipeline.ΦA; rw [scopedRest0_eq]; simp only [scMax, scSum, owns_whole]; try rfl

end Cert.Kernel.Hand

end
-- ==== Proof.K.RunFirst.lean ====
/-
  The body's run at a FIRST point (column block 0), by symbolic execution of the printed body.
-/
import proofs.«413743_j37546604102464_2_alg».proof.Proof.K.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a FIRST point (column block 0): the accumulators, held at anything, are reset — the running maximum to
    the reduction's identity, the running sum to zero — and then updated with the block's row maxima and shifted
    exponential sums; the input block is left as found and the output block, not stored here, is handed back as found.
    The pieces each accumulator ends with are what the run finds. -/
noncomputable def runFirst (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : condFirst i) (hL : ¬condLast i) (hN : condNotLast i) (hO : ¬condOut i) (x0 : Vec F S512x3072 .f32) :
    Σ' (LM : List (View.Piece (Elt F) S512x1 .f32)), { LS : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f LM)
                ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨?_, ?_, fun xi1 E K => ?run⟩
  case run =>
    simp only [cc0_kernel_eq_skeleton]; unfold cc0_kernel_skel
    unfold owns
    iintro ⟨⟨%f0, %hf0, H0⟩, ⟨%f1, %hf1, H1⟩, ⟨%dm, %fm, -, HM⟩, ⟨%ds, %fs, -, HS⟩, Hk⟩
    obtain rfl := harg2.eq_unread hf0; obtain rfl := harg3.eq_unread hf1
    sl_exec (disch := first | exact hF | exact hL | exact hN | exact hO)
    sl_step
    iapply Hk
    isplitl [H0]
    · iexists _; isplitr; · ipureintro; exact harg2.read_unread _
      iexact H0
    isplitl [H1]
    · iexists _; isplitr; · ipureintro; exact harg3.read_unread _
      iexact H1
    isplitl [HM]; · iexists _; iexact HM
    iexists _; iexact HS

end Cert.Kernel.Hand

end
-- ==== Proof.K.RunMiddle.lean ====
/-
  The body's run at a MIDDLE point (column blocks 1 … 15), by symbolic execution of the printed body.
-/
import proofs.«413743_j37546604102464_2_alg».proof.Proof.K.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a MIDDLE point (column blocks 1 … 15): the accumulators arrive holding what the point before left
    (`xm` the running maximum, `xs` the running sum) and are updated with the block's row maxima and shifted exponential
    sums; the input block is left as found and the output block, not stored here, is handed back as found. -/
noncomputable def runMiddle (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : ¬condLast i) (hN : condNotLast i) (hO : ¬condOut i) (x0 : Vec F S512x3072 .f32)
    (xm : Vec F S512x1 .f32) (xs : Vec F S512x1 .f32) :
    Σ' (LM : List (View.Piece (Elt F) S512x1 .f32)), { LS : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1
            ∗ owns (c : Thread nD τ) arg4 fullShare xm ∗ owns (c : Thread nD τ) arg5 fullShare xs
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f LM)
                ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨?_, ?_, fun xi1 E K => ?run⟩
  case run =>
    simp only [cc0_kernel_eq_skeleton]; unfold cc0_kernel_skel
    unfold owns
    iintro ⟨⟨%f0, %hf0, H0⟩, ⟨%f1, %hf1, H1⟩, ⟨%fm, %hfm, HM⟩, ⟨%fs, %hfs, HS⟩, Hk⟩
    obtain rfl := harg2.eq_unread hf0; obtain rfl := harg3.eq_unread hf1
    obtain rfl := harg4.eq_unread hfm; obtain rfl := harg5.eq_unread hfs
    sl_exec (disch := first | exact hF | exact hL | exact hN | exact hO)
    sl_step
    iapply Hk
    isplitl [H0]
    · iexists _; isplitr; · ipureintro; exact harg2.read_unread _
      iexact H0
    isplitl [H1]
    · iexists _; isplitr; · ipureintro; exact harg3.read_unread _
      iexact H1
    isplitl [HM]; · iexists _; iexact HM
    iexists _; iexact HS

end Cert.Kernel.Hand

end
-- ==== Proof.K.RunLast.lean ====
/-
  The body's run at a LAST point (column block 16), by symbolic execution of the printed body.
-/
import proofs.«413743_j37546604102464_2_alg».proof.Proof.K.RunMiddle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a LAST point (column block 16): the accumulators arrive holding what the point before left and are
    updated with the block's row maxima and shifted exponential sums taken over the columns inside the array only (the
    others are masked to the reduction's identity first); then the output block, held at anything, is stored from the
    updated accumulators: running maximum plus the logarithm of the running sum. -/
noncomputable def runLast (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : condLast i) (hN : ¬condNotLast i) (hO : condOut i) (x0 : Vec F S512x3072 .f32)
    (xm : Vec F S512x1 .f32) (xs : Vec F S512x1 .f32) :
    Σ' (L1 : List (View.Piece (Elt F) S512x1 .f32)) (LM : List (View.Piece (Elt F) S512x1 .f32)), { LS : List (View.Piece (Elt F) S512x1 .f32) //
      ∀ (E : Set ℕ) (K : PUnit → sProp 𝕄),
        iprop(owns (c : Thread nD τ) arg2 fullShare x0 ∗ (∃ d, owns (c : Thread nD τ) arg3 fullShare d)
            ∗ owns (c : Thread nD τ) arg4 fullShare xm ∗ owns (c : Thread nD τ) arg5 fullShare xs
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f LM)
                ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨?_, ?_, ?_, fun E K => ?run⟩
  case run =>
    simp only [cc0_kernel_eq_skeleton]; unfold cc0_kernel_skel
    unfold owns
    iintro ⟨⟨%f0, %hf0, H0⟩, ⟨%d1, %f1, -, H1⟩, ⟨%fm, %hfm, HM⟩, ⟨%fs, %hfs, HS⟩, Hk⟩
    obtain rfl := harg2.eq_unread hf0
    obtain rfl := harg4.eq_unread hfm; obtain rfl := harg5.eq_unread hfs
    sl_exec (disch := first | exact hF | exact hL | exact hN | exact hO)
    sl_step
    iapply Hk
    isplitl [H0]
    · iexists _; isplitr; · ipureintro; exact harg2.read_unread _
      iexact H0
    isplitl [H1]; · iexists _; iexact H1
    isplitl [HM]; · iexists _; iexact HM
    iexists _; iexact HS

end Cert.Kernel.Hand

end
-- ==== Proof.K.Pieces.lean ====
/-
  What each kind of point leaves in the two accumulators and in the output block, as the body's arithmetic on what it
  found: the stores the run listed, read back (the last store to a buffer covers it; a load after a store reads the
  stored value).
-/
import proofs.«413743_j37546604102464_2_alg».proof.Proof.K.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## FIRST points -/

theorem coverM_First (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : condFirst i) (hL : ¬condLast i) (hN : condNotLast i) (hO : ¬condOut i) (x0 : Vec F S512x3072 .f32) (y : S512x1.Idx) :
    ∃ pc ∈ (runFirst c i arg2 harg2 arg3 harg3 arg4 harg4 arg5 harg5 hF hL hN hO x0).1, y ∈ pc.1.set :=
  View.cover_of_tiledL (runFirst c i arg2 harg2 arg3 harg3 arg4 harg4 arg5 harg5 hF hL hN hO x0).1 S512x1.size (by sl_kernel_rfl) y

theorem coverS_First (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : condFirst i) (hL : ¬condLast i) (hN : condNotLast i) (hO : ¬condOut i) (x0 : Vec F S512x3072 .f32) (y : S512x1.Idx) :
    ∃ pc ∈ (runFirst c i arg2 harg2 arg3 harg3 arg4 harg4 arg5 harg5 hF hL hN hO x0).2.1, y ∈ pc.1.set :=
  View.cover_of_tiledL (runFirst c i arg2 harg2 arg3 harg3 arg4 harg4 arg5 harg5 hF hL hN hO x0).2.1 S512x1.size (by sl_kernel_rfl) y

/-- At a FIRST point the running maximum ends at the block's row maxima taken over the reset value. -/
theorem maxFirst_eq (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : condFirst i) (hL : ¬condLast i) (hN : condNotLast i) (hO : ¬condOut i) (x0 : Vec F S512x3072 .f32) :
    VMax.read (Elt F) (VMax.writes (Elt F) VMax.junk (runFirst c i arg2 harg2 arg3 harg3 arg4 harg4 arg5 harg5 hF hL hN hO x0).1)
      = k0_pay9 x0 (k0_pay1 (F := F)) := by
  have hz : (![0, 0] : Fin 2 → Nat) = fun _ => 0 := funext fun a => by fin_cases a <;> rfl
  rw [View.read_writes_eq_canon _ _ _ (coverM_First c i arg2 harg2 arg3 harg3 arg4 harg4 arg5 harg5 hF hL hN hO x0)]
  unfold runFirst
  dsimp only
  sl_unfold_words
  rw [View.canon_cons_unit_zero (S := S512x1) hz]
  simp only [View.readAt_eq_ld, harg2.read_unread, View.ld_unit_zero (S := S512x3072) hz, View.readCov_unit_zero (S := S512x1) _ hz]

/-- At a FIRST point the running sum ends at the block's shifted exponential sums added to the reset value rescaled. -/
theorem sumFirst_eq (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : condFirst i) (hL : ¬condLast i) (hN : condNotLast i) (hO : ¬condOut i) (x0 : Vec F S512x3072 .f32) :
    VSum.read (Elt F) (VSum.writes (Elt F) VSum.junk (runFirst c i arg2 harg2 arg3 harg3 arg4 harg4 arg5 harg5 hF hL hN hO x0).2.1)
      = k0_pay8 x0 (k0_pay1 (F := F)) (k0_pay2 (F := F)) := by
  have hz : (![0, 0] : Fin 2 → Nat) = fun _ => 0 := funext fun a => by fin_cases a <;> rfl
  rw [View.read_writes_eq_canon _ _ _ (coverS_First c i arg2 harg2 arg3 harg3 arg4 harg4 arg5 harg5 hF hL hN hO x0)]
  unfold runFirst
  dsimp only
  sl_unfold_words
  rw [View.canon_cons_unit_zero (S := S512x1) hz]
  simp only [View.readAt_eq_ld, harg2.read_unread, View.ld_unit_zero (S := S512x3072) hz, View.readCov_unit_zero (S := S512x1) _ hz]

/-! ## MIDDLE points -/

theorem coverM_Middle (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : ¬condLast i) (hN : condNotLast i) (hO : ¬condOut i) (x0 : Vec F S512x3072 .f32) (xm : Vec F S512x1 .f32) (xs : Vec F S512x1 .f32) (y : S512x1.Idx) :
    ∃ pc ∈ (runMiddle c i arg2 harg2 arg3 harg3 arg4 harg4 arg5 harg5 hF hL hN hO x0 xm xs).1, y ∈ pc.1.set :=
  View.cover_of_tiledL (runMiddle c i arg2 harg2 arg3 harg3 arg4 harg4 arg5 harg5 hF hL hN hO x0 xm xs).1 S512x1.size (by sl_kernel_rfl) y

theorem coverS_Middle (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : ¬condLast i) (hN : condNotLast i) (hO : ¬condOut i) (x0 : Vec F S512x3072 .f32) (xm : Vec F S512x1 .f32) (xs : Vec F S512x1 .f32) (y : S512x1.Idx) :
    ∃ pc ∈ (runMiddle c i arg2 harg2 arg3 harg3 arg4 harg4 arg5 harg5 hF hL hN hO x0 xm xs).2.1, y ∈ pc.1.set :=
  View.cover_of_tiledL (runMiddle c i arg2 harg2 arg3 harg3 arg4 harg4 arg5 harg5 hF hL hN hO x0 xm xs).2.1 S512x1.size (by sl_kernel_rfl) y

/-- At a MIDDLE point the running maximum ends at the larger of what it held and the block's row maxima. -/
theorem maxMiddle_eq (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : ¬condLast i) (hN : condNotLast i) (hO : ¬condOut i) (x0 : Vec F S512x3072 .f32) (xm : Vec F S512x1 .f32) (xs : Vec F S512x1 .f32) :
    VMax.read (Elt F) (VMax.writes (Elt F) VMax.junk (runMiddle c i arg2 harg2 arg3 harg3 arg4 harg4 arg5 harg5 hF hL hN hO x0 xm xs).1)
      = k0_pay9 x0 xm := by
  have hz : (![0, 0] : Fin 2 → Nat) = fun _ => 0 := funext fun a => by fin_cases a <;> rfl
  rw [View.read_writes_eq_canon _ _ _ (coverM_Middle c i arg2 harg2 arg3 harg3 arg4 harg4 arg5 harg5 hF hL hN hO x0 xm xs)]
  unfold runMiddle
  dsimp only
  sl_unfold_words
  rw [View.canon_cons_unit_zero (S := S512x1) hz]
  simp only [View.readAt_eq_ld, harg2.read_unread, harg4.read_unread, harg5.read_unread, View.ld_unit_zero (S := S512x3072) hz, View.ld_unit_zero (S := S512x1) hz, View.readCov_unit_zero (S := S512x1) _ hz]

/-- At a MIDDLE point the running sum ends at what it held, rescaled to the new maximum, plus the block's shifted
    exponential sums. -/
theorem sumMiddle_eq (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : ¬condLast i) (hN : condNotLast i) (hO : ¬condOut i) (x0 : Vec F S512x3072 .f32) (xm : Vec F S512x1 .f32) (xs : Vec F S512x1 .f32) :
    VSum.read (Elt F) (VSum.writes (Elt F) VSum.junk (runMiddle c i arg2 harg2 arg3 harg3 arg4 harg4 arg5 harg5 hF hL hN hO x0 xm xs).2.1)
      = k0_pay8 x0 xm xs := by
  have hz : (![0, 0] : Fin 2 → Nat) = fun _ => 0 := funext fun a => by fin_cases a <;> rfl
  rw [View.read_writes_eq_canon _ _ _ (coverS_Middle c i arg2 harg2 arg3 harg3 arg4 harg4 arg5 harg5 hF hL hN hO x0 xm xs)]
  unfold runMiddle
  dsimp only
  sl_unfold_words
  rw [View.canon_cons_unit_zero (S := S512x1) hz]
  simp only [View.readAt_eq_ld, harg2.read_unread, harg4.read_unread, harg5.read_unread, View.ld_unit_zero (S := S512x3072) hz, View.ld_unit_zero (S := S512x1) hz, View.readCov_unit_zero (S := S512x1) _ hz]

/-! ## LAST points -/

theorem coverO_Last (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : condLast i) (hN : ¬condNotLast i) (hO : condOut i) (x0 : Vec F S512x3072 .f32) (xm : Vec F S512x1 .f32) (xs : Vec F S512x1 .f32) (y : S512x1.Idx) :
    ∃ pc ∈ (runLast c i arg2 harg2 arg3 harg3 arg4 harg4 arg5 harg5 hF hL hN hO x0 xm xs).1, y ∈ pc.1.set :=
  View.cover_of_tiledL (runLast c i arg2 harg2 arg3 harg3 arg4 harg4 arg5 harg5 hF hL hN hO x0 xm xs).1 S512x1.size (by sl_kernel_rfl) y

theorem coverM_Last (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : condLast i) (hN : ¬condNotLast i) (hO : condOut i) (x0 : Vec F S512x3072 .f32) (xm : Vec F S512x1 .f32) (xs : Vec F S512x1 .f32) (y : S512x1.Idx) :
    ∃ pc ∈ (runLast c i arg2 harg2 arg3 harg3 arg4 harg4 arg5 harg5 hF hL hN hO x0 xm xs).2.1, y ∈ pc.1.set :=
  View.cover_of_tiledL (runLast c i arg2 harg2 arg3 harg3 arg4 harg4 arg5 harg5 hF hL hN hO x0 xm xs).2.1 S512x1.size (by sl_kernel_rfl) y

theorem coverS_Last (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : condLast i) (hN : ¬condNotLast i) (hO : condOut i) (x0 : Vec F S512x3072 .f32) (xm : Vec F S512x1 .f32) (xs : Vec F S512x1 .f32) (y : S512x1.Idx) :
    ∃ pc ∈ (runLast c i arg2 harg2 arg3 harg3 arg4 harg4 arg5 harg5 hF hL hN hO x0 xm xs).2.2.1, y ∈ pc.1.set :=
  View.cover_of_tiledL (runLast c i arg2 harg2 arg3 harg3 arg4 harg4 arg5 harg5 hF hL hN hO x0 xm xs).2.2.1 S512x1.size (by sl_kernel_rfl) y

/-- At a LAST point the running maximum ends at the larger of what it held and the masked block's row maxima. -/
theorem maxLast_eq (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : condLast i) (hN : ¬condNotLast i) (hO : condOut i) (x0 : Vec F S512x3072 .f32) (xm : Vec F S512x1 .f32) (xs : Vec F S512x1 .f32) :
    VMax.read (Elt F) (VMax.writes (Elt F) VMax.junk (runLast c i arg2 harg2 arg3 harg3 arg4 harg4 arg5 harg5 hF hL hN hO x0 xm xs).2.1)
      = k0_pay6 i x0 xm := by
  have hz : (![0, 0] : Fin 2 → Nat) = fun _ => 0 := funext fun a => by fin_cases a <;> rfl
  rw [View.read_writes_eq_canon _ _ _ (coverM_Last c i arg2 harg2 arg3 harg3 arg4 harg4 arg5 harg5 hF hL hN hO x0 xm xs)]
  unfold runLast
  dsimp only
  sl_unfold_words
  rw [View.canon_cons_unit_zero (S := S512x1) hz]
  simp only [View.readAt_eq_ld, harg2.read_unread, harg4.read_unread, harg5.read_unread, View.ld_unit_zero (S := S512x3072) hz, View.ld_unit_zero (S := S512x1) hz, View.readCov_unit_zero (S := S512x1) _ hz]

/-- At a LAST point the running sum ends at what it held, rescaled, plus the masked block's shifted exponential sums. -/
theorem sumLast_eq (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : condLast i) (hN : ¬condNotLast i) (hO : condOut i) (x0 : Vec F S512x3072 .f32) (xm : Vec F S512x1 .f32) (xs : Vec F S512x1 .f32) :
    VSum.read (Elt F) (VSum.writes (Elt F) VSum.junk (runLast c i arg2 harg2 arg3 harg3 arg4 harg4 arg5 harg5 hF hL hN hO x0 xm xs).2.2.1)
      = k0_pay5 i x0 xm xs := by
  have hz : (![0, 0] : Fin 2 → Nat) = fun _ => 0 := funext fun a => by fin_cases a <;> rfl
  rw [View.read_writes_eq_canon _ _ _ (coverS_Last c i arg2 harg2 arg3 harg3 arg4 harg4 arg5 harg5 hF hL hN hO x0 xm xs)]
  unfold runLast
  dsimp only
  sl_unfold_words
  rw [View.canon_cons_unit_zero (S := S512x1) hz]
  simp only [View.readAt_eq_ld, harg2.read_unread, harg4.read_unread, harg5.read_unread, View.ld_unit_zero (S := S512x3072) hz, View.ld_unit_zero (S := S512x1) hz, View.readCov_unit_zero (S := S512x1) _ hz]

/-- At a LAST point the output block is stored from the updated accumulators: maximum plus logarithm of the sum. -/
theorem outLast_eq (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : condLast i) (hN : ¬condNotLast i) (hO : condOut i) (x0 : Vec F S512x3072 .f32) (xm : Vec F S512x1 .f32) (xs : Vec F S512x1 .f32) :
    VOut.read (Elt F) (VOut.writes (Elt F) VOut.junk (runLast c i arg2 harg2 arg3 harg3 arg4 harg4 arg5 harg5 hF hL hN hO x0 xm xs).1)
      = k0_pay10 (k0_pay6 i x0 xm) (k0_pay5 i x0 xm xs) := by
  have hz : (![0, 0] : Fin 2 → Nat) = fun _ => 0 := funext fun a => by fin_cases a <;> rfl
  rw [View.read_writes_eq_canon _ _ _ (coverO_Last c i arg2 harg2 arg3 harg3 arg4 harg4 arg5 harg5 hF hL hN hO x0 xm xs)]
  unfold runLast
  dsimp only
  sl_unfold_words
  rw [View.canon_cons_unit_zero (S := S512x1) hz]
  simp only [View.readAt_eq_ld, harg2.read_unread, harg4.read_unread, harg5.read_unread, View.ld_unit_zero (S := S512x3072) hz, View.ld_unit_zero (S := S512x1) hz, View.readCov_unit_zero (S := S512x1) _ hz]

end Cert.Kernel.Hand

end
-- ==== Proof.K.Indep.lean ====
/-
  What the accumulators hold does not depend on what the input's staging buffer holds past the array's end: off the
  last column block the block lies inside the array, and at the last the body masks the columns past the end before
  it reads them.
-/
import proofs.«413743_j37546604102464_2_alg».proof.Proof.K.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The staged input block -/

/-- The input block at point `t` as a whole (512, 3072) block: the array's entries on the part of the block inside the
    array, zero on the part that overhangs it (the last column block's 1967 columns past the array's end). What the
    accumulators' contents are stated over. -/
def xcan (c : Dev nD) (t : Fin cfg0.N) : Vec F S512x3072 .f32 :=
  win0_0.fill (grid0.coords t) (fun _ => Scalar.ofBits .f32 0#32) (iblk m c 0 t)

/-- Off the last column block the block lies inside the array: the fetch moves all of it. -/
theorem xsize_full : ∀ t : Fin cfg0.N, ¬t.val % 17 = 16 → ∀ a : Fin 2, win0_0.xsize (grid0.coords t) a = S512x3072.size a := by
  decide +kernel
/-- At the last column block it moves all 512 rows and the first 1105 columns. -/
theorem xsize_last : ∀ t : Fin cfg0.N, t.val % 17 = 16 →
    win0_0.xsize (grid0.coords t) 0 = 512 ∧ win0_0.xsize (grid0.coords t) 1 = 1105 := by
  decide +kernel
theorem col_last : ∀ t : Fin cfg0.N, t.val % 17 = 16 → ((grid0.coords t) 1).val = 16 := by
  decide +kernel

/-- So off the last column block a fetched buffer holds the block whatever it held before. -/
theorem fill_indep (t : Fin cfg0.N) (h : ¬t.val % 17 = 16) (d d' : S512x3072.Idx → Elt F .f32)
    (g : (win0_0.xblock (grid0.coords t)).Idx → Elt F .f32) :
    win0_0.fill (grid0.coords t) d g = win0_0.fill (grid0.coords t) d' g := by
  funext j
  have hm : win0_0.moved (grid0.coords t) j = true :=
    (win0_0.moved_iff _ j).mpr fun a => by rw [xsize_full t h a]; exact (j a).isLt
  unfold Window.fill
  rw [dif_pos hm, dif_pos hm]

/-- At the last column block two fetched buffers agree on the columns inside the array. -/
theorem fill_agree (t : Fin cfg0.N) (h : t.val % 17 = 16) (d d' : S512x3072.Idx → Elt F .f32)
    (g : (win0_0.xblock (grid0.coords t)).Idx → Elt F .f32) (j : S512x3072.Idx) (hj : (j 1).val < 1105) :
    win0_0.fill (grid0.coords t) d g j = win0_0.fill (grid0.coords t) d' g j := by
  have hm : win0_0.moved (grid0.coords t) j = true :=
    (win0_0.moved_iff _ j).mpr fun a => by
      match a with
      | ⟨0, _⟩ => exact lt_of_lt_of_eq (j 0).isLt (xsize_last t h).1.symm
      | ⟨1, _⟩ => exact lt_of_lt_of_eq hj (xsize_last t h).2.symm
  unfold Window.fill
  rw [dif_pos hm, dif_pos hm]

/-! ## The mask of the last column block -/

/-- In column block 16 the mask (column index plus 16 · 3072, compared below 50257) is set only on the first 1105
    columns of the block. -/
theorem mask_lt (i : grid0.Coords) (hi : (i 1).val = 16) (j : S512x3072.Idx)
    (h : (cmpi .slt (addi (iota .tc S512x3072 32 [1] iota_S512x3072_d1_w32)
        (broadcast S512x3072 (Scalar.muli (BitVec.ofNat 32 (i 1).val) 3072#32))) (broadcast S512x3072 50257#32)) j = 1) :
    (j 1).val < 1105 := by
  have hj : (j 1).val < 3072 := (j 1).isLt
  rw [hi] at h
  have e1 : Scalar.muli (BitVec.ofNat 32 16) 3072#32 = BitVec.ofNat 32 49152 := by decide
  rw [e1] at h
  have hw : (cmpi .slt (addi (iota .tc S512x3072 32 [1] iota_S512x3072_d1_w32) (broadcast S512x3072 49152#32))
      (broadcast S512x3072 50257#32)) j
      = IntOp.cmpi .slt (BitVec.ofNat 32 (0 * 3072 + (j 1).val) + 49152#32) 50257#32 := rfl
  rw [hw] at h
  have hsum : BitVec.ofNat 32 (0 * 3072 + (j 1).val) + 49152#32 = BitVec.ofNat 32 ((j 1).val + 49152) := by
    rw [Nat.zero_mul, Nat.zero_add, ← BitVec.ofNat_add]
  rw [hsum] at h
  have h' := (StableHlo.Predicate.slt_iff_toNat (a := BitVec.ofNat 32 ((j 1).val + 49152)) (b := 50257#32)
    (by simp only [BitVec.toNat_ofNat]; omega) (by decide)).mp h
  simp only [BitVec.toNat_ofNat] at h'
  omega

/-- So the masked block depends on the staged block only through its first 1105 columns; -/
theorem pay3_congr (i : grid0.Coords) (hi : (i 1).val = 16) (X X' : Vec F S512x3072 .f32)
    (hX : ∀ j : S512x3072.Idx, (j 1).val < 1105 → X j = X' j) : k0_pay3 i X = k0_pay3 i X' := by
  funext j
  unfold k0_pay3
  dsimp only [select, Scalar.select]
  split
  · rename_i hmask
    exact hX j (mask_lt i hi j hmask)
  · rfl

/-- and with it the masked update of the running maximum and of the running sum. -/
theorem pay6_congr (i : grid0.Coords) (hi : (i 1).val = 16) (X X' : Vec F S512x3072 .f32)
    (hX : ∀ j : S512x3072.Idx, (j 1).val < 1105 → X j = X' j) (xm : Vec F S512x1 .f32) :
    k0_pay6 i X xm = k0_pay6 i X' xm := by
  unfold k0_pay6 k0_pay4; rw [pay3_congr i hi X X' hX]
theorem pay5_congr (i : grid0.Coords) (hi : (i 1).val = 16) (X X' : Vec F S512x3072 .f32)
    (hX : ∀ j : S512x3072.Idx, (j 1).val < 1105 → X j = X' j) (xm xs : Vec F S512x1 .f32) :
    k0_pay5 i X xm xs = k0_pay5 i X' xm xs := by
  unfold k0_pay5 k0_pay4; rw [pay3_congr i hi X X' hX]

end Cert.Kernel.Hand

end
-- ==== Proof.K.Frame.lean ====
/-
  The frame of the program: it runs to the end, faults nowhere and leaves its arguments unchanged — with, along the way,
  what the two accumulators hold after every grid point and what the output block holds when it is stored, as the
  body's arithmetic on the staged blocks (`outsAt`): the running maximum and running sum restart at column block 0 of
  each row block, continue through column blocks 1 … 15, and at column block 16 take the masked update and give the
  output block.
-/
import proofs.«413743_j37546604102464_2_alg».proof.Proof.K.Pieces
import proofs.«413743_j37546604102464_2_alg».proof.Proof.K.Indep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulators and the output block hold after each point -/

/-- A placeholder for the output block's contents at a point that does not store it (nothing consults it there). -/
def idleOut : Vec F S512x1 .f32 := fun _ => Scalar.ofBits .f32 0#32

/-- After the body at position `n`: the output block, the running maximum, the running sum. At a FIRST point the
    accumulators restart from the reduction's identity and zero; at a later point of the row block they continue from
    what the point before left; at a LAST point the output block is stored from them. -/
def outsAt (c : Dev nD) : (n : ℕ) → n < cfg0.N → Vec F S512x1 .f32 × Vec F S512x1 .f32 × Vec F S512x1 .f32
  | 0, hn => (idleOut, k0_pay9 (xcan m c ⟨0, hn⟩) (k0_pay1 (F := F)), k0_pay8 (xcan m c ⟨0, hn⟩) (k0_pay1 (F := F)) (k0_pay2 (F := F)))
  | n + 1, hn =>
    if h0 : (n + 1) % 17 = 0 then
      (idleOut, k0_pay9 (xcan m c ⟨n + 1, hn⟩) (k0_pay1 (F := F)), k0_pay8 (xcan m c ⟨n + 1, hn⟩) (k0_pay1 (F := F)) (k0_pay2 (F := F)))
    else
      if h1 : (n + 1) % 17 = 16 then
        (k0_pay10 (k0_pay6 (grid0.coords ⟨n + 1, hn⟩) (xcan m c ⟨n + 1, hn⟩) (outsAt c n (Nat.lt_of_succ_lt hn)).2.1)
            (k0_pay5 (grid0.coords ⟨n + 1, hn⟩) (xcan m c ⟨n + 1, hn⟩) (outsAt c n (Nat.lt_of_succ_lt hn)).2.1 (outsAt c n (Nat.lt_of_succ_lt hn)).2.2),
          k0_pay6 (grid0.coords ⟨n + 1, hn⟩) (xcan m c ⟨n + 1, hn⟩) (outsAt c n (Nat.lt_of_succ_lt hn)).2.1,
          k0_pay5 (grid0.coords ⟨n + 1, hn⟩) (xcan m c ⟨n + 1, hn⟩) (outsAt c n (Nat.lt_of_succ_lt hn)).2.1 (outsAt c n (Nat.lt_of_succ_lt hn)).2.2)
      else
        (idleOut, k0_pay9 (xcan m c ⟨n + 1, hn⟩) (outsAt c n (Nat.lt_of_succ_lt hn)).2.1,
          k0_pay8 (xcan m c ⟨n + 1, hn⟩) (outsAt c n (Nat.lt_of_succ_lt hn)).2.1 (outsAt c n (Nat.lt_of_succ_lt hn)).2.2)

theorem outsAt_first (c : Dev nD) (t : Fin cfg0.N) (h0 : t.val % 17 = 0) :
    outsAt m c t.val t.isLt = (idleOut, k0_pay9 (xcan m c t) (k0_pay1 (F := F)), k0_pay8 (xcan m c t) (k0_pay1 (F := F)) (k0_pay2 (F := F))) := by
  obtain ⟨n, hn⟩ := t
  cases n with
  | zero => exact rfl
  | succ n => exact (dif_pos h0).trans rfl

theorem outsAt_middle (c : Dev nD) (t : Fin cfg0.N) (h0 : ¬t.val % 17 = 0) (h1 : ¬t.val % 17 = 16) :
    outsAt m c t.val t.isLt = (idleOut,
      k0_pay9 (xcan m c t) (outsAt m c (t.val - 1) (Nat.lt_of_le_of_lt (Nat.sub_le _ _) t.isLt)).2.1,
      k0_pay8 (xcan m c t) (outsAt m c (t.val - 1) (Nat.lt_of_le_of_lt (Nat.sub_le _ _) t.isLt)).2.1
        (outsAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt_last (c : Dev nD) (t : Fin cfg0.N) (h0 : ¬t.val % 17 = 0) (h1 : t.val % 17 = 16) :
    outsAt m c t.val t.isLt =
      (k0_pay10 (k0_pay6 (grid0.coords t) (xcan m c t) (outsAt m c (t.val - 1) (Nat.lt_of_le_of_lt (Nat.sub_le _ _) t.isLt)).2.1)
          (k0_pay5 (grid0.coords t) (xcan m c t) (outsAt m c (t.val - 1) (Nat.lt_of_le_of_lt (Nat.sub_le _ _) t.isLt)).2.1
            (outsAt m c (t.val - 1) (Nat.lt_of_le_of_lt (Nat.sub_le _ _) t.isLt)).2.2),
        k0_pay6 (grid0.coords t) (xcan m c t) (outsAt m c (t.val - 1) (Nat.lt_of_le_of_lt (Nat.sub_le _ _) t.isLt)).2.1,
        k0_pay5 (grid0.coords t) (xcan m c t) (outsAt m c (t.val - 1) (Nat.lt_of_le_of_lt (Nat.sub_le _ _) t.isLt)).2.1
          (outsAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The region's invariant: the accumulators carried from point to point -/

/-- Before position `n`: before the first point the two accumulators hold anything; afterwards what the point before
    left in them. -/
def PhiS (c : Dev nD) : (n : ℕ) → n ≤ cfg0.N → sProp 𝕄
  | 0, _ => Pipeline.ΦA spec0 c
  | n + 1, hn => iprop(iprop(owns (c : Thread nD τ) scMax fullShare ((outsAt m c n hn).2.1)
      ∗ owns (c : Thread nD τ) scSum fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare ((outsAt m c n hn).2.1)
      ∗ owns (c : Thread nD τ) scSum fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scMax fullShare ((outsAt m c (n - 1) (by omega)).2.1)
      ∗ owns (c : Thread nD τ) scSum fullShare ((outsAt m c (n - 1) (by omega)).2.2)) ∗ (∃ r, prngReg c r)) := by
  cases n with
  | zero => exact absurd rfl hz
  | succ n => rfl

/-! ## The proof data -/

/-- The arrays as the region finds them; after the body at point `t` the input's buffer at its block (zero past the
    array's end, where nothing is stated) and the output's at `outsAt`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => xcan m c t
    | ⟨1, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = xcan m c t := by dsimp only [dats]
theorem after1 (c : Dev nD) (t : Fin cfg0.N) : (dats m 0 c).after 1 t = (outsAt m c t.val t.isLt).1 := by dsimp only [dats]

/-- The input's buffer is fetched at every point: it holds the block on the part inside the array, and past the array's
    end whatever `d` says. -/
theorem before0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq m c 0]

/-- What the loose obligation asks of the input's buffer after the body: the block on the part inside the array. -/
theorem leaves0 (c : Dev nD) (t : Fin cfg0.N) :
    (dats m 0 c).leaves 0 t
      = iprop(∃ d, owns (c : Thread nD τ) (ms0 t) fullShare (win0_0.fill (grid0.coords t) d (iblk m c 0 t))) := by
  unfold Dat.leaves
  rw [live0 t]
  dsimp only
  rw [after0 m c t]
  unfold xcan
  simp only [Window.cut_fill]
  rfl

/-- At a LAST point the output's buffer is left at the stored block. -/
theorem leaves1_last (c : Dev nD) (t : Fin cfg0.N) (h1 : t.val % 17 = 16) :
    (dats m 0 c).leaves 1 t = owns (c : Thread nD τ) (ms1 t) fullShare ((outsAt m c t.val t.isLt).1) := by
  unfold Dat.leaves
  rw [live1 t h1]
  dsimp only
  rw [after1 m c t]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t)

set_option maxHeartbeats 4800000 in
/-- The body at any point. The input's buffer arrives just fetched (its block, and anything past the array's end); the
    closed forms say which kind of point this is; the invariant hands the body the accumulators at what the point
    before left (at anything before the first point), and takes them back at this point's contents — which do not
    depend on what the buffer holds past the array's end: off the last column block nothing is past it, and at the last
    the body masks those columns before it reads them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).owesAt () t.succ = (dats m 0 c).owesAt () t.castSucc from rfl]
  rw [show (dats m 0 c).Φ t.succ = PhiS m c (t.val + 1) t.isLt from rfl, PhiS_succ]
  rw [leaves0 m c t]
  have hN : t.val < 136 := lt_of_lt_of_eq t.isLt (show cfg0.N = 136 from N_0)
  by_cases h0 : t.val % 17 = 0
  · -- a FIRST point
    have h1 : ¬t.val % 17 = 16 := by omega
    have hF : condFirst (grid0.coords t) := (hcondFirst t).mpr h0
    have hL : ¬condLast (grid0.coords t) := fun h => h1 ((hcondLast t).mp h)
    have hNL : condNotLast (grid0.coords t) := (hcondNotLast t).mpr h1
    have hO : ¬condOut (grid0.coords t) := fun h => h1 ((hcondOut t).mp h)
    rw [Dat.leaves_idle (dats m 0 c) 1 t (idle1 t h1) (noFlush1 t h1)]
    rw [outsAt_first m c t h0]; dsimp only
    by_cases hz : t.val = 0
    · rw [PhiS_castSucc m c t, PhiS_zero m c _ _ hz, PhiA_eq]
      iintro ⟨⟨⟨⟨%dm, HM⟩, ⟨%ds, HS⟩⟩, Hg⟩, Ho, ⟨%d0, H0⟩, ⟨%d1, H1⟩⟩
      iapply ((runFirst c (grid0.coords t) (ms0 t) (hs0 t) (ms1 t) (hs1 t) scMax (Memref.isWhole_whole _) scSum (Memref.isWhole_whole _) hF hL hNL hO (win0_0.fill (grid0.coords t) d0 (iblk m c 0 t))).2.2 _ Set.univ _)
      isplitl [H0]; · iexact H0
      isplitl [H1]; · iexact H1
      isplitl [HM]; · iexists _; iexact HM
      isplitl [HS]; · iexists _; iexact HS
      iintro ⟨H0, H1, ⟨%em, HM⟩, ⟨%es, HS⟩⟩
      isplitl [HM HS Hg]
      · isplitl [HM HS]
        · isplitl [HM]
          · unfold owns; iexists _; isplitr
            swap; · iexact HM
            ipureintro
            exact (View.read_writes_of_cover _ _ _ _ _ (coverM_First c (grid0.coords t) (ms0 t) (hs0 t) (ms1 t) (hs1 t) scMax (Memref.isWhole_whole _) scSum (Memref.isWhole_whole _) hF hL hNL hO _)).trans
              ((maxFirst_eq c (grid0.coords t) (ms0 t) (hs0 t) (ms1 t) (hs1 t) scMax (Memref.isWhole_whole _) scSum (Memref.isWhole_whole _) hF hL hNL hO _).trans (by rw [fill_indep t h1 d0 (fun _ => Scalar.ofBits .f32 0#32)]; rfl))
          · unfold owns; iexists _; isplitr
            swap; · iexact HS
            ipureintro
            exact (View.read_writes_of_cover _ _ _ _ _ (coverS_First c (grid0.coords t) (ms0 t) (hs0 t) (ms1 t) (hs1 t) scMax (Memref.isWhole_whole _) scSum (Memref.isWhole_whole _) hF hL hNL hO _)).trans
              ((sumFirst_eq c (grid0.coords t) (ms0 t) (hs0 t) (ms1 t) (hs1 t) scMax (Memref.isWhole_whole _) scSum (Memref.isWhole_whole _) hF hL hNL hO _).trans (by rw [fill_indep t h1 d0 (fun _ => Scalar.ofBits .f32 0#32)]; rfl))
        iexact Hg
      isplitl [Ho]; · iexact Ho
      isplitl [H0]; · iexists d0; iexact H0
      iexists _; iexact H1
    · rw [PhiS_castSucc m c t, PhiS_pos m c _ _ hz]
      iintro ⟨⟨⟨HM, HS⟩, Hg⟩, Ho, ⟨%d0, H0⟩, ⟨%d1, H1⟩⟩
      iapply ((runFirst c (grid0.coords t) (ms0 t) (hs0 t) (ms1 t) (hs1 t) scMax (Memref.isWhole_whole _) scSum (Memref.isWhole_whole _) hF hL hNL hO (win0_0.fill (grid0.coords t) d0 (iblk m c 0 t))).2.2 _ Set.univ _)
      isplitl [H0]; · iexact H0
      isplitl [H1]; · iexact H1
      isplitl [HM]; · iexists _; iexact HM
      isplitl [HS]; · iexists _; iexact HS
      iintro ⟨H0, H1, ⟨%em, HM⟩, ⟨%es, HS⟩⟩
      isplitl [HM HS Hg]
      · isplitl [HM HS]
        · isplitl [HM]
          · unfold owns; iexists _; isplitr
            swap; · iexact HM
            ipureintro
            exact (View.read_writes_of_cover _ _ _ _ _ (coverM_First c (grid0.coords t) (ms0 t) (hs0 t) (ms1 t) (hs1 t) scMax (Memref.isWhole_whole _) scSum (Memref.isWhole_whole _) hF hL hNL hO _)).trans
              ((maxFirst_eq c (grid0.coords t) (ms0 t) (hs0 t) (ms1 t) (hs1 t) scMax (Memref.isWhole_whole _) scSum (Memref.isWhole_whole _) hF hL hNL hO _).trans (by rw [fill_indep t h1 d0 (fun _ => Scalar.ofBits .f32 0#32)]; rfl))
          · unfold owns; iexists _; isplitr
            swap; · iexact HS
            ipureintro
            exact (View.read_writes_of_cover _ _ _ _ _ (coverS_First c (grid0.coords t) (ms0 t) (hs0 t) (ms1 t) (hs1 t) scMax (Memref.isWhole_whole _) scSum (Memref.isWhole_whole _) hF hL hNL hO _)).trans
              ((sumFirst_eq c (grid0.coords t) (ms0 t) (hs0 t) (ms1 t) (hs1 t) scMax (Memref.isWhole_whole _) scSum (Memref.isWhole_whole _) hF hL hNL hO _).trans (by rw [fill_indep t h1 d0 (fun _ => Scalar.ofBits .f32 0#32)]; rfl))
        iexact Hg
      isplitl [Ho]; · iexact Ho
      isplitl [H0]; · iexists d0; iexact H0
      iexists _; iexact H1
  · have hz : t.val ≠ 0 := fun h => h0 (by rw [h])
    have hF : ¬condFirst (grid0.coords t) := fun h => h0 ((hcondFirst t).mp h)
    by_cases h1 : t.val % 17 = 16
    · -- a LAST point
      have hL : condLast (grid0.coords t) := (hcondLast t).mpr h1
      have hNL : ¬condNotLast (grid0.coords t) := fun h => (hcondNotLast t).mp h h1
      have hO : condOut (grid0.coords t) := (hcondOut t).mpr h1
      have hi : ((grid0.coords t) 1).val = 16 := col_last t h1
      rw [leaves1_last m c t h1]
      rw [outsAt_last m c t h0 h1]; dsimp only
      rw [PhiS_castSucc m c t, PhiS_pos m c _ _ hz]
      iintro ⟨⟨⟨HM, HS⟩, Hg⟩, Ho, ⟨%d0, H0⟩, ⟨%d1, H1⟩⟩
      have hag : ∀ j : S512x3072.Idx, (j 1).val < 1105 →
          win0_0.fill (grid0.coords t) d0 (iblk m c 0 t) j = xcan m c t j := fun j hj => fill_agree t h1 _ _ _ j hj
      iapply ((runLast c (grid0.coords t) (ms0 t) (hs0 t) (ms1 t) (hs1 t) scMax (Memref.isWhole_whole _) scSum (Memref.isWhole_whole _) hF hL hNL hO (win0_0.fill (grid0.coords t) d0 (iblk m c 0 t)) _ _).2.2.2 Set.univ _)
      isplitl [H0]; · iexact H0
      isplitl [H1]; · iexists _; iexact H1
      isplitl [HM]; · iexact HM
      isplitl [HS]; · iexact HS
      iintro ⟨H0, ⟨%e1, H1⟩, ⟨%em, HM⟩, ⟨%es, HS⟩⟩
      isplitl [HM HS Hg]
      · isplitl [HM HS]
        · isplitl [HM]
          · unfold owns; iexists _; isplitr
            swap; · iexact HM
            ipureintro
            exact (View.read_writes_of_cover _ _ _ _ _ (coverM_Last c (grid0.coords t) (ms0 t) (hs0 t) (ms1 t) (hs1 t) scMax (Memref.isWhole_whole _) scSum (Memref.isWhole_whole _) hF hL hNL hO _ _ _)).trans
              ((maxLast_eq c (grid0.coords t) (ms0 t) (hs0 t) (ms1 t) (hs1 t) scMax (Memref.isWhole_whole _) scSum (Memref.isWhole_whole _) hF hL hNL hO _ _ _).trans (pay6_congr _ hi _ _ hag _))
          · unfold owns; iexists _; isplitr
            swap; · iexact HS
            ipureintro
            exact (View.read_writes_of_cover _ _ _ _ _ (coverS_Last c (grid0.coords t) (ms0 t) (hs0 t) (ms1 t) (hs1 t) scMax (Memref.isWhole_whole _) scSum (Memref.isWhole_whole _) hF hL hNL hO _ _ _)).trans
              ((sumLast_eq c (grid0.coords t) (ms0 t) (hs0 t) (ms1 t) (hs1 t) scMax (Memref.isWhole_whole _) scSum (Memref.isWhole_whole _) hF hL hNL hO _ _ _).trans (pay5_congr _ hi _ _ hag _ _))
        iexact Hg
      isplitl [Ho]; · iexact Ho
      isplitl [H0]; · iexists d0; iexact H0
      unfold owns; iexists _; isplitr
      swap; · iexact H1
      ipureintro
      exact (View.read_writes_of_cover _ _ _ _ _ (coverO_Last c (grid0.coords t) (ms0 t) (hs0 t) (ms1 t) (hs1 t) scMax (Memref.isWhole_whole _) scSum (Memref.isWhole_whole _) hF hL hNL hO _ _ _)).trans
        ((outLast_eq c (grid0.coords t) (ms0 t) (hs0 t) (ms1 t) (hs1 t) scMax (Memref.isWhole_whole _) scSum (Memref.isWhole_whole _) hF hL hNL hO _ _ _).trans (by rw [pay6_congr _ hi _ _ hag _, pay5_congr _ hi _ _ hag _ _]))
    · -- a MIDDLE point
      have hL : ¬condLast (grid0.coords t) := fun h => h1 ((hcondLast t).mp h)
      have hNL : condNotLast (grid0.coords t) := (hcondNotLast t).mpr h1
      have hO : ¬condOut (grid0.coords t) := fun h => h1 ((hcondOut t).mp h)
      rw [Dat.leaves_idle (dats m 0 c) 1 t (idle1 t h1) (noFlush1 t h1)]
      rw [outsAt_middle m c t h0 h1]; dsimp only
      rw [PhiS_castSucc m c t, PhiS_pos m c _ _ hz]
      iintro ⟨⟨⟨HM, HS⟩, Hg⟩, Ho, ⟨%d0, H0⟩, ⟨%d1, H1⟩⟩
      have e : win0_0.fill (grid0.coords t) d0 (iblk m c 0 t) = xcan m c t := fill_indep t h1 _ _ _
      iapply ((runMiddle c (grid0.coords t) (ms0 t) (hs0 t) (ms1 t) (hs1 t) scMax (Memref.isWhole_whole _) scSum (Memref.isWhole_whole _) hF hL hNL hO (win0_0.fill (grid0.coords t) d0 (iblk m c 0 t)) _ _).2.2 _ Set.univ _)
      isplitl [H0]; · iexact H0
      isplitl [H1]; · iexact H1
      isplitl [HM]; · iexact HM
      isplitl [HS]; · iexact HS
      iintro ⟨H0, H1, ⟨%em, HM⟩, ⟨%es, HS⟩⟩
      isplitl [HM HS Hg]
      · isplitl [HM HS]
        · isplitl [HM]
          · unfold owns; iexists _; isplitr
            swap; · iexact HM
            ipureintro
            exact (View.read_writes_of_cover _ _ _ _ _ (coverM_Middle c (grid0.coords t) (ms0 t) (hs0 t) (ms1 t) (hs1 t) scMax (Memref.isWhole_whole _) scSum (Memref.isWhole_whole _) hF hL hNL hO _ _ _)).trans
              ((maxMiddle_eq c (grid0.coords t) (ms0 t) (hs0 t) (ms1 t) (hs1 t) scMax (Memref.isWhole_whole _) scSum (Memref.isWhole_whole _) hF hL hNL hO _ _ _).trans (by rw [e]))
          · unfold owns; iexists _; isplitr
            swap; · iexact HS
            ipureintro
            exact (View.read_writes_of_cover _ _ _ _ _ (coverS_Middle c (grid0.coords t) (ms0 t) (hs0 t) (ms1 t) (hs1 t) scMax (Memref.isWhole_whole _) scSum (Memref.isWhole_whole _) hF hL hNL hO _ _ _)).trans
              ((sumMiddle_eq c (grid0.coords t) (ms0 t) (hs0 t) (ms1 t) (hs1 t) scMax (Memref.isWhole_whole _) scSum (Memref.isWhole_whole _) hF hL hNL hO _ _ _).trans (by rw [e]))
        iexact Hg
      isplitl [Ho]; · iexact Ho
      isplitl [H0]; · iexists d0; iexact H0
      iexists _; iexact H1

/-- The library's body obligation (each buffer stated on the part its transfers move), at every point. -/
theorem body_obligation (c : Dev nD) :
    Pipeline.BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back at some contents. -/
theorem hout (c : Dev nD) : (dats m 0 c).Φ (Fin.last cfg0.N) ⊢ Pipeline.ΦA spec0 c := by
  have hne : (Fin.last cfg0.N).val ≠ 0 := by rw [Fin.val_last]; have : cfg0.N = 136 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨⟨HM, HS⟩, Hg⟩
  isplitl [HM HS]
  · isplitl [HM]
    · iexists _; iexact HM
    iexists _; iexact HS
  iexact Hg

/-! ## The run and the frame -/

set_option backward.isDefEq.respectTransparency.types false in
/-- From any memory with zero counters every weakly fair execution of the program terminates, and every final state has
    each array of the pipeline at what the library computes from the proof data, every other unscoped buffer as the
    host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Cases.lean ====
/-
  The kernel's control, decided over the grid. The grid is 8 row blocks by 17 column blocks, the column block moving
  fastest: point `t` is row block `t / 17`, column block `t % 17`. The body has four conditionals on the column block:
  the accumulators are reset at column block 0; the masked update runs at column block 16 (the one block that
  overhangs the array's 50257 columns); the plain update runs at every other column block; and the output block is
  stored, from the accumulators, at column block 16 — the only points at which the pipeline writes it back.
  So three kinds of point: FIRST (column block 0), MIDDLE (1 … 15), LAST (16).
-/
import proofs.«413743_j37546604102464_2_alg».proof.Proof.Gen.KernelIdeal.Launch
import proofs.«413743_j37546604102464_2_alg».proof.Proof.Gen.KernelIdeal.Skeleton
import proofs.«413743_j37546604102464_2_alg».proof.Proof.Gen.KernelIdeal.Points
import proofs.«413743_j37546604102464_2_alg».proof.Proof.Gen.KernelIdeal.Frame
import Idealize.ShloMosaic.Lib.Pipeline.FrameBody
import Idealize.ShloMosaic.Lib.Pipeline.FrameSuffix
import Idealize.ShloMosaic.Lib.Pipeline.Value
import Idealize.ShloMosaic.Lib.StableHlo.Predicate
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The four conditions, as the body computes them from the column block -/

/-- "This is column block 0": the accumulators are reset. -/
abbrev condFirst (i : grid0.Coords) : Prop :=
  (Scalar.cmpi .ne (Scalar.extui (Scalar.cmpi .eq (BitVec.ofNat 32 (i 1).val) 0#32)) 0#32) = 1#1
/-- "This is column block 16": the masked update. -/
abbrev condLast (i : grid0.Coords) : Prop :=
  (Scalar.cmpi .ne (Scalar.extui (Scalar.cmpi .eq (BitVec.ofNat 32 (i 1).val) 16#32)) 0#32) = 1#1
/-- "This is not column block 16": the plain update. -/
abbrev condNotLast (i : grid0.Coords) : Prop :=
  (Scalar.cmpi .ne (Scalar.extui (Scalar.cmpi .ne (BitVec.ofNat 32 (i 1).val) 16#32)) 0#32) = 1#1
/-- "This is column block 16", again: the output block is stored. -/
abbrev condOut (i : grid0.Coords) : Prop := k0_cond4 i = 1#1

theorem hcondFirst : ∀ t : Fin cfg0.N, condFirst (grid0.coords t) ↔ t.val % 17 = 0 :=
  (by decide +kernel : ∀ t : Fin grid0.N, condFirst (grid0.coords t) ↔ t.val % 17 = 0)
theorem hcondLast : ∀ t : Fin cfg0.N, condLast (grid0.coords t) ↔ t.val % 17 = 16 :=
  (by decide +kernel : ∀ t : Fin grid0.N, condLast (grid0.coords t) ↔ t.val % 17 = 16)
theorem hcondNotLast : ∀ t : Fin cfg0.N, condNotLast (grid0.coords t) ↔ ¬t.val % 17 = 16 :=
  (by decide +kernel : ∀ t : Fin grid0.N, condNotLast (grid0.coords t) ↔ ¬t.val % 17 = 16)
theorem hcondOut : ∀ t : Fin cfg0.N, condOut (grid0.coords t) ↔ t.val % 17 = 16 :=
  (by decide +kernel : ∀ t : Fin grid0.N, condOut (grid0.coords t) ↔ t.val % 17 = 16)

/-! ## Where the windows are idle, and where the output is written back -/

/-- The input window is never idle. -/
theorem live0 : ∀ t : Fin cfg0.N, cfg0.idle 0 (grid0.coords t) = false := by decide +kernel
/-- Off the last column block the output window is idle and not written back. -/
theorem idle1 : ∀ t : Fin cfg0.N, ¬t.val % 17 = 16 → cfg0.idle 1 (grid0.coords t) = true := by decide +kernel
theorem noFlush1 : ∀ t : Fin cfg0.N, ¬t.val % 17 = 16 → (cfg0.win 1).flush t = false := by decide +kernel
/-- At the last column block it is live. -/
theorem live1 : ∀ t : Fin cfg0.N, t.val % 17 = 16 → cfg0.idle 1 (grid0.coords t) = false := by decide +kernel
/-- The output window is never fetched. -/
theorem noFetch1 : ∀ t : Fin cfg0.N, (cfg0.win 1).fetch t = false := by decide +kernel

/-! ## The memrefs the body is called with -/

abbrev ms0 (t : Fin cfg0.N) : Memref sig .tc .vmem S512x3072 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .f32 := win0_1.stage (cfg0.slots t 1)
abbrev hs1 (t : Fin cfg0.N) : (ms1 t).IsWhole := hstage0_1 ((cfg0.slots t 1).cast nbuf0_1)
/-- The running maximum's buffer and the running sum's. -/
abbrev scMax : Memref sig .tc .vmem S512x1 .f32 := Memref.whole cc0_scratch0
abbrev scSum : Memref sig .tc .vmem S512x1 .f32 := Memref.whole cc0_scratch1
/-- Views through which contents of the output block and of the two accumulators are stated. -/
abbrev VOut : View sig .tc .vmem S512x1 .f32 := (Memref.whole cc0_stg1_0 : Memref sig .tc .vmem S512x1 .f32).view
abbrev VMax : View sig .tc .vmem S512x1 .f32 := scMax.view
abbrev VSum : View sig .tc .vmem S512x1 .f32 := scSum.view

/-- What the launch hands the region besides the windows: the two accumulators at some contents, and the generator
    register. -/
theorem PhiA_eq (c : Dev nD) :
    (Pipeline.ΦA spec0 c : sProp 𝕄)
      = iprop(iprop((∃ d, owns (c : Thread nD τ) scMax fullShare d) ∗ (∃ d, owns (c : Thread nD τ) scSum fullShare d)) ∗ (∃ r, prngReg c r)) := by
  unfold Pipeline.ΦA; rw [scopedRest0_eq]; simp only [scMax, scSum, owns_whole]; try rfl

end Cert.KernelIdeal.Hand

end
-- ==== Proof.KI.RunFirst.lean ====
/-
  The body's run at a FIRST point (column block 0), by symbolic execution of the printed body.
-/
import proofs.«413743_j37546604102464_2_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a FIRST point (column block 0): the accumulators, held at anything, are reset — the running maximum to
    the reduction's identity, the running sum to zero — and then updated with the block's row maxima and shifted
    exponential sums; the input block is left as found and the output block, not stored here, is handed back as found.
    The pieces each accumulator ends with are what the run finds. -/
noncomputable def runFirst (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : condFirst i) (hL : ¬condLast i) (hN : condNotLast i) (hO : ¬condOut i) (x0 : Vec F S512x3072 .f32) :
    Σ' (LM : List (View.Piece (Elt F) S512x1 .f32)), { LS : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f LM)
                ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨?_, ?_, fun xi1 E K => ?run⟩
  case run =>
    simp only [cc0_kernel_eq_skeleton]; unfold cc0_kernel_skel
    unfold owns
    iintro ⟨⟨%f0, %hf0, H0⟩, ⟨%f1, %hf1, H1⟩, ⟨%dm, %fm, -, HM⟩, ⟨%ds, %fs, -, HS⟩, Hk⟩
    obtain rfl := harg2.eq_unread hf0; obtain rfl := harg3.eq_unread hf1
    sl_exec (disch := first | exact hF | exact hL | exact hN | exact hO)
    sl_step
    iapply Hk
    isplitl [H0]
    · iexists _; isplitr; · ipureintro; exact harg2.read_unread _
      iexact H0
    isplitl [H1]
    · iexists _; isplitr; · ipureintro; exact harg3.read_unread _
      iexact H1
    isplitl [HM]; · iexists _; iexact HM
    iexists _; iexact HS

end Cert.KernelIdeal.Hand

end
-- ==== Proof.KI.RunMiddle.lean ====
/-
  The body's run at a MIDDLE point (column blocks 1 … 15), by symbolic execution of the printed body.
-/
import proofs.«413743_j37546604102464_2_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a MIDDLE point (column blocks 1 … 15): the accumulators arrive holding what the point before left
    (`xm` the running maximum, `xs` the running sum) and are updated with the block's row maxima and shifted exponential
    sums; the input block is left as found and the output block, not stored here, is handed back as found. -/
noncomputable def runMiddle (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : ¬condLast i) (hN : condNotLast i) (hO : ¬condOut i) (x0 : Vec F S512x3072 .f32)
    (xm : Vec F S512x1 .f32) (xs : Vec F S512x1 .f32) :
    Σ' (LM : List (View.Piece (Elt F) S512x1 .f32)), { LS : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1
            ∗ owns (c : Thread nD τ) arg4 fullShare xm ∗ owns (c : Thread nD τ) arg5 fullShare xs
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f LM)
                ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨?_, ?_, fun xi1 E K => ?run⟩
  case run =>
    simp only [cc0_kernel_eq_skeleton]; unfold cc0_kernel_skel
    unfold owns
    iintro ⟨⟨%f0, %hf0, H0⟩, ⟨%f1, %hf1, H1⟩, ⟨%fm, %hfm, HM⟩, ⟨%fs, %hfs, HS⟩, Hk⟩
    obtain rfl := harg2.eq_unread hf0; obtain rfl := harg3.eq_unread hf1
    obtain rfl := harg4.eq_unread hfm; obtain rfl := harg5.eq_unread hfs
    sl_exec (disch := first | exact hF | exact hL | exact hN | exact hO)
    sl_step
    iapply Hk
    isplitl [H0]
    · iexists _; isplitr; · ipureintro; exact harg2.read_unread _
      iexact H0
    isplitl [H1]
    · iexists _; isplitr; · ipureintro; exact harg3.read_unread _
      iexact H1
    isplitl [HM]; · iexists _; iexact HM
    iexists _; iexact HS

end Cert.KernelIdeal.Hand

end
-- ==== Proof.KI.RunLast.lean ====
/-
  The body's run at a LAST point (column block 16), by symbolic execution of the printed body.
-/
import proofs.«413743_j37546604102464_2_alg».proof.Proof.KI.RunMiddle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a LAST point (column block 16): the accumulators arrive holding what the point before left and are
    updated with the block's row maxima and shifted exponential sums taken over the columns inside the array only (the
    others are masked to the reduction's identity first); then the output block, held at anything, is stored from the
    updated accumulators: running maximum plus the logarithm of the running sum. -/
noncomputable def runLast (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : condLast i) (hN : ¬condNotLast i) (hO : condOut i) (x0 : Vec F S512x3072 .f32)
    (xm : Vec F S512x1 .f32) (xs : Vec F S512x1 .f32) :
    Σ' (L1 : List (View.Piece (Elt F) S512x1 .f32)) (LM : List (View.Piece (Elt F) S512x1 .f32)), { LS : List (View.Piece (Elt F) S512x1 .f32) //
      ∀ (E : Set ℕ) (K : PUnit → sProp 𝕄),
        iprop(owns (c : Thread nD τ) arg2 fullShare x0 ∗ (∃ d, owns (c : Thread nD τ) arg3 fullShare d)
            ∗ owns (c : Thread nD τ) arg4 fullShare xm ∗ owns (c : Thread nD τ) arg5 fullShare xs
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f LM)
                ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨?_, ?_, ?_, fun E K => ?run⟩
  case run =>
    simp only [cc0_kernel_eq_skeleton]; unfold cc0_kernel_skel
    unfold owns
    iintro ⟨⟨%f0, %hf0, H0⟩, ⟨%d1, %f1, -, H1⟩, ⟨%fm, %hfm, HM⟩, ⟨%fs, %hfs, HS⟩, Hk⟩
    obtain rfl := harg2.eq_unread hf0
    obtain rfl := harg4.eq_unread hfm; obtain rfl := harg5.eq_unread hfs
    sl_exec (disch := first | exact hF | exact hL | exact hN | exact hO)
    sl_step
    iapply Hk
    isplitl [H0]
    · iexists _; isplitr; · ipureintro; exact harg2.read_unread _
      iexact H0
    isplitl [H1]; · iexists _; iexact H1
    isplitl [HM]; · iexists _; iexact HM
    iexists _; iexact HS

end Cert.KernelIdeal.Hand

end
-- ==== Proof.KI.Pieces.lean ====
/-
  What each kind of point leaves in the two accumulators and in the output block, as the body's arithmetic on what it
  found: the stores the run listed, read back (the last store to a buffer covers it; a load after a store reads the
  stored value).
-/
import proofs.«413743_j37546604102464_2_alg».proof.Proof.KI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## FIRST points -/

theorem coverM_First (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : condFirst i) (hL : ¬condLast i) (hN : condNotLast i) (hO : ¬condOut i) (x0 : Vec F S512x3072 .f32) (y : S512x1.Idx) :
    ∃ pc ∈ (runFirst c i arg2 harg2 arg3 harg3 arg4 harg4 arg5 harg5 hF hL hN hO x0).1, y ∈ pc.1.set :=
  View.cover_of_tiledL (runFirst c i arg2 harg2 arg3 harg3 arg4 harg4 arg5 harg5 hF hL hN hO x0).1 S512x1.size (by sl_kernel_rfl) y

theorem coverS_First (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : condFirst i) (hL : ¬condLast i) (hN : condNotLast i) (hO : ¬condOut i) (x0 : Vec F S512x3072 .f32) (y : S512x1.Idx) :
    ∃ pc ∈ (runFirst c i arg2 harg2 arg3 harg3 arg4 harg4 arg5 harg5 hF hL hN hO x0).2.1, y ∈ pc.1.set :=
  View.cover_of_tiledL (runFirst c i arg2 harg2 arg3 harg3 arg4 harg4 arg5 harg5 hF hL hN hO x0).2.1 S512x1.size (by sl_kernel_rfl) y

/-- At a FIRST point the running maximum ends at the block's row maxima taken over the reset value. -/
theorem maxFirst_eq (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : condFirst i) (hL : ¬condLast i) (hN : condNotLast i) (hO : ¬condOut i) (x0 : Vec F S512x3072 .f32) :
    VMax.read (Elt F) (VMax.writes (Elt F) VMax.junk (runFirst c i arg2 harg2 arg3 harg3 arg4 harg4 arg5 harg5 hF hL hN hO x0).1)
      = k0_pay9 x0 (k0_pay1 (F := F)) := by
  have hz : (![0, 0] : Fin 2 → Nat) = fun _ => 0 := funext fun a => by fin_cases a <;> rfl
  rw [View.read_writes_eq_canon _ _ _ (coverM_First c i arg2 harg2 arg3 harg3 arg4 harg4 arg5 harg5 hF hL hN hO x0)]
  unfold runFirst
  dsimp only
  sl_unfold_words
  rw [View.canon_cons_unit_zero (S := S512x1) hz]
  simp only [View.readAt_eq_ld, harg2.read_unread, View.ld_unit_zero (S := S512x3072) hz, View.readCov_unit_zero (S := S512x1) _ hz]

/-- At a FIRST point the running sum ends at the block's shifted exponential sums added to the reset value rescaled. -/
theorem sumFirst_eq (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : condFirst i) (hL : ¬condLast i) (hN : condNotLast i) (hO : ¬condOut i) (x0 : Vec F S512x3072 .f32) :
    VSum.read (Elt F) (VSum.writes (Elt F) VSum.junk (runFirst c i arg2 harg2 arg3 harg3 arg4 harg4 arg5 harg5 hF hL hN hO x0).2.1)
      = k0_pay8 x0 (k0_pay1 (F := F)) (k0_pay2 (F := F)) := by
  have hz : (![0, 0] : Fin 2 → Nat) = fun _ => 0 := funext fun a => by fin_cases a <;> rfl
  rw [View.read_writes_eq_canon _ _ _ (coverS_First c i arg2 harg2 arg3 harg3 arg4 harg4 arg5 harg5 hF hL hN hO x0)]
  unfold runFirst
  dsimp only
  sl_unfold_words
  rw [View.canon_cons_unit_zero (S := S512x1) hz]
  simp only [View.readAt_eq_ld, harg2.read_unread, View.ld_unit_zero (S := S512x3072) hz, View.readCov_unit_zero (S := S512x1) _ hz]

/-! ## MIDDLE points -/

theorem coverM_Middle (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : ¬condLast i) (hN : condNotLast i) (hO : ¬condOut i) (x0 : Vec F S512x3072 .f32) (xm : Vec F S512x1 .f32) (xs : Vec F S512x1 .f32) (y : S512x1.Idx) :
    ∃ pc ∈ (runMiddle c i arg2 harg2 arg3 harg3 arg4 harg4 arg5 harg5 hF hL hN hO x0 xm xs).1, y ∈ pc.1.set :=
  View.cover_of_tiledL (runMiddle c i arg2 harg2 arg3 harg3 arg4 harg4 arg5 harg5 hF hL hN hO x0 xm xs).1 S512x1.size (by sl_kernel_rfl) y

theorem coverS_Middle (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : ¬condLast i) (hN : condNotLast i) (hO : ¬condOut i) (x0 : Vec F S512x3072 .f32) (xm : Vec F S512x1 .f32) (xs : Vec F S512x1 .f32) (y : S512x1.Idx) :
    ∃ pc ∈ (runMiddle c i arg2 harg2 arg3 harg3 arg4 harg4 arg5 harg5 hF hL hN hO x0 xm xs).2.1, y ∈ pc.1.set :=
  View.cover_of_tiledL (runMiddle c i arg2 harg2 arg3 harg3 arg4 harg4 arg5 harg5 hF hL hN hO x0 xm xs).2.1 S512x1.size (by sl_kernel_rfl) y

/-- At a MIDDLE point the running maximum ends at the larger of what it held and the block's row maxima. -/
theorem maxMiddle_eq (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : ¬condLast i) (hN : condNotLast i) (hO : ¬condOut i) (x0 : Vec F S512x3072 .f32) (xm : Vec F S512x1 .f32) (xs : Vec F S512x1 .f32) :
    VMax.read (Elt F) (VMax.writes (Elt F) VMax.junk (runMiddle c i arg2 harg2 arg3 harg3 arg4 harg4 arg5 harg5 hF hL hN hO x0 xm xs).1)
      = k0_pay9 x0 xm := by
  have hz : (![0, 0] : Fin 2 → Nat) = fun _ => 0 := funext fun a => by fin_cases a <;> rfl
  rw [View.read_writes_eq_canon _ _ _ (coverM_Middle c i arg2 harg2 arg3 harg3 arg4 harg4 arg5 harg5 hF hL hN hO x0 xm xs)]
  unfold runMiddle
  dsimp only
  sl_unfold_words
  rw [View.canon_cons_unit_zero (S := S512x1) hz]
  simp only [View.readAt_eq_ld, harg2.read_unread, harg4.read_unread, harg5.read_unread, View.ld_unit_zero (S := S512x3072) hz, View.ld_unit_zero (S := S512x1) hz, View.readCov_unit_zero (S := S512x1) _ hz]

/-- At a MIDDLE point the running sum ends at what it held, rescaled to the new maximum, plus the block's shifted
    exponential sums. -/
theorem sumMiddle_eq (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : ¬condLast i) (hN : condNotLast i) (hO : ¬condOut i) (x0 : Vec F S512x3072 .f32) (xm : Vec F S512x1 .f32) (xs : Vec F S512x1 .f32) :
    VSum.read (Elt F) (VSum.writes (Elt F) VSum.junk (runMiddle c i arg2 harg2 arg3 harg3 arg4 harg4 arg5 harg5 hF hL hN hO x0 xm xs).2.1)
      = k0_pay8 x0 xm xs := by
  have hz : (![0, 0] : Fin 2 → Nat) = fun _ => 0 := funext fun a => by fin_cases a <;> rfl
  rw [View.read_writes_eq_canon _ _ _ (coverS_Middle c i arg2 harg2 arg3 harg3 arg4 harg4 arg5 harg5 hF hL hN hO x0 xm xs)]
  unfold runMiddle
  dsimp only
  sl_unfold_words
  rw [View.canon_cons_unit_zero (S := S512x1) hz]
  simp only [View.readAt_eq_ld, harg2.read_unread, harg4.read_unread, harg5.read_unread, View.ld_unit_zero (S := S512x3072) hz, View.ld_unit_zero (S := S512x1) hz, View.readCov_unit_zero (S := S512x1) _ hz]

/-! ## LAST points -/

theorem coverO_Last (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : condLast i) (hN : ¬condNotLast i) (hO : condOut i) (x0 : Vec F S512x3072 .f32) (xm : Vec F S512x1 .f32) (xs : Vec F S512x1 .f32) (y : S512x1.Idx) :
    ∃ pc ∈ (runLast c i arg2 harg2 arg3 harg3 arg4 harg4 arg5 harg5 hF hL hN hO x0 xm xs).1, y ∈ pc.1.set :=
  View.cover_of_tiledL (runLast c i arg2 harg2 arg3 harg3 arg4 harg4 arg5 harg5 hF hL hN hO x0 xm xs).1 S512x1.size (by sl_kernel_rfl) y

theorem coverM_Last (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : condLast i) (hN : ¬condNotLast i) (hO : condOut i) (x0 : Vec F S512x3072 .f32) (xm : Vec F S512x1 .f32) (xs : Vec F S512x1 .f32) (y : S512x1.Idx) :
    ∃ pc ∈ (runLast c i arg2 harg2 arg3 harg3 arg4 harg4 arg5 harg5 hF hL hN hO x0 xm xs).2.1, y ∈ pc.1.set :=
  View.cover_of_tiledL (runLast c i arg2 harg2 arg3 harg3 arg4 harg4 arg5 harg5 hF hL hN hO x0 xm xs).2.1 S512x1.size (by sl_kernel_rfl) y

theorem coverS_Last (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : condLast i) (hN : ¬condNotLast i) (hO : condOut i) (x0 : Vec F S512x3072 .f32) (xm : Vec F S512x1 .f32) (xs : Vec F S512x1 .f32) (y : S512x1.Idx) :
    ∃ pc ∈ (runLast c i arg2 harg2 arg3 harg3 arg4 harg4 arg5 harg5 hF hL hN hO x0 xm xs).2.2.1, y ∈ pc.1.set :=
  View.cover_of_tiledL (runLast c i arg2 harg2 arg3 harg3 arg4 harg4 arg5 harg5 hF hL hN hO x0 xm xs).2.2.1 S512x1.size (by sl_kernel_rfl) y

/-- At a LAST point the running maximum ends at the larger of what it held and the masked block's row maxima. -/
theorem maxLast_eq (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : condLast i) (hN : ¬condNotLast i) (hO : condOut i) (x0 : Vec F S512x3072 .f32) (xm : Vec F S512x1 .f32) (xs : Vec F S512x1 .f32) :
    VMax.read (Elt F) (VMax.writes (Elt F) VMax.junk (runLast c i arg2 harg2 arg3 harg3 arg4 harg4 arg5 harg5 hF hL hN hO x0 xm xs).2.1)
      = k0_pay6 i x0 xm := by
  have hz : (![0, 0] : Fin 2 → Nat) = fun _ => 0 := funext fun a => by fin_cases a <;> rfl
  rw [View.read_writes_eq_canon _ _ _ (coverM_Last c i arg2 harg2 arg3 harg3 arg4 harg4 arg5 harg5 hF hL hN hO x0 xm xs)]
  unfold runLast
  dsimp only
  sl_unfold_words
  rw [View.canon_cons_unit_zero (S := S512x1) hz]
  simp only [View.readAt_eq_ld, harg2.read_unread, harg4.read_unread, harg5.read_unread, View.ld_unit_zero (S := S512x3072) hz, View.ld_unit_zero (S := S512x1) hz, View.readCov_unit_zero (S := S512x1) _ hz]

/-- At a LAST point the running sum ends at what it held, rescaled, plus the masked block's shifted exponential sums. -/
theorem sumLast_eq (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : condLast i) (hN : ¬condNotLast i) (hO : condOut i) (x0 : Vec F S512x3072 .f32) (xm : Vec F S512x1 .f32) (xs : Vec F S512x1 .f32) :
    VSum.read (Elt F) (VSum.writes (Elt F) VSum.junk (runLast c i arg2 harg2 arg3 harg3 arg4 harg4 arg5 harg5 hF hL hN hO x0 xm xs).2.2.1)
      = k0_pay5 i x0 xm xs := by
  have hz : (![0, 0] : Fin 2 → Nat) = fun _ => 0 := funext fun a => by fin_cases a <;> rfl
  rw [View.read_writes_eq_canon _ _ _ (coverS_Last c i arg2 harg2 arg3 harg3 arg4 harg4 arg5 harg5 hF hL hN hO x0 xm xs)]
  unfold runLast
  dsimp only
  sl_unfold_words
  rw [View.canon_cons_unit_zero (S := S512x1) hz]
  simp only [View.readAt_eq_ld, harg2.read_unread, harg4.read_unread, harg5.read_unread, View.ld_unit_zero (S := S512x3072) hz, View.ld_unit_zero (S := S512x1) hz, View.readCov_unit_zero (S := S512x1) _ hz]

/-- At a LAST point the output block is stored from the updated accumulators: maximum plus logarithm of the sum. -/
theorem outLast_eq (c : Dev nD) (i : grid0.Coords) (arg2 : Memref sig .tc .vmem S512x3072 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole)
    (hF : ¬condFirst i) (hL : condLast i) (hN : ¬condNotLast i) (hO : condOut i) (x0 : Vec F S512x3072 .f32) (xm : Vec F S512x1 .f32) (xs : Vec F S512x1 .f32) :
    VOut.read (Elt F) (VOut.writes (Elt F) VOut.junk (runLast c i arg2 harg2 arg3 harg3 arg4 harg4 arg5 harg5 hF hL hN hO x0 xm xs).1)
      = k0_pay10 (k0_pay6 i x0 xm) (k0_pay5 i x0 xm xs) := by
  have hz : (![0, 0] : Fin 2 → Nat) = fun _ => 0 := funext fun a => by fin_cases a <;> rfl
  rw [View.read_writes_eq_canon _ _ _ (coverO_Last c i arg2 harg2 arg3 harg3 arg4 harg4 arg5 harg5 hF hL hN hO x0 xm xs)]
  unfold runLast
  dsimp only
  sl_unfold_words
  rw [View.canon_cons_unit_zero (S := S512x1) hz]
  simp only [View.readAt_eq_ld, harg2.read_unread, harg4.read_unread, harg5.read_unread, View.ld_unit_zero (S := S512x3072) hz, View.ld_unit_zero (S := S512x1) hz, View.readCov_unit_zero (S := S512x1) _ hz]

end Cert.KernelIdeal.Hand

end
-- ==== Proof.KI.Indep.lean ====
/-
  What the accumulators hold does not depend on what the input's staging buffer holds past the array's end: off the
  last column block the block lies inside the array, and at the last the body masks the columns past the end before
  it reads them.
-/
import proofs.«413743_j37546604102464_2_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The staged input block -/

/-- The input block at point `t` as a whole (512, 3072) block: the array's entries on the part of the block inside the
    array, zero on the part that overhangs it (the last column block's 1967 columns past the array's end). What the
    accumulators' contents are stated over. -/
def xcan (c : Dev nD) (t : Fin cfg0.N) : Vec F S512x3072 .f32 :=
  win0_0.fill (grid0.coords t) (fun _ => Scalar.ofBits .f32 0#32) (iblk m c 0 t)

/-- Off the last column block the block lies inside the array: the fetch moves all of it. -/
theorem xsize_full : ∀ t : Fin cfg0.N, ¬t.val % 17 = 16 → ∀ a : Fin 2, win0_0.xsize (grid0.coords t) a = S512x3072.size a := by
  decide +kernel
/-- At the last column block it moves all 512 rows and the first 1105 columns. -/
theorem xsize_last : ∀ t : Fin cfg0.N, t.val % 17 = 16 →
    win0_0.xsize (grid0.coords t) 0 = 512 ∧ win0_0.xsize (grid0.coords t) 1 = 1105 := by
  decide +kernel
theorem col_last : ∀ t : Fin cfg0.N, t.val % 17 = 16 → ((grid0.coords t) 1).val = 16 := by
  decide +kernel

/-- So off the last column block a fetched buffer holds the block whatever it held before. -/
theorem fill_indep (t : Fin cfg0.N) (h : ¬t.val % 17 = 16) (d d' : S512x3072.Idx → Elt F .f32)
    (g : (win0_0.xblock (grid0.coords t)).Idx → Elt F .f32) :
    win0_0.fill (grid0.coords t) d g = win0_0.fill (grid0.coords t) d' g := by
  funext j
  have hm : win0_0.moved (grid0.coords t) j = true :=
    (win0_0.moved_iff _ j).mpr fun a => by rw [xsize_full t h a]; exact (j a).isLt
  unfold Window.fill
  rw [dif_pos hm, dif_pos hm]

/-- At the last column block two fetched buffers agree on the columns inside the array. -/
theorem fill_agree (t : Fin cfg0.N) (h : t.val % 17 = 16) (d d' : S512x3072.Idx → Elt F .f32)
    (g : (win0_0.xblock (grid0.coords t)).Idx → Elt F .f32) (j : S512x3072.Idx) (hj : (j 1).val < 1105) :
    win0_0.fill (grid0.coords t) d g j = win0_0.fill (grid0.coords t) d' g j := by
  have hm : win0_0.moved (grid0.coords t) j = true :=
    (win0_0.moved_iff _ j).mpr fun a => by
      match a with
      | ⟨0, _⟩ => exact lt_of_lt_of_eq (j 0).isLt (xsize_last t h).1.symm
      | ⟨1, _⟩ => exact lt_of_lt_of_eq hj (xsize_last t h).2.symm
  unfold Window.fill
  rw [dif_pos hm, dif_pos hm]

/-! ## The mask of the last column block -/

/-- In column block 16 the mask (column index plus 16 · 3072, compared below 50257) is set only on the first 1105
    columns of the block. -/
theorem mask_lt (i : grid0.Coords) (hi : (i 1).val = 16) (j : S512x3072.Idx)
    (h : (cmpi .slt (addi (iota .tc S512x3072 32 [1] iota_S512x3072_d1_w32)
        (broadcast S512x3072 (Scalar.muli (BitVec.ofNat 32 (i 1).val) 3072#32))) (broadcast S512x3072 50257#32)) j = 1) :
    (j 1).val < 1105 := by
  have hj : (j 1).val < 3072 := (j 1).isLt
  rw [hi] at h
  have e1 : Scalar.muli (BitVec.ofNat 32 16) 3072#32 = BitVec.ofNat 32 49152 := by decide
  rw [e1] at h
  have hw : (cmpi .slt (addi (iota .tc S512x3072 32 [1] iota_S512x3072_d1_w32) (broadcast S512x3072 49152#32))
      (broadcast S512x3072 50257#32)) j
      = IntOp.cmpi .slt (BitVec.ofNat 32 (0 * 3072 + (j 1).val) + 49152#32) 50257#32 := rfl
  rw [hw] at h
  have hsum : BitVec.ofNat 32 (0 * 3072 + (j 1).val) + 49152#32 = BitVec.ofNat 32 ((j 1).val + 49152) := by
    rw [Nat.zero_mul, Nat.zero_add, ← BitVec.ofNat_add]
  rw [hsum] at h
  have h' := (StableHlo.Predicate.slt_iff_toNat (a := BitVec.ofNat 32 ((j 1).val + 49152)) (b := 50257#32)
    (by simp only [BitVec.toNat_ofNat]; omega) (by decide)).mp h
  simp only [BitVec.toNat_ofNat] at h'
  omega

/-- So the masked block depends on the staged block only through its first 1105 columns; -/
theorem pay3_congr (i : grid0.Coords) (hi : (i 1).val = 16) (X X' : Vec F S512x3072 .f32)
    (hX : ∀ j : S512x3072.Idx, (j 1).val < 1105 → X j = X' j) : k0_pay3 i X = k0_pay3 i X' := by
  funext j
  unfold k0_pay3
  dsimp only [select, Scalar.select]
  split
  · rename_i hmask
    exact hX j (mask_lt i hi j hmask)
  · rfl

/-- and with it the masked update of the running maximum and of the running sum. -/
theorem pay6_congr (i : grid0.Coords) (hi : (i 1).val = 16) (X X' : Vec F S512x3072 .f32)
    (hX : ∀ j : S512x3072.Idx, (j 1).val < 1105 → X j = X' j) (xm : Vec F S512x1 .f32) :
    k0_pay6 i X xm = k0_pay6 i X' xm := by
  unfold k0_pay6 k0_pay4; rw [pay3_congr i hi X X' hX]
theorem pay5_congr (i : grid0.Coords) (hi : (i 1).val = 16) (X X' : Vec F S512x3072 .f32)
    (hX : ∀ j : S512x3072.Idx, (j 1).val < 1105 → X j = X' j) (xm xs : Vec F S512x1 .f32) :
    k0_pay5 i X xm xs = k0_pay5 i X' xm xs := by
  unfold k0_pay5 k0_pay4; rw [pay3_congr i hi X X' hX]

end Cert.KernelIdeal.Hand

end
-- ==== Proof.KI.Frame.lean ====
/-
  The frame of the program: it runs to the end, faults nowhere and leaves its arguments unchanged — with, along the way,
  what the two accumulators hold after every grid point and what the output block holds when it is stored, as the
  body's arithmetic on the staged blocks (`outsAt`): the running maximum and running sum restart at column block 0 of
  each row block, continue through column blocks 1 … 15, and at column block 16 take the masked update and give the
  output block.
-/
import proofs.«413743_j37546604102464_2_alg».proof.Proof.KI.Pieces
import proofs.«413743_j37546604102464_2_alg».proof.Proof.KI.Indep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the accumulators and the output block hold after each point -/

/-- A placeholder for the output block's contents at a point that does not store it (nothing consults it there). -/
def idleOut : Vec F S512x1 .f32 := fun _ => Scalar.ofBits .f32 0#32

/-- After the body at position `n`: the output block, the running maximum, the running sum. At a FIRST point the
    accumulators restart from the reduction's identity and zero; at a later point of the row block they continue from
    what the point before left; at a LAST point the output block is stored from them. -/
def outsAt (c : Dev nD) : (n : ℕ) → n < cfg0.N → Vec F S512x1 .f32 × Vec F S512x1 .f32 × Vec F S512x1 .f32
  | 0, hn => (idleOut, k0_pay9 (xcan m c ⟨0, hn⟩) (k0_pay1 (F := F)), k0_pay8 (xcan m c ⟨0, hn⟩) (k0_pay1 (F := F)) (k0_pay2 (F := F)))
  | n + 1, hn =>
    if h0 : (n + 1) % 17 = 0 then
      (idleOut, k0_pay9 (xcan m c ⟨n + 1, hn⟩) (k0_pay1 (F := F)), k0_pay8 (xcan m c ⟨n + 1, hn⟩) (k0_pay1 (F := F)) (k0_pay2 (F := F)))
    else
      if h1 : (n + 1) % 17 = 16 then
        (k0_pay10 (k0_pay6 (grid0.coords ⟨n + 1, hn⟩) (xcan m c ⟨n + 1, hn⟩) (outsAt c n (Nat.lt_of_succ_lt hn)).2.1)
            (k0_pay5 (grid0.coords ⟨n + 1, hn⟩) (xcan m c ⟨n + 1, hn⟩) (outsAt c n (Nat.lt_of_succ_lt hn)).2.1 (outsAt c n (Nat.lt_of_succ_lt hn)).2.2),
          k0_pay6 (grid0.coords ⟨n + 1, hn⟩) (xcan m c ⟨n + 1, hn⟩) (outsAt c n (Nat.lt_of_succ_lt hn)).2.1,
          k0_pay5 (grid0.coords ⟨n + 1, hn⟩) (xcan m c ⟨n + 1, hn⟩) (outsAt c n (Nat.lt_of_succ_lt hn)).2.1 (outsAt c n (Nat.lt_of_succ_lt hn)).2.2)
      else
        (idleOut, k0_pay9 (xcan m c ⟨n + 1, hn⟩) (outsAt c n (Nat.lt_of_succ_lt hn)).2.1,
          k0_pay8 (xcan m c ⟨n + 1, hn⟩) (outsAt c n (Nat.lt_of_succ_lt hn)).2.1 (outsAt c n (Nat.lt_of_succ_lt hn)).2.2)

theorem outsAt_first (c : Dev nD) (t : Fin cfg0.N) (h0 : t.val % 17 = 0) :
    outsAt m c t.val t.isLt = (idleOut, k0_pay9 (xcan m c t) (k0_pay1 (F := F)), k0_pay8 (xcan m c t) (k0_pay1 (F := F)) (k0_pay2 (F := F))) := by
  obtain ⟨n, hn⟩ := t
  cases n with
  | zero => exact rfl
  | succ n => exact (dif_pos h0).trans rfl

theorem outsAt_middle (c : Dev nD) (t : Fin cfg0.N) (h0 : ¬t.val % 17 = 0) (h1 : ¬t.val % 17 = 16) :
    outsAt m c t.val t.isLt = (idleOut,
      k0_pay9 (xcan m c t) (outsAt m c (t.val - 1) (Nat.lt_of_le_of_lt (Nat.sub_le _ _) t.isLt)).2.1,
      k0_pay8 (xcan m c t) (outsAt m c (t.val - 1) (Nat.lt_of_le_of_lt (Nat.sub_le _ _) t.isLt)).2.1
        (outsAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt_last (c : Dev nD) (t : Fin cfg0.N) (h0 : ¬t.val % 17 = 0) (h1 : t.val % 17 = 16) :
    outsAt m c t.val t.isLt =
      (k0_pay10 (k0_pay6 (grid0.coords t) (xcan m c t) (outsAt m c (t.val - 1) (Nat.lt_of_le_of_lt (Nat.sub_le _ _) t.isLt)).2.1)
          (k0_pay5 (grid0.coords t) (xcan m c t) (outsAt m c (t.val - 1) (Nat.lt_of_le_of_lt (Nat.sub_le _ _) t.isLt)).2.1
            (outsAt m c (t.val - 1) (Nat.lt_of_le_of_lt (Nat.sub_le _ _) t.isLt)).2.2),
        k0_pay6 (grid0.coords t) (xcan m c t) (outsAt m c (t.val - 1) (Nat.lt_of_le_of_lt (Nat.sub_le _ _) t.isLt)).2.1,
        k0_pay5 (grid0.coords t) (xcan m c t) (outsAt m c (t.val - 1) (Nat.lt_of_le_of_lt (Nat.sub_le _ _) t.isLt)).2.1
          (outsAt m c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

/-! ## The region's invariant: the accumulators carried from point to point -/

/-- Before position `n`: before the first point the two accumulators hold anything; afterwards what the point before
    left in them. -/
def PhiS (c : Dev nD) : (n : ℕ) → n ≤ cfg0.N → sProp 𝕄
  | 0, _ => Pipeline.ΦA spec0 c
  | n + 1, hn => iprop(iprop(owns (c : Thread nD τ) scMax fullShare ((outsAt m c n hn).2.1)
      ∗ owns (c : Thread nD τ) scSum fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare ((outsAt m c n hn).2.1)
      ∗ owns (c : Thread nD τ) scSum fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scMax fullShare ((outsAt m c (n - 1) (by omega)).2.1)
      ∗ owns (c : Thread nD τ) scSum fullShare ((outsAt m c (n - 1) (by omega)).2.2)) ∗ (∃ r, prngReg c r)) := by
  cases n with
  | zero => exact absurd rfl hz
  | succ n => rfl

/-! ## The proof data -/

/-- The arrays as the region finds them; after the body at point `t` the input's buffer at its block (zero past the
    array's end, where nothing is stated) and the output's at `outsAt`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => xcan m c t
    | ⟨1, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = xcan m c t := by dsimp only [dats]
theorem after1 (c : Dev nD) (t : Fin cfg0.N) : (dats m 0 c).after 1 t = (outsAt m c t.val t.isLt).1 := by dsimp only [dats]

/-- The input's buffer is fetched at every point: it holds the block on the part inside the array, and past the array's
    end whatever `d` says. -/
theorem before0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq m c 0]

/-- What the loose obligation asks of the input's buffer after the body: the block on the part inside the array. -/
theorem leaves0 (c : Dev nD) (t : Fin cfg0.N) :
    (dats m 0 c).leaves 0 t
      = iprop(∃ d, owns (c : Thread nD τ) (ms0 t) fullShare (win0_0.fill (grid0.coords t) d (iblk m c 0 t))) := by
  unfold Dat.leaves
  rw [live0 t]
  dsimp only
  rw [after0 m c t]
  unfold xcan
  simp only [Window.cut_fill]
  rfl

/-- At a LAST point the output's buffer is left at the stored block. -/
theorem leaves1_last (c : Dev nD) (t : Fin cfg0.N) (h1 : t.val % 17 = 16) :
    (dats m 0 c).leaves 1 t = owns (c : Thread nD τ) (ms1 t) fullShare ((outsAt m c t.val t.isLt).1) := by
  unfold Dat.leaves
  rw [live1 t h1]
  dsimp only
  rw [after1 m c t]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t)

set_option maxHeartbeats 4800000 in
/-- The body at any point. The input's buffer arrives just fetched (its block, and anything past the array's end); the
    closed forms say which kind of point this is; the invariant hands the body the accumulators at what the point
    before left (at anything before the first point), and takes them back at this point's contents — which do not
    depend on what the buffer holds past the array's end: off the last column block nothing is past it, and at the last
    the body masks those columns before it reads them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).owesAt () t.succ = (dats m 0 c).owesAt () t.castSucc from rfl]
  rw [show (dats m 0 c).Φ t.succ = PhiS m c (t.val + 1) t.isLt from rfl, PhiS_succ]
  rw [leaves0 m c t]
  have hN : t.val < 136 := lt_of_lt_of_eq t.isLt (show cfg0.N = 136 from N_0)
  by_cases h0 : t.val % 17 = 0
  · -- a FIRST point
    have h1 : ¬t.val % 17 = 16 := by omega
    have hF : condFirst (grid0.coords t) := (hcondFirst t).mpr h0
    have hL : ¬condLast (grid0.coords t) := fun h => h1 ((hcondLast t).mp h)
    have hNL : condNotLast (grid0.coords t) := (hcondNotLast t).mpr h1
    have hO : ¬condOut (grid0.coords t) := fun h => h1 ((hcondOut t).mp h)
    rw [Dat.leaves_idle (dats m 0 c) 1 t (idle1 t h1) (noFlush1 t h1)]
    rw [outsAt_first m c t h0]; dsimp only
    by_cases hz : t.val = 0
    · rw [PhiS_castSucc m c t, PhiS_zero m c _ _ hz, PhiA_eq]
      iintro ⟨⟨⟨⟨%dm, HM⟩, ⟨%ds, HS⟩⟩, Hg⟩, Ho, ⟨%d0, H0⟩, ⟨%d1, H1⟩⟩
      iapply ((runFirst c (grid0.coords t) (ms0 t) (hs0 t) (ms1 t) (hs1 t) scMax (Memref.isWhole_whole _) scSum (Memref.isWhole_whole _) hF hL hNL hO (win0_0.fill (grid0.coords t) d0 (iblk m c 0 t))).2.2 _ Set.univ _)
      isplitl [H0]; · iexact H0
      isplitl [H1]; · iexact H1
      isplitl [HM]; · iexists _; iexact HM
      isplitl [HS]; · iexists _; iexact HS
      iintro ⟨H0, H1, ⟨%em, HM⟩, ⟨%es, HS⟩⟩
      isplitl [HM HS Hg]
      · isplitl [HM HS]
        · isplitl [HM]
          · unfold owns; iexists _; isplitr
            swap; · iexact HM
            ipureintro
            exact (View.read_writes_of_cover _ _ _ _ _ (coverM_First c (grid0.coords t) (ms0 t) (hs0 t) (ms1 t) (hs1 t) scMax (Memref.isWhole_whole _) scSum (Memref.isWhole_whole _) hF hL hNL hO _)).trans
              ((maxFirst_eq c (grid0.coords t) (ms0 t) (hs0 t) (ms1 t) (hs1 t) scMax (Memref.isWhole_whole _) scSum (Memref.isWhole_whole _) hF hL hNL hO _).trans (by rw [fill_indep t h1 d0 (fun _ => Scalar.ofBits .f32 0#32)]; rfl))
          · unfold owns; iexists _; isplitr
            swap; · iexact HS
            ipureintro
            exact (View.read_writes_of_cover _ _ _ _ _ (coverS_First c (grid0.coords t) (ms0 t) (hs0 t) (ms1 t) (hs1 t) scMax (Memref.isWhole_whole _) scSum (Memref.isWhole_whole _) hF hL hNL hO _)).trans
              ((sumFirst_eq c (grid0.coords t) (ms0 t) (hs0 t) (ms1 t) (hs1 t) scMax (Memref.isWhole_whole _) scSum (Memref.isWhole_whole _) hF hL hNL hO _).trans (by rw [fill_indep t h1 d0 (fun _ => Scalar.ofBits .f32 0#32)]; rfl))
        iexact Hg
      isplitl [Ho]; · iexact Ho
      isplitl [H0]; · iexists d0; iexact H0
      iexists _; iexact H1
    · rw [PhiS_castSucc m c t, PhiS_pos m c _ _ hz]
      iintro ⟨⟨⟨HM, HS⟩, Hg⟩, Ho, ⟨%d0, H0⟩, ⟨%d1, H1⟩⟩
      iapply ((runFirst c (grid0.coords t) (ms0 t) (hs0 t) (ms1 t) (hs1 t) scMax (Memref.isWhole_whole _) scSum (Memref.isWhole_whole _) hF hL hNL hO (win0_0.fill (grid0.coords t) d0 (iblk m c 0 t))).2.2 _ Set.univ _)
      isplitl [H0]; · iexact H0
      isplitl [H1]; · iexact H1
      isplitl [HM]; · iexists _; iexact HM
      isplitl [HS]; · iexists _; iexact HS
      iintro ⟨H0, H1, ⟨%em, HM⟩, ⟨%es, HS⟩⟩
      isplitl [HM HS Hg]
      · isplitl [HM HS]
        · isplitl [HM]
          · unfold owns; iexists _; isplitr
            swap; · iexact HM
            ipureintro
            exact (View.read_writes_of_cover _ _ _ _ _ (coverM_First c (grid0.coords t) (ms0 t) (hs0 t) (ms1 t) (hs1 t) scMax (Memref.isWhole_whole _) scSum (Memref.isWhole_whole _) hF hL hNL hO _)).trans
              ((maxFirst_eq c (grid0.coords t) (ms0 t) (hs0 t) (ms1 t) (hs1 t) scMax (Memref.isWhole_whole _) scSum (Memref.isWhole_whole _) hF hL hNL hO _).trans (by rw [fill_indep t h1 d0 (fun _ => Scalar.ofBits .f32 0#32)]; rfl))
          · unfold owns; iexists _; isplitr
            swap; · iexact HS
            ipureintro
            exact (View.read_writes_of_cover _ _ _ _ _ (coverS_First c (grid0.coords t) (ms0 t) (hs0 t) (ms1 t) (hs1 t) scMax (Memref.isWhole_whole _) scSum (Memref.isWhole_whole _) hF hL hNL hO _)).trans
              ((sumFirst_eq c (grid0.coords t) (ms0 t) (hs0 t) (ms1 t) (hs1 t) scMax (Memref.isWhole_whole _) scSum (Memref.isWhole_whole _) hF hL hNL hO _).trans (by rw [fill_indep t h1 d0 (fun _ => Scalar.ofBits .f32 0#32)]; rfl))
        iexact Hg
      isplitl [Ho]; · iexact Ho
      isplitl [H0]; · iexists d0; iexact H0
      iexists _; iexact H1
  · have hz : t.val ≠ 0 := fun h => h0 (by rw [h])
    have hF : ¬condFirst (grid0.coords t) := fun h => h0 ((hcondFirst t).mp h)
    by_cases h1 : t.val % 17 = 16
    · -- a LAST point
      have hL : condLast (grid0.coords t) := (hcondLast t).mpr h1
      have hNL : ¬condNotLast (grid0.coords t) := fun h => (hcondNotLast t).mp h h1
      have hO : condOut (grid0.coords t) := (hcondOut t).mpr h1
      have hi : ((grid0.coords t) 1).val = 16 := col_last t h1
      rw [leaves1_last m c t h1]
      rw [outsAt_last m c t h0 h1]; dsimp only
      rw [PhiS_castSucc m c t, PhiS_pos m c _ _ hz]
      iintro ⟨⟨⟨HM, HS⟩, Hg⟩, Ho, ⟨%d0, H0⟩, ⟨%d1, H1⟩⟩
      have hag : ∀ j : S512x3072.Idx, (j 1).val < 1105 →
          win0_0.fill (grid0.coords t) d0 (iblk m c 0 t) j = xcan m c t j := fun j hj => fill_agree t h1 _ _ _ j hj
      iapply ((runLast c (grid0.coords t) (ms0 t) (hs0 t) (ms1 t) (hs1 t) scMax (Memref.isWhole_whole _) scSum (Memref.isWhole_whole _) hF hL hNL hO (win0_0.fill (grid0.coords t) d0 (iblk m c 0 t)) _ _).2.2.2 Set.univ _)
      isplitl [H0]; · iexact H0
      isplitl [H1]; · iexists _; iexact H1
      isplitl [HM]; · iexact HM
      isplitl [HS]; · iexact HS
      iintro ⟨H0, ⟨%e1, H1⟩, ⟨%em, HM⟩, ⟨%es, HS⟩⟩
      isplitl [HM HS Hg]
      · isplitl [HM HS]
        · isplitl [HM]
          · unfold owns; iexists _; isplitr
            swap; · iexact HM
            ipureintro
            exact (View.read_writes_of_cover _ _ _ _ _ (coverM_Last c (grid0.coords t) (ms0 t) (hs0 t) (ms1 t) (hs1 t) scMax (Memref.isWhole_whole _) scSum (Memref.isWhole_whole _) hF hL hNL hO _ _ _)).trans
              ((maxLast_eq c (grid0.coords t) (ms0 t) (hs0 t) (ms1 t) (hs1 t) scMax (Memref.isWhole_whole _) scSum (Memref.isWhole_whole _) hF hL hNL hO _ _ _).trans (pay6_congr _ hi _ _ hag _))
          · unfold owns; iexists _; isplitr
            swap; · iexact HS
            ipureintro
            exact (View.read_writes_of_cover _ _ _ _ _ (coverS_Last c (grid0.coords t) (ms0 t) (hs0 t) (ms1 t) (hs1 t) scMax (Memref.isWhole_whole _) scSum (Memref.isWhole_whole _) hF hL hNL hO _ _ _)).trans
              ((sumLast_eq c (grid0.coords t) (ms0 t) (hs0 t) (ms1 t) (hs1 t) scMax (Memref.isWhole_whole _) scSum (Memref.isWhole_whole _) hF hL hNL hO _ _ _).trans (pay5_congr _ hi _ _ hag _ _))
        iexact Hg
      isplitl [Ho]; · iexact Ho
      isplitl [H0]; · iexists d0; iexact H0
      unfold owns; iexists _; isplitr
      swap; · iexact H1
      ipureintro
      exact (View.read_writes_of_cover _ _ _ _ _ (coverO_Last c (grid0.coords t) (ms0 t) (hs0 t) (ms1 t) (hs1 t) scMax (Memref.isWhole_whole _) scSum (Memref.isWhole_whole _) hF hL hNL hO _ _ _)).trans
        ((outLast_eq c (grid0.coords t) (ms0 t) (hs0 t) (ms1 t) (hs1 t) scMax (Memref.isWhole_whole _) scSum (Memref.isWhole_whole _) hF hL hNL hO _ _ _).trans (by rw [pay6_congr _ hi _ _ hag _, pay5_congr _ hi _ _ hag _ _]))
    · -- a MIDDLE point
      have hL : ¬condLast (grid0.coords t) := fun h => h1 ((hcondLast t).mp h)
      have hNL : condNotLast (grid0.coords t) := (hcondNotLast t).mpr h1
      have hO : ¬condOut (grid0.coords t) := fun h => h1 ((hcondOut t).mp h)
      rw [Dat.leaves_idle (dats m 0 c) 1 t (idle1 t h1) (noFlush1 t h1)]
      rw [outsAt_middle m c t h0 h1]; dsimp only
      rw [PhiS_castSucc m c t, PhiS_pos m c _ _ hz]
      iintro ⟨⟨⟨HM, HS⟩, Hg⟩, Ho, ⟨%d0, H0⟩, ⟨%d1, H1⟩⟩
      have e : win0_0.fill (grid0.coords t) d0 (iblk m c 0 t) = xcan m c t := fill_indep t h1 _ _ _
      iapply ((runMiddle c (grid0.coords t) (ms0 t) (hs0 t) (ms1 t) (hs1 t) scMax (Memref.isWhole_whole _) scSum (Memref.isWhole_whole _) hF hL hNL hO (win0_0.fill (grid0.coords t) d0 (iblk m c 0 t)) _ _).2.2 _ Set.univ _)
      isplitl [H0]; · iexact H0
      isplitl [H1]; · iexact H1
      isplitl [HM]; · iexact HM
      isplitl [HS]; · iexact HS
      iintro ⟨H0, H1, ⟨%em, HM⟩, ⟨%es, HS⟩⟩
      isplitl [HM HS Hg]
      · isplitl [HM HS]
        · isplitl [HM]
          · unfold owns; iexists _; isplitr
            swap; · iexact HM
            ipureintro
            exact (View.read_writes_of_cover _ _ _ _ _ (coverM_Middle c (grid0.coords t) (ms0 t) (hs0 t) (ms1 t) (hs1 t) scMax (Memref.isWhole_whole _) scSum (Memref.isWhole_whole _) hF hL hNL hO _ _ _)).trans
              ((maxMiddle_eq c (grid0.coords t) (ms0 t) (hs0 t) (ms1 t) (hs1 t) scMax (Memref.isWhole_whole _) scSum (Memref.isWhole_whole _) hF hL hNL hO _ _ _).trans (by rw [e]))
          · unfold owns; iexists _; isplitr
            swap; · iexact HS
            ipureintro
            exact (View.read_writes_of_cover _ _ _ _ _ (coverS_Middle c (grid0.coords t) (ms0 t) (hs0 t) (ms1 t) (hs1 t) scMax (Memref.isWhole_whole _) scSum (Memref.isWhole_whole _) hF hL hNL hO _ _ _)).trans
              ((sumMiddle_eq c (grid0.coords t) (ms0 t) (hs0 t) (ms1 t) (hs1 t) scMax (Memref.isWhole_whole _) scSum (Memref.isWhole_whole _) hF hL hNL hO _ _ _).trans (by rw [e]))
        iexact Hg
      isplitl [Ho]; · iexact Ho
      isplitl [H0]; · iexists d0; iexact H0
      iexists _; iexact H1

/-- The library's body obligation (each buffer stated on the part its transfers move), at every point. -/
theorem body_obligation (c : Dev nD) :
    Pipeline.BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back at some contents. -/
theorem hout (c : Dev nD) : (dats m 0 c).Φ (Fin.last cfg0.N) ⊢ Pipeline.ΦA spec0 c := by
  have hne : (Fin.last cfg0.N).val ≠ 0 := by rw [Fin.val_last]; have : cfg0.N = 136 := N_0; omega
  rw [show (dats m 0 c).Φ (Fin.last cfg0.N) = PhiS m c (Fin.last cfg0.N).val (Nat.le_of_lt_succ (Fin.last cfg0.N).isLt) from rfl,
    PhiS_pos m c _ _ hne, PhiA_eq]
  iintro ⟨⟨HM, HS⟩, Hg⟩
  isplitl [HM HS]
  · isplitl [HM]
    · iexists _; iexact HM
    iexists _; iexact HS
  iexact Hg

/-! ## The run and the frame -/

set_option backward.isDefEq.respectTransparency.types false in
/-- From any memory with zero counters every weakly fair execution of the program terminates, and every final state has
    each array of the pipeline at what the library computes from the proof data, every other unscoped buffer as the
    host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  The mathematics of the certificate, over the reals and over abstract finite index types: rows `ι`, columns `κ`,
  window offsets `μ`.

  For logits `x b j`, a row's log-sum-exp is `lse x b = M + log (∑ j, exp (x b j - M))` with `M` the row's maximum.
  The smoothed-label loss scatters the window weights `v b l` to the columns `p b l` (several offsets may land on one
  column, when positions are clipped at the vocabulary's edge) and sums `target · log_softmax` over every column; the
  same number is obtained from the row's log-sum-exp, the row's total weight and the logits gathered at the `p b l`:
    ∑ j, (∑ l with p b l = j, v b l) · ((x b j - M) - log S)  =  ∑ l, v b l · x b (p b l)  -  (M + log S) · ∑ l, v b l.
  `ker_eq_ref` is that identity summed over the rows, negated and divided by the number of rows.
-/
import Mathlib.Analysis.SpecialFunctions.Log.Basic
import Mathlib.Algebra.BigOperators.Group.Finset.Basic
import Mathlib.Algebra.BigOperators.Ring.Finset
import Mathlib.Order.Filter.Extr

noncomputable section

namespace Cert.Spec

open scoped BigOperators

variable {ι κ μ : Type} [Fintype ι] [Fintype κ] [Nonempty κ] [DecidableEq κ] [Fintype μ]

/-- The maximum of row `b`. -/
def rowMax (x : ι → κ → ℝ) (b : ι) : ℝ := Finset.univ.sup' Finset.univ_nonempty (x b)

/-- The sum over row `b` of the exponentials of the entries shifted by the row's maximum. -/
def rowSumExp (x : ι → κ → ℝ) (b : ι) : ℝ := ∑ j, Real.exp (x b j - rowMax x b)

/-- The log-sum-exp of row `b`. -/
def lse (x : ι → κ → ℝ) (b : ι) : ℝ := rowMax x b + Real.log (rowSumExp x b)

theorem le_rowMax (x : ι → κ → ℝ) (b : ι) (j : κ) : x b j ≤ rowMax x b :=
  Finset.le_sup' (x b) (Finset.mem_univ j)

theorem rowSumExp_pos (x : ι → κ → ℝ) (b : ι) : 0 < rowSumExp x b :=
  Finset.sum_pos (fun _ _ => Real.exp_pos _) Finset.univ_nonempty

/-- The loss as the kernel's program computes it: per row the log-sum-exp times the row's total weight, less the
    weighted logits gathered at the window's columns; the mean over the rows (`n` their number). -/
def kerResult (x : ι → κ → ℝ) (p : ι → μ → κ) (v : ι → μ → ℝ) (n : ℝ) : ℝ :=
  (∑ b, (lse x b * (∑ l, v b l) - ∑ l, v b l * x b (p b l))) / n

/-- The loss as the reference computes it: the weights scattered to their columns, times the log-softmax, summed over
    every column and row, divided by the number of rows, negated. -/
def refResult (x : ι → κ → ℝ) (p : ι → μ → κ) (v : ι → μ → ℝ) (n : ℝ) : ℝ :=
  -((∑ b, ∑ j, (∑ l ∈ Finset.univ.filter (fun l => p b l = j), v b l)
      * ((x b j - rowMax x b) - Real.log (rowSumExp x b))) / n)

/-- Scattering the weights to their columns and then summing against a function of the column is summing the weights
    against the function at each weight's column. -/
theorem scatter_sum (p : μ → κ) (v : μ → ℝ) (g : κ → ℝ) :
    ∑ j, (∑ l ∈ Finset.univ.filter (fun l => p l = j), v l) * g j = ∑ l, v l * g (p l) := by
  have h : ∀ j, (∑ l ∈ Finset.univ.filter (fun l => p l = j), v l) * g j
      = ∑ l ∈ Finset.univ.filter (fun l => p l = j), v l * g (p l) := by
    intro j
    rw [Finset.sum_mul]
    refine Finset.sum_congr rfl fun l hl => ?_
    rw [(Finset.mem_filter.mp hl).2]
  simp_rw [h]
  exact Finset.sum_fiberwise Finset.univ p fun l => v l * g (p l)

theorem ker_eq_ref (x : ι → κ → ℝ) (p : ι → μ → κ) (v : ι → μ → ℝ) (n : ℝ) :
    kerResult x p v n = refResult x p v n := by
  unfold kerResult refResult
  rw [← neg_div, ← Finset.sum_neg_distrib]
  congr 1
  refine Finset.sum_congr rfl fun b _ => ?_
  rw [scatter_sum (p b) (v b) fun j => (x b j - rowMax x b) - Real.log (rowSumExp x b)]
  unfold lse
  have : ∀ l, v b l * ((x b (p b l) - rowMax x b) - Real.log (rowSumExp x b))
      = v b l * x b (p b l) - (rowMax x b + Real.log (rowSumExp x b)) * v b l := fun l => by ring
  simp_rw [this, Finset.sum_sub_distrib, ← Finset.mul_sum]
  ring

end Cert.Spec

end
-- ==== Proof.Online.lean ====
/-
  The kernel's running maximum and running sum, over one row block, at the ideal instance.

  A row block is processed in 17 column blocks of 3072 columns; the last holds 1105 columns of the array and 1967
  that are not (those are masked to the reduction's identity, -∞, before anything reads them). After column block `k`
  the two accumulators hold, per row, the maximum `M_k` of the row's entries in column blocks `0 … k` and the sum
  `S_k` of `exp (x - M_k)` over them: the update is `M_k = max M_{k-1} (block's max)`,
  `S_k = S_{k-1} · exp (M_{k-1} - M_k) + ∑ exp (x - M_k)` over the block, from `M_{-1} = -∞`, `S_{-1} = 0`. After the
  last block they are the whole row's maximum and shifted exponential sum, and `M + log S` is the row's log-sum-exp.
-/
import proofs.«413743_j37546604102464_2_alg».proof.Proof.Gen.KernelIdeal.Skeleton
import proofs.«413743_j37546604102464_2_alg».proof.Proof.Spec
import Mathlib.Algebra.BigOperators.Fin
import Mathlib.Data.EReal.Operations
import Idealize.ShloMosaic.Lib.ValueIdx
import Idealize.ShloMosaic.Lib.Pipeline.Value
import Idealize.ShloMosaic.PureOps.Ideal.Laws
import Idealize.ShloMosaic.Lib.StableHlo.Predicate

noncomputable section

namespace Cert.KernelIdeal.Online

open Cert.KernelIdeal Cert.KernelIdeal.Gen Idealize.ShloMosaic Idealize.ShloMosaic.ValueIdx
open scoped BigOperators

/-! ## The body's values read at one row -/

/-- The word `0xFF800000` is `-∞`. -/
theorem negInf_f32 : Ideal.ofBits .f32 0xFF800000#32 = ⊥ := by simp [Ideal.ofBits, Ideal.ieee]

/-- The running maximum starts at `-∞` … -/
theorem pay1_apply (r : Fin 512) : k0_pay1 (F := Ideal) (ix2 r 0) = ⊥ := by
  show Ideal.ofBits .f32 0xFF800000#32 = ⊥
  exact negInf_f32

/-- … and the running sum at `0`. -/
theorem pay2_apply (r : Fin 512) : k0_pay2 (F := Ideal) (ix2 r 0) = 0 := by
  show Ideal.ofBits .f32 0x00000000#32 = 0
  exact Ideal.ofBits_zero_f32

/-- The index a reduction over the columns inserts column `q` at is `(r, q)`. -/
theorem lift_eq (h : S512x3072.Reduces [1] S512) (r : Fin 512) (q : Fin 3072) :
    h.lift (ix1 r) q = ix2 r q := by
  funext a
  match a with
  | ⟨0, _⟩ => rfl
  | ⟨1, _⟩ => rfl

/-- A block's maximum along the columns, at row `r`: the supremum of the row's 3072 entries (`-∞` the start). -/
theorem rowmax_apply (X : Vec Ideal S512x3072 .f32) (hφ : FKind.Formats .f32)
    (hacc : (0xFF800000#32 : BitVec 32) = FKind.maximumf.neutral .f32 hφ) (r : Fin 512) :
    multiReduction (F := Ideal) .maximumf [1] S512 X 0xFF800000#32 reduces_S512x3072_S512 hφ hacc (ix1 r)
      = Finset.univ.sup fun q : Fin 3072 => X (ix2 r q) := by
  refine (Ideal.multiReduction_maximumf_single X _ reduces_S512x3072_S512 hφ hacc (ix1 r)).trans ?_
  rw [Ideal.ofBits_def, negInf_f32]
  show Finset.fold max ⊥ (fun q : Fin 3072 => X (reduces_S512x3072_S512.lift (ix1 r) q)) Finset.univ = _
  simp only [lift_eq]
  rfl

/-- The updated maximum at row `r`: the larger of the old one and the block row's maximum. -/
theorem pay7_apply (X : Vec Ideal S512x3072 .f32) (M : Vec Ideal S512x1 .f32) (r : Fin 512) :
    k0_pay7 (F := Ideal) X M (ix2 r 0) = max (M (ix2 r 0)) (Finset.univ.sup fun q : Fin 3072 => X (ix2 r q)) := by
  unfold k0_pay7
  refine (maximumf_apply M _ (ix2 r 0)).trans ?_
  refine congrArg (max (M (ix2 r 0))) ?_
  refine (shapeCast_apply _ shapeCasts_S512_S512x1 (ix2 r 0) (ix1 r) ?_).trans (rowmax_apply X _ _ r)
  rw [Shape.rowMajor_val_one, Shape.rowMajor_val_two]
  show r.val = r.val * 1 + 0
  omega

/-- The stored maximum is the updated maximum (a shape cast to the same shape). -/
theorem pay9_eq (X : Vec Ideal S512x3072 .f32) (M : Vec Ideal S512x1 .f32) :
    k0_pay9 (F := Ideal) X M = k0_pay7 (F := Ideal) X M :=
  shapeCast_self _ _

/-- A block's sum along the columns, at row `r`: the sum of the row's 3072 entries. -/
theorem rowsum_apply (Y : FVec Ideal S512x3072 .f32) (hφ : FKind.Formats .f32)
    (hacc : (0x00000000#32 : BitVec 32) = FKind.add.neutral .f32 hφ) (r : Fin 512) :
    multiReduction (F := Ideal) .add [1] S512 Y 0x00000000#32 reduces_S512x3072_S512 hφ hacc (ix1 r)
      = ∑ q : Fin 3072, Y (ix2 r q) := by
  refine (Ideal.multiReduction_add_single Y _ reduces_S512x3072_S512 hφ hacc (ix1 r)).trans ?_
  show ∑ q : Fin 3072, Y (reduces_S512x3072_S512.lift (ix1 r) q) = _
  simp only [lift_eq]

/-- The updated sum at row `r`: the old sum rescaled to the new maximum, plus the block row's shifted exponentials. -/
theorem pay8_apply (X : Vec Ideal S512x3072 .f32) (M S : Vec Ideal S512x1 .f32) (r : Fin 512) :
    k0_pay8 (F := Ideal) X M S (ix2 r 0)
      = S (ix2 r 0) * Ideal.exp (M (ix2 r 0) - k0_pay7 (F := Ideal) X M (ix2 r 0))
        + ∑ q : Fin 3072, Ideal.exp (X (ix2 r q) - k0_pay7 (F := Ideal) X M (ix2 r 0)) := by
  unfold k0_pay8
  rw [shapeCast_self]
  refine (addf_apply _ _ (ix2 r 0)).trans ?_
  refine congrArg₂ (· + ·) rfl ?_
  refine (shapeCast_apply _ shapeCasts_S512_S512x1 (ix2 r 0) (ix1 r) ?_).trans ((rowsum_apply _ _ _ r).trans ?_)
  · rw [Shape.rowMajor_val_one, Shape.rowMajor_val_two]
    show r.val = r.val * 1 + 0
    omega
  · refine Finset.sum_congr rfl fun q _ => ?_
    show Ideal.exp (X (ix2 r q) - broadcastTo S512x3072 (k0_pay7 (F := Ideal) X M) broadcasts_S512x1_S512x3072 (ix2 r q)) = _
    rw [broadcastTo_apply (k0_pay7 (F := Ideal) X M) broadcasts_S512x1_S512x3072 (ix2 r q) (ix2 r 0)
      (fun a => match a with | ⟨0, _⟩ => rfl | ⟨1, _⟩ => rfl)]

/-- The last column block's update is the ordinary one applied to the masked block. -/
theorem pay4_eq (i : grid0.Coords) (X : Vec Ideal S512x3072 .f32) (M : Vec Ideal S512x1 .f32) :
    k0_pay4 (F := Ideal) i X M = k0_pay7 (F := Ideal) (k0_pay3 (F := Ideal) i X) M := rfl

theorem pay6_eq (i : grid0.Coords) (X : Vec Ideal S512x3072 .f32) (M : Vec Ideal S512x1 .f32) :
    k0_pay6 (F := Ideal) i X M = k0_pay9 (F := Ideal) (k0_pay3 (F := Ideal) i X) M := rfl

theorem pay5_eq (i : grid0.Coords) (X : Vec Ideal S512x3072 .f32) (M S : Vec Ideal S512x1 .f32) :
    k0_pay5 (F := Ideal) i X M S = k0_pay8 (F := Ideal) (k0_pay3 (F := Ideal) i X) M S := rfl

/-- The named constant the mask fills with is `-∞` at the ideal instance. -/
theorem negBig : Named.named (F := Ideal) Cert.KernelIdeal.κ "neg_big" (φ := .f32) 0xF149F2CA#32 = ⊥ :=
  IdealRules.named_const.ideal_named_scalar _ _ _ _ rfl

/-- The mask of the last column block: the bit at in-block column `q` is set exactly when array column
    `3072 * 16 + q` is inside the array's 50257 columns. -/
theorem mask_bit (i : grid0.Coords) (hi : (i 1).val = 16) (r : Fin 512) (q : Fin 3072) :
    cmpi CmpIPredicate.slt
        (addi (iota Kind.tc S512x3072 32 [1] iota_S512x3072_d1_w32)
          (broadcast S512x3072 (Scalar.muli (BitVec.ofNat 32 (i 1).val) 3072#32)))
        (broadcast S512x3072 50257#32) (ix2 r q)
      = if 3072 * 16 + q.val < 50257 then 1#1 else 0#1 := by
  rw [hi]
  show IntOp.cmpi .slt (IntOp.addi (iota Kind.tc S512x3072 32 [1] iota_S512x3072_d1_w32 (ix2 r q))
    (BitVec.ofNat 32 16 * 3072#32)) (BitVec.ofNat 32 50257) = _
  rw [iota_single_apply]
  show IntOp.cmpi .slt (BitVec.ofNat 32 q.val + BitVec.ofNat 32 16 * 3072#32) (BitVec.ofNat 32 50257) = _
  rw [show BitVec.ofNat 32 16 * 3072#32 = BitVec.ofNat 32 49152 from by decide, ← BitVec.ofNat_add]
  have hq := q.isLt
  have key := StableHlo.Predicate.slt_ofNat_iff (q.val + 49152) 50257 (by omega) (by omega)
  by_cases h : 3072 * 16 + q.val < 50257
  · rw [if_pos h]; exact key.mpr (by omega)
  · rw [if_neg h]; exact eq_zero_of_ne_one fun h1 => h (by have := key.mp h1; omega)

/-- The masked block: the entry where its column is inside the array, `-∞` outside. -/
theorem pay3_apply (i : grid0.Coords) (hi : (i 1).val = 16) (X : Vec Ideal S512x3072 .f32) (r : Fin 512) (q : Fin 3072) :
    k0_pay3 (F := Ideal) i X (ix2 r q) = if 3072 * 16 + q.val < 50257 then X (ix2 r q) else ⊥ := by
  unfold k0_pay3
  refine (select_apply _ _ _ (ix2 r q)).trans ?_
  rw [mask_bit i hi r q]
  show Scalar.select _ (X (ix2 r q)) (Named.named (F := Ideal) Cert.KernelIdeal.κ "neg_big" (φ := .f32) 0xF149F2CA#32) = _
  rw [negBig]
  by_cases h : 3072 * 16 + q.val < 50257
  · rw [if_pos h, if_pos h]; exact select_one _ _
  · rw [if_neg h, if_neg h]; exact select_zero _ _

/-- The output: the maximum plus the logarithm of the sum. -/
theorem pay10_apply (M S : Vec Ideal S512x1 .f32) (r : Fin 512) :
    k0_pay10 (F := Ideal) M S (ix2 r 0) = M (ix2 r 0) + Ideal.log (S (ix2 r 0)) := rfl

/-! ## The recurrence on the extended reals

A row is read as a sequence `f : ℕ → EReal` (the row's entries, then `-∞` for ever). `pmax f n` is the maximum of
the first `n` entries (`-∞` for none) and `psum f n` the sum of `exp (f j - pmax f n)` over them. Appending `m` more
entries updates the two as the kernel does. -/

/-- The maximum of the first `n` entries. -/
def pmax (f : ℕ → EReal) (n : ℕ) : EReal := (Finset.range n).sup f

/-- The sum over the first `n` entries of the exponentials shifted by their maximum. -/
def psum (f : ℕ → EReal) (n : ℕ) : EReal := ∑ j ∈ Finset.range n, Ideal.exp (f j - pmax f n)

theorem pmax_zero (f : ℕ → EReal) : pmax f 0 = ⊥ := by simp [pmax]

theorem psum_zero (f : ℕ → EReal) : psum f 0 = 0 := by simp [psum]

theorem le_pmax (f : ℕ → EReal) {j n : ℕ} (h : j < n) : f j ≤ pmax f n :=
  Finset.le_sup (f := f) (Finset.mem_range.2 h)

theorem pmax_mono (f : ℕ → EReal) {n n' : ℕ} (h : n ≤ n') : pmax f n ≤ pmax f n' :=
  Finset.sup_mono (Finset.range_subset_range.2 h)

theorem pmax_ne_top (f : ℕ → EReal) (hf : ∀ j, f j ≠ ⊤) (n : ℕ) : pmax f n ≠ ⊤ :=
  ((Finset.sup_lt_iff bot_lt_top).2 fun j _ => lt_top_iff_ne_top.2 (hf j)).ne

theorem pmax_ne_bot (f : ℕ → EReal) {j n : ℕ} (h : j < n) (hj : f j ≠ ⊥) : pmax f n ≠ ⊥ :=
  fun hb => hj (le_bot_iff.1 (hb ▸ le_pmax f h))

/-- The maximum after `m` more entries. -/
theorem pmax_add (f : ℕ → EReal) (n m : ℕ) :
    pmax f (n + m) = max (pmax f n) (Finset.univ.sup fun q : Fin m => f (n + q.val)) := by
  refine le_antisymm (Finset.sup_le fun j hj => ?_) (max_le (pmax_mono f (Nat.le_add_right n m)) (Finset.sup_le fun q _ => ?_))
  · have hj' := Finset.mem_range.1 hj
    by_cases h : j < n
    · exact le_max_of_le_left (le_pmax f h)
    · refine le_max_of_le_right ?_
      have e : f j = (fun q : Fin m => f (n + q.val)) ⟨j - n, by omega⟩ := by
        show f j = f (n + (j - n)); congr 1; omega
      rw [e]
      exact Finset.le_sup (f := fun q : Fin m => f (n + q.val)) (Finset.mem_univ _)
  · exact le_pmax f (by have := q.isLt; omega)

/-- The exponential of an extended real is nonnegative. -/
theorem exp_nonneg (x : EReal) : 0 ≤ Ideal.exp x := by
  induction x using EReal.rec with
  | bot => exact le_rfl
  | top => exact le_top
  | coe r => exact EReal.coe_nonneg.2 (Real.exp_pos r).le

/-- Shifting an exponential from one maximum to a later one. -/
theorem exp_sub_mul (a b c : EReal) (ha : a ≠ ⊤) (h : a = ⊥ ∨ (b ≠ ⊤ ∧ b ≠ ⊥) ∧ (c ≠ ⊤ ∧ c ≠ ⊥)) :
    Ideal.exp (a - b) * Ideal.exp (b - c) = Ideal.exp (a - c) := by
  rcases h with rfl | ⟨hb, hc⟩
  · rw [EReal.bot_sub, EReal.bot_sub, Ideal.exp_bot, zero_mul]
  · lift b to ℝ using hb
    lift c to ℝ using hc
    induction a using EReal.rec with
    | bot => rw [EReal.bot_sub, EReal.bot_sub, Ideal.exp_bot, zero_mul]
    | top => exact absurd rfl ha
    | coe a =>
      rw [← EReal.coe_sub, ← EReal.coe_sub, ← EReal.coe_sub, Ideal.exp_coe, Ideal.exp_coe, Ideal.exp_coe, ← EReal.coe_mul,
        ← Real.exp_add]
      congr 2; ring

/-- A sum of nonnegative extended reals times a factor is the sum of the products. -/
theorem sum_mul_of_nonneg (s : Finset ℕ) (g : ℕ → EReal) (hg : ∀ j, 0 ≤ g j) (c : EReal) :
    (∑ j ∈ s, g j) * c = ∑ j ∈ s, g j * c := by
  induction s using Finset.induction_on with
  | empty => simp
  | insert a s ha ih =>
    rw [Finset.sum_insert ha, Finset.sum_insert ha, EReal.right_distrib_of_nonneg (hg a) (Finset.sum_nonneg fun j _ => hg j), ih]

/-- The shifted sum after `m` more entries. -/
theorem psum_add (f : ℕ → EReal) (hf : ∀ j, f j ≠ ⊤) (n m : ℕ) :
    psum f (n + m) = psum f n * Ideal.exp (pmax f n - pmax f (n + m))
      + ∑ q : Fin m, Ideal.exp (f (n + q.val) - pmax f (n + m)) := by
  unfold psum
  rw [Finset.sum_range_add, Finset.sum_range (fun x => Ideal.exp (f (n + x) - pmax f (n + m))),
    sum_mul_of_nonneg _ _ (fun j => exp_nonneg _)]
  congr 1
  refine Finset.sum_congr rfl fun j hj => (exp_sub_mul _ _ _ (hf j) ?_).symm
  have hj' := Finset.mem_range.1 hj
  by_cases hb : f j = ⊥
  · exact .inl hb
  · exact .inr ⟨⟨pmax_ne_top f hf n, pmax_ne_bot f hj' hb⟩, ⟨pmax_ne_top f hf _, pmax_ne_bot f (by omega) hb⟩⟩

/-! ## A row of the array as such a sequence -/

/-- Row `y` of the array, continued past its 50257 columns by `-∞`. -/
def ext (y : Fin 50257 → ℝ) (j : ℕ) : EReal := if h : j < 50257 then ((y ⟨j, h⟩ : ℝ) : EReal) else ⊥

theorem ext_of_lt (y : Fin 50257 → ℝ) {j : ℕ} (h : j < 50257) : ext y j = ((y ⟨j, h⟩ : ℝ) : EReal) := dif_pos h

theorem ext_of_ge (y : Fin 50257 → ℝ) {j : ℕ} (h : ¬j < 50257) : ext y j = ⊥ := dif_neg h

theorem ext_ne_top (y : Fin 50257 → ℝ) (j : ℕ) : ext y j ≠ ⊤ := by
  unfold ext; split
  · exact EReal.coe_ne_top _
  · exact bot_ne_top

/-- Once the whole row is in, the running maximum is the row's maximum. -/
theorem pmax_ext (x : Fin 512 → Fin 50257 → ℝ) (r : Fin 512) (m : ℕ) :
    pmax (ext (x r)) (50257 + m) = ((Cert.Spec.rowMax x r : ℝ) : EReal) := by
  refine le_antisymm (Finset.sup_le fun j _ => ?_) ?_
  · by_cases h : j < 50257
    · rw [ext_of_lt _ h]; exact EReal.coe_le_coe_iff.2 (Cert.Spec.le_rowMax x r _)
    · rw [ext_of_ge _ h]; exact bot_le
  · obtain ⟨j, _, hj⟩ := Finset.exists_mem_eq_sup' (Finset.univ_nonempty (α := Fin 50257)) (x r)
    have e : ((Cert.Spec.rowMax x r : ℝ) : EReal) = ext (x r) j.val := by
      rw [ext_of_lt _ j.isLt]; exact congrArg _ hj
    rw [e]
    exact le_pmax _ (by have := j.isLt; omega)

/-- The coercion to the extended reals goes through a finite sum. -/
theorem coe_sum (s : Finset (Fin 50257)) (g : Fin 50257 → ℝ) : ((∑ j ∈ s, g j : ℝ) : EReal) = ∑ j ∈ s, (g j : EReal) := by
  induction s using Finset.induction_on with
  | empty => simp
  | insert a s ha ih => rw [Finset.sum_insert ha, Finset.sum_insert ha, EReal.coe_add, ih]

/-- … and the running sum the row's shifted exponential sum. -/
theorem psum_ext (x : Fin 512 → Fin 50257 → ℝ) (r : Fin 512) (m : ℕ) :
    psum (ext (x r)) (50257 + m) = ((Cert.Spec.rowSumExp x r : ℝ) : EReal) := by
  unfold psum
  rw [pmax_ext, Finset.sum_range_add, Finset.sum_range]
  have h2 : ∑ q ∈ Finset.range m, Ideal.exp (ext (x r) (50257 + q) - ((Cert.Spec.rowMax x r : ℝ) : EReal)) = 0 :=
    Finset.sum_eq_zero fun q _ => by rw [ext_of_ge _ (by omega), EReal.bot_sub, Ideal.exp_bot]
  rw [h2, add_zero]
  unfold Cert.Spec.rowSumExp
  rw [coe_sum]
  refine Finset.sum_congr rfl fun j _ => ?_
  rw [ext_of_lt _ j.isLt, ← EReal.coe_sub, Ideal.exp_coe]

/-- The kernel's last step: the row's log-sum-exp. -/
theorem lse_coe (x : Fin 512 → Fin 50257 → ℝ) (r : Fin 512) :
    ((Cert.Spec.rowMax x r : ℝ) : EReal) + Ideal.log ((Cert.Spec.rowSumExp x r : ℝ) : EReal)
      = ((Cert.Spec.lse x r : ℝ) : EReal) := by
  rw [Ideal.log_coe, if_neg (not_le.2 (Cert.Spec.rowSumExp_pos x r)), ← EReal.coe_add]
  rfl

/-! ## The accumulators -/

/-- The accumulators (running maximum, running sum) after column block `k` of one row block whose 17 staged blocks
    are `Xs`; `i16` is the grid point of the last column block (the masked update reads its column block off it). -/
def acc (Xs : Fin 17 → Vec Ideal S512x3072 .f32) (i16 : grid0.Coords) :
    (k : ℕ) → k < 17 → Vec Ideal S512x1 .f32 × Vec Ideal S512x1 .f32
  | 0, _ => (k0_pay9 (F := Ideal) (Xs 0) (k0_pay1 (F := Ideal)), k0_pay8 (F := Ideal) (Xs 0) (k0_pay1 (F := Ideal)) (k0_pay2 (F := Ideal)))
  | k + 1, h =>
    if k + 1 = 16 then
      (k0_pay6 (F := Ideal) i16 (Xs ⟨k + 1, h⟩) (acc Xs i16 k (by omega)).1,
       k0_pay5 (F := Ideal) i16 (Xs ⟨k + 1, h⟩) (acc Xs i16 k (by omega)).1 (acc Xs i16 k (by omega)).2)
    else
      (k0_pay9 (F := Ideal) (Xs ⟨k + 1, h⟩) (acc Xs i16 k (by omega)).1,
       k0_pay8 (F := Ideal) (Xs ⟨k + 1, h⟩) (acc Xs i16 k (by omega)).1 (acc Xs i16 k (by omega)).2)

/-! ## One update of the accumulators, and all seventeen -/

/-- One update: if the accumulators hold row `r`'s running maximum and sum over its first `n` entries and the block
    holds its next 3072 entries, the updated accumulators hold them over the first `n + 3072`. -/
theorem step (f : ℕ → EReal) (hf : ∀ j, f j ≠ ⊤) (n : ℕ) (X : Vec Ideal S512x3072 .f32) (M S : Vec Ideal S512x1 .f32)
    (r : Fin 512) (hX : ∀ q : Fin 3072, X (ix2 r q) = f (n + q.val)) (hM : M (ix2 r 0) = pmax f n)
    (hS : S (ix2 r 0) = psum f n) :
    k0_pay9 (F := Ideal) X M (ix2 r 0) = pmax f (n + 3072) ∧ k0_pay8 (F := Ideal) X M S (ix2 r 0) = psum f (n + 3072) := by
  have h7 : k0_pay7 (F := Ideal) X M (ix2 r 0) = pmax f (n + 3072) := by
    rw [pay7_apply, hM, pmax_add]; simp only [hX]
  refine ⟨by rw [pay9_eq]; exact h7, ?_⟩
  rw [pay8_apply, h7, hM, hS, psum_add f hf n 3072]; simp only [hX]

/-- After column block `k` the accumulators hold, at row `r`, the running maximum and sum over the row's first
    `3072 * (k + 1)` entries (the row continued by `-∞`: the last block's columns outside the array are masked to it). -/
theorem acc_inv (xrow : Fin 512 → Fin 50257 → ℝ) (Xs : Fin 17 → Vec Ideal S512x3072 .f32) (i16 : grid0.Coords)
    (hi : (i16 1).val = 16)
    (hX : ∀ (k : Fin 17) (r : Fin 512) (q : Fin 3072) (h : 3072 * k.val + q.val < 50257),
      Xs k (ix2 r q) = ((xrow r ⟨3072 * k.val + q.val, h⟩ : ℝ) : EReal))
    (r : Fin 512) : ∀ (k : ℕ) (hk : k < 17),
      (acc Xs i16 k hk).1 (ix2 r 0) = pmax (ext (xrow r)) (3072 * (k + 1))
      ∧ (acc Xs i16 k hk).2 (ix2 r 0) = psum (ext (xrow r)) (3072 * (k + 1)) := by
  have hX' : ∀ (k : ℕ) (hk : k < 17) (q : Fin 3072), 3072 * k + q.val < 50257 →
      Xs ⟨k, hk⟩ (ix2 r q) = ext (xrow r) (3072 * k + q.val) :=
    fun k hk q h => (hX ⟨k, hk⟩ r q h).trans (ext_of_lt _ h).symm
  intro k
  induction k with
  | zero =>
    intro hk
    rw [acc]
    have := step (ext (xrow r)) (ext_ne_top _) 0 (Xs 0) (k0_pay1 (F := Ideal)) (k0_pay2 (F := Ideal)) r
      (fun q => by have := q.isLt; exact hX' 0 (by norm_num) q (by omega))
      ((pay1_apply r).trans (pmax_zero _).symm) ((pay2_apply r).trans (psum_zero _).symm)
    exact this
  | succ k ih =>
    intro hk
    obtain ⟨ihM, ihS⟩ := ih (by omega)
    rw [acc]
    rw [show 3072 * (k + 1 + 1) = 3072 * (k + 1) + 3072 by ring]
    by_cases h16 : k + 1 = 16
    · rw [if_pos h16, pay6_eq, pay5_eq]
      refine step (ext (xrow r)) (ext_ne_top _) _ _ _ _ r (fun q => ?_) ihM ihS
      rw [pay3_apply i16 hi]
      have e : 3072 * (k + 1) + q.val = 3072 * 16 + q.val := by rw [h16]
      rw [e]
      by_cases h : 3072 * 16 + q.val < 50257
      · rw [if_pos h]; exact hX' (k + 1) hk q (by rw [e]; exact h) |>.trans (by rw [e])
      · rw [if_neg h, ext_of_ge _ h]
    · rw [if_neg h16]
      refine step (ext (xrow r)) (ext_ne_top _) _ _ _ _ r (fun q => ?_) ihM ihS
      exact hX' (k + 1) hk q (by have := q.isLt; omega)

/-- THE RESULT: if the staged blocks hold the rows `xrow` on the columns inside the array, the output block the last
    point stores is each row's log-sum-exp. -/
theorem acc_last (xrow : Fin 512 → Fin 50257 → ℝ) (Xs : Fin 17 → Vec Ideal S512x3072 .f32) (i16 : grid0.Coords)
    (hi : (i16 1).val = 16)
    (hX : ∀ (k : Fin 17) (r : Fin 512) (q : Fin 3072) (h : 3072 * k.val + q.val < 50257),
      Xs k (ix2 r q) = ((xrow r ⟨3072 * k.val + q.val, h⟩ : ℝ) : EReal))
    (r : Fin 512) :
    k0_pay10 (F := Ideal) (acc Xs i16 16 (by norm_num)).1 (acc Xs i16 16 (by norm_num)).2 (ix2 r 0)
      = ((Cert.Spec.lse xrow r : ℝ) : EReal) := by
  obtain ⟨hM, hS⟩ := acc_inv xrow Xs i16 hi hX r 16 (by norm_num)
  rw [show 3072 * (16 + 1) = 50257 + 1967 by norm_num] at hM hS
  rw [pay10_apply, hM, hS, pmax_ext, psum_ext, lse_coe]

end Cert.KernelIdeal.Online

end
-- ==== Proof.KerValue.lean ====
/-
  The kernel's region at the ideal instance: the output array ends holding each row's log-sum-exp.

  The block staged at point `t` holds, on its columns inside the array, rows `512 · (t / 17) …` and columns
  `3072 · (t % 17) …` of the logits. Along a row block the two accumulators therefore follow the running-maximum /
  running-sum recurrence over the row's 17 column blocks, and the output block the row block's last point stores is the
  rows' log-sum-exp. The eight last points write back the eight row blocks of the output array, which cover it.
-/
import proofs.«413743_j37546604102464_2_alg».proof.Proof.KI.Frame
import proofs.«413743_j37546604102464_2_alg».proof.Proof.Online
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Online Idealize.ShloMosaic.ValueIdx

/-! ## The staged blocks, read off the array -/

section Value

variable (m : (ℓ : Loc nD τ sig) → Buf (Elt Ideal) ℓ)

theorem idx_in : ∀ t : Fin cfg0.N, win0_0.index t (0 : Fin 2) = t.val / 17 ∧ win0_0.index t (1 : Fin 2) = t.val % 17 :=
  (by decide +kernel : ∀ t : Fin grid0.N, _)
theorem idx_out : ∀ t : Fin cfg0.N, win0_1.index t (0 : Fin 2) = t.val / 17 ∧ win0_1.index t (1 : Fin 2) = 0 :=
  (by decide +kernel : ∀ t : Fin grid0.N, _)

/-- Entry `(r, q)` of the block staged at point `t`, when its column lies inside the array, is the array's entry at row
    `512 · (t / 17) + r`, column `3072 · (t % 17) + q`. -/
theorem xcan_apply (c : Dev nD) (t : Fin cfg0.N) (r : Fin 512) (q : Fin 3072) (h : 3072 * (t.val % 17) + q.val < 50257) :
    xcan (F := Ideal) m c t (ix2 r q)
      = m ((c.tc : Thread nD τ).loc main_arg0)
          (ix2 ⟨512 * (t.val / 17) + r.val, by have := t.isLt; have : cfg0.N = 136 := N_0; omega⟩ ⟨3072 * (t.val % 17) + q.val, h⟩) := by
  have hN : t.val < 136 := lt_of_lt_of_eq t.isLt (show cfg0.N = 136 from N_0)
  have hm : win0_0.moved (grid0.coords t) (ix2 r q) = true := (win0_0.moved_iff _ _).mpr fun a => by
    by_cases h1 : t.val % 17 = 16
    · match a with
      | ⟨0, _⟩ => exact lt_of_lt_of_eq r.isLt (xsize_last t h1).1.symm
      | ⟨1, _⟩ => exact lt_of_lt_of_eq (by show q.val < 1105; omega) (xsize_last t h1).2.symm
    · match a with
      | ⟨0, _⟩ => exact lt_of_lt_of_eq r.isLt (xsize_full t h1 0).symm
      | ⟨1, _⟩ => exact lt_of_lt_of_eq q.isLt (xsize_full t h1 1).symm
  unfold xcan Window.fill
  rw [dif_pos hm]
  unfold iblk
  rw [View.read_apply]
  simp only [cast_eq]
  rw [show V m c (Pipeline.arrRef spec0 0) = V m c main_arg0 from rfl, V_main_arg0]
  refine congrArg _ ?_
  funext a; apply Fin.ext
  obtain ⟨e0, e1⟩ := idx_in t
  match a with
  | ⟨0, _⟩ => show win0_0.index t (0 : Fin 2) * 512 + 1 * r.val = 512 * (t.val / 17) + r.val; omega
  | ⟨1, _⟩ => show win0_0.index t (1 : Fin 2) * 3072 + 1 * q.val = 3072 * (t.val % 17) + q.val; omega

/-! ## The accumulators are the recurrence's -/

theorem N136 : cfg0.N = 136 := N_0

/-- The 17 blocks staged along row block `rb`. -/
def Xs (c : Dev nD) (rb : Fin 8) : Fin 17 → Vec Ideal S512x3072 .f32 :=
  fun k => xcan (F := Ideal) m c ⟨17 * rb.val + k.val, by rw [N136]; omega⟩
/-- The last point of row block `rb`. -/
def tLast (rb : Fin 8) : Fin cfg0.N := ⟨17 * rb.val + 16, by rw [N136]; omega⟩

/-- After column block `k` of row block `rb` the two accumulators hold the recurrence's pair. -/
theorem outsAt_acc (c : Dev nD) (rb : Fin 8) : ∀ (k : ℕ) (hk : k < 17),
    ((outsAt (F := Ideal) m c (17 * rb.val + k) (by rw [N136]; omega)).2.1,
     (outsAt (F := Ideal) m c (17 * rb.val + k) (by rw [N136]; omega)).2.2)
      = acc (Xs m c rb) (grid0.coords (tLast rb)) k hk
  | 0, hk => by
    have h := outsAt_first (F := Ideal) m c ⟨17 * rb.val + 0, by rw [N136]; omega⟩ (by show (17 * rb.val + 0) % 17 = 0; omega)
    rw [show outsAt (F := Ideal) m c (17 * rb.val + 0) _ = _ from h]
    rfl
  | k + 1, hk => by
    have ih := outsAt_acc c rb k (by omega)
    have e1 : (outsAt (F := Ideal) m c (17 * rb.val + k) (by rw [N136]; omega)).2.1 = (acc (Xs m c rb) (grid0.coords (tLast rb)) k (by omega)).1 :=
      congrArg Prod.fst ih
    have e2 : (outsAt (F := Ideal) m c (17 * rb.val + k) (by rw [N136]; omega)).2.2 = (acc (Xs m c rb) (grid0.coords (tLast rb)) k (by omega)).2 :=
      congrArg Prod.snd ih
    have ht : 17 * rb.val + (k + 1) < cfg0.N := by rw [N136]; omega
    have h0 : ¬(17 * rb.val + (k + 1)) % 17 = 0 := by omega
    by_cases h16 : k = 15
    · subst h16
      have h1 : (17 * rb.val + (15 + 1)) % 17 = 16 := by omega
      have h := outsAt_last (F := Ideal) m c ⟨17 * rb.val + (15 + 1), ht⟩ h0 h1
      rw [show outsAt (F := Ideal) m c (17 * rb.val + (15 + 1)) _ = _ from h]
      dsimp only
      rw [acc, if_pos rfl]
      refine Prod.ext ?_ ?_
      · exact congrArg (k0_pay6 (F := Ideal) (grid0.coords (tLast rb)) (Xs m c rb ⟨15 + 1, hk⟩)) e1
      · exact congrArg₂ (k0_pay5 (F := Ideal) (grid0.coords (tLast rb)) (Xs m c rb ⟨15 + 1, hk⟩)) e1 e2
    · have h1 : ¬(17 * rb.val + (k + 1)) % 17 = 16 := by omega
      have h := outsAt_middle (F := Ideal) m c ⟨17 * rb.val + (k + 1), ht⟩ h0 h1
      rw [show outsAt (F := Ideal) m c (17 * rb.val + (k + 1)) _ = _ from h]
      dsimp only
      rw [acc, if_neg (by omega)]
      refine Prod.ext ?_ ?_
      · exact congrArg (k0_pay9 (F := Ideal) (Xs m c rb ⟨k + 1, hk⟩)) e1
      · exact congrArg₂ (k0_pay8 (F := Ideal) (Xs m c rb ⟨k + 1, hk⟩)) e1 e2

/-! ## The output block, and the output array -/

variable (xrr : Fin 4096 → Fin 50257 → ℝ)

/-- What the output array ends holding: each row's log-sum-exp. -/
def G : S4096x1.Idx → EReal := fun i => ((Cert.Spec.lse xrr ⟨(i 0).val, idx2_lt0 i⟩ : ℝ) : EReal)

/-- The output block stored at the last point of row block `rb` holds the log-sum-exp of the block's rows. -/
theorem out_last (c : Dev nD)
    (hx : ∀ (b : Fin 4096) (j : Fin 50257), m ((c.tc : Thread nD τ).loc main_arg0) (ix2 b j) = ((xrr b j : ℝ) : EReal))
    (rb : Fin 8) (r : Fin 512) :
    (outsAt (F := Ideal) m c (tLast rb).val (tLast rb).isLt).1 (ix2 r 0)
      = ((Cert.Spec.lse xrr ⟨512 * rb.val + r.val, by omega⟩ : ℝ) : EReal) := by
  have h0 : ¬(tLast rb).val % 17 = 0 := by show ¬(17 * rb.val + 16) % 17 = 0; omega
  have h1 : (tLast rb).val % 17 = 16 := by show (17 * rb.val + 16) % 17 = 16; omega
  have hlast := outsAt_last (F := Ideal) m c (tLast rb) h0 h1
  have hacc := outsAt_acc m c rb 16 (by norm_num)
  have e1 : (outsAt (F := Ideal) m c (tLast rb).val (tLast rb).isLt).1
      = k0_pay10 (F := Ideal) (outsAt (F := Ideal) m c (tLast rb).val (tLast rb).isLt).2.1
          (outsAt (F := Ideal) m c (tLast rb).val (tLast rb).isLt).2.2 := by
    rw [hlast]
  rw [e1]
  have e2 : (outsAt (F := Ideal) m c (tLast rb).val (tLast rb).isLt).2.1 = (acc (Xs m c rb) (grid0.coords (tLast rb)) 16 (by norm_num)).1 :=
    congrArg Prod.fst hacc
  have e3 : (outsAt (F := Ideal) m c (tLast rb).val (tLast rb).isLt).2.2 = (acc (Xs m c rb) (grid0.coords (tLast rb)) 16 (by norm_num)).2 :=
    congrArg Prod.snd hacc
  rw [e2, e3]
  have hrow := acc_last (fun (r : Fin 512) (j : Fin 50257) => xrr ⟨512 * rb.val + r.val, by omega⟩ j) (Xs m c rb)
    (grid0.coords (tLast rb)) (col_last (tLast rb) h1)
    (fun k r q h => by
      have hk : (17 * rb.val + k.val) % 17 = k.val := by omega
      have hd : (17 * rb.val + k.val) / 17 = rb.val := by omega
      show xcan (F := Ideal) m c ⟨17 * rb.val + k.val, _⟩ (ix2 r q) = _
      rw [xcan_apply m c ⟨17 * rb.val + k.val, by rw [N136]; omega⟩ r q (by show 3072 * ((17 * rb.val + k.val) % 17) + q.val < 50257; rw [hk]; exact h)]
      rw [hx]
      congr 2
      · exact Fin.ext (by show 512 * ((17 * rb.val + k.val) / 17) + r.val = 512 * rb.val + r.val; rw [hd])
      · exact Fin.ext (by show 3072 * ((17 * rb.val + k.val) % 17) + q.val = 3072 * k.val + q.val; rw [hk]))
    r
  exact hrow

theorem xsize1 : ∀ t : Fin cfg0.N, ∀ a : Fin 2, win0_1.xsize (grid0.coords t) a = S512x1.size a := by
  decide +kernel

/-- What the last point of a row block writes back is its block of `G`. -/
theorem flushed1_eq (c : Dev nD)
    (hx : ∀ (b : Fin 4096) (j : Fin 50257), m ((c.tc : Thread nD τ).loc main_arg0) (ix2 b j) = ((xrr b j : ℝ) : EReal))
    (t : Fin cfg0.N) (h1 : t.val % 17 = 16) :
    (dats (F := Ideal) m 0 c).flushed 1 t = ((cfg0.win 1).blk t).view.read (Elt Ideal) (G xrr) := by
  obtain ⟨rb, rfl⟩ : ∃ rb : Fin 8, t = tLast rb :=
    ⟨⟨t.val / 17, by have := lt_of_lt_of_eq t.isLt N136; omega⟩, Fin.ext (by show t.val = 17 * (t.val / 17) + 16; omega)⟩
  obtain ⟨e0, e1⟩ := idx_out (tLast rb)
  have e0' : win0_1.index (tLast rb) (0 : Fin 2) = rb.val := by
    rw [e0]; show (17 * rb.val + 16) / 17 = rb.val; omega
  show (cfg0.win 1).cut (grid0.coords (tLast rb)) ((dats (F := Ideal) m 0 c).after 1 (tLast rb)) = _
  rw [after1]
  funext j
  rw [View.read_apply]
  simp only [cast_eq]
  have hj0 : (j 0).val < 512 := lt_of_lt_of_eq (j 0).isLt (xsize1 (tLast rb) 0)
  have hj1 : (j 1).val < 1 := lt_of_lt_of_eq (j 1).isLt (xsize1 (tLast rb) 1)
  have hx' : win0_1.xinj (grid0.coords (tLast rb)) j = ix2 ⟨(j 0).val, hj0⟩ 0 := by
    funext a; apply Fin.ext
    match a with
    | ⟨0, _⟩ => rfl
    | ⟨1, _⟩ => show (j 1).val = 0; omega
  show (outsAt (F := Ideal) m c (tLast rb).val (tLast rb).isLt).1 (win0_1.xinj (grid0.coords (tLast rb)) j) = _
  rw [hx', out_last m xrr c hx rb ⟨(j 0).val, hj0⟩]
  unfold G
  congr 2
  apply Fin.ext
  show 512 * rb.val + (j 0).val = win0_1.index (tLast rb) (0 : Fin 2) * 512 + 1 * (j 0).val
  omega

/-- Every row of the output array is in the block some row block's last point writes back. -/
theorem cover1 (i : S4096x1.Idx) :
    ∃ t : Fin cfg0.N, (cfg0.win 1).flush t = true ∧ i ∈ ((cfg0.win 1).blk t).view.set := by
  have hi0 : (i 0).val < 4096 := idx2_lt0 i
  have hi1 : (i 1).val < 1 := idx2_lt1 i
  obtain ⟨rb, hrb⟩ : ∃ rb : Fin 8, rb.val = (i 0).val / 512 := ⟨⟨(i 0).val / 512, by omega⟩, rfl⟩
  obtain ⟨e0, e1⟩ := idx_out (tLast rb)
  have e0' : win0_1.index (tLast rb) (0 : Fin 2) = rb.val := by
    rw [e0]; show (17 * rb.val + 16) / 17 = rb.val; omega
  refine ⟨tLast rb, (flush0_1 _).mpr (by show (17 * rb.val + 16) % 17 = 16; omega), ?_⟩
  show i ∈ ((View.whole main_v20).slice (win0_1.rect (tLast rb))).set
  rw [View.set_slice_whole, Rect.mem_set_unit]
  intro a
  match a with
  | ⟨0, _⟩ =>
    show win0_1.index (tLast rb) (0 : Fin 2) * 512 ≤ (i 0).val ∧ (i 0).val < win0_1.index (tLast rb) (0 : Fin 2) * 512 + 512
    omega
  | ⟨1, _⟩ =>
    show win0_1.index (tLast rb) (1 : Fin 2) * 1 ≤ (i 1).val ∧ (i 1).val < win0_1.index (tLast rb) (1 : Fin 2) * 1 + 1
    omega

/-- THE OUTPUT ARRAY after the run holds each row's log-sum-exp. -/
theorem final1 (c : Dev nD)
    (hx : ∀ (b : Fin 4096) (j : Fin 50257), m ((c.tc : Thread nD τ).loc main_arg0) (ix2 b j) = ((xrr b j : ℝ) : EReal)) :
    (dats (F := Ideal) m 0 c).arrAt 1 cfg0.N = G xrr :=
  (dats (F := Ideal) m 0 c).arrAt_eq_of_cover 1 (G xrr) (fun t hf => flushed1_eq m xrr c hx t ((flush0_1 t).mp hf)) cover1

theorem lse_array (c : Dev nD)
    (hx : ∀ (b : Fin 4096) (j : Fin 50257), m ((c.tc : Thread nD τ).loc main_arg0) (ix2 b j) = ((xrr b j : ℝ) : EReal))
    (b : Fin 4096) :
    (dats (F := Ideal) m 0 c).arrAt 1 cfg0.N (ix2 b 0) = ((Cert.Spec.lse xrr b : ℝ) : EReal) := by
  rw [final1 m xrr c hx]
  rfl

end Value

end Cert.KernelIdeal.Hand

end
-- ==== Proof.Chain.lean ====
/-
  The three arguments read as real numbers, and the two integer-and-mask stages both programs share.

  `xr`: the logits, finite by the precondition, as reals.  `pcol b l`: the column the window's offset `l` lands on in
  row `b` — the label plus `l - 2`, clipped into `[0, 50256]` (the reference's `val_main_v13`; the kernel's program
  computes the same stage by the same operations).  `wv b l`: the window's weight at offset `l`, or zero where the
  unclipped position falls outside the vocabulary (the stage `val_main_v15`), as a real.
-/
import proofs.«413743_j37546604102464_2_alg».proof.Proof.RefRead
import proofs.«413743_j37546604102464_2_alg».proof.Proof.Spec
import Idealize.ShloMosaic.Lib.ValueIdx
import Idealize.ShloMosaic.Lib.StableHlo.Predicate

noncomputable section

namespace Cert.Chain

open Cert.ReferenceIdeal Cert.ReferenceIdeal.Read Idealize.ShloMosaic Idealize.ShloMosaic.ValueIdx

/-- The three argument arrays' contents at the ideal instance. -/
abbrev X0 := (⟨S4096x50257, .f32⟩ : BufTy).Contents (Elt Ideal)
abbrev X1 := (⟨S4096, .i32⟩ : BufTy).Contents (Elt Ideal)
abbrev X2 := (⟨S5, .f32⟩ : BufTy).Contents (Elt Ideal)

/-- Every logit is a real number. -/
def FinX (x0 : X0) : Prop := ∀ i, ∃ r : ℝ, x0 i = (r : EReal)
/-- Every window weight is a real number. -/
def FinW (x2 : X2) : Prop := ∀ i, ∃ r : ℝ, x2 i = (r : EReal)

/-- The logits as reals. -/
def xr (x0 : X0) (b : Fin 4096) (j : Fin 50257) : ℝ := (x0 (ix2 b j)).toReal
/-- The clipped column of row `b`'s window offset `l`. -/
def pcol (x1 : X1) (b : Fin 4096) (l : Fin 5) : Fin 50257 :=
  ⟨(val_main_v13 (F := Ideal) x1 (ix2 b l)).toNat % 50257, Nat.mod_lt _ (by norm_num)⟩
/-- The masked window weight of row `b`'s offset `l`, as a real. -/
def wv (x1 : X1) (x2 : X2) (b : Fin 4096) (l : Fin 5) : ℝ := (val_main_v15 (F := Ideal) x1 x2 (ix2 b l)).toReal

theorem x_real (x0 : X0) (h0 : FinX x0) (b : Fin 4096) (j : Fin 50257) : x0 (ix2 b j) = ((xr x0 b j : ℝ) : EReal) := by
  obtain ⟨r, hr⟩ := h0 (ix2 b j)
  unfold xr; rw [hr]; rfl

/-- A signed clamp into `[0, 50256]` — the signed minimum of `50256` and the signed maximum of `0` and the word — reads,
    as a signed integer, in that range, whatever the word clamped. -/
theorem clamp_toInt_range (p : BitVec 32) :
    0 ≤ (IntOp.minsi 50256#32 (IntOp.maxsi 0#32 p)).toInt ∧
      (IntOp.minsi 50256#32 (IntOp.maxsi 0#32 p)).toInt ≤ 50256 := by
  have h0 : (0#32 : BitVec 32).toInt = 0 := by decide
  have hc : (50256#32 : BitVec 32).toInt = 50256 := by decide
  unfold IntOp.minsi IntOp.maxsi
  by_cases h1 : p.slt 0#32 = true
  · rw [if_pos h1]
    by_cases h2 : (50256#32 : BitVec 32).slt 0#32 = true
    · rw [if_pos h2]; omega
    · rw [if_neg h2]; omega
  · rw [if_neg h1]
    by_cases h2 : (50256#32 : BitVec 32).slt p = true
    · rw [if_pos h2]; omega
    · rw [if_neg h2]
      rw [BitVec.slt_iff_toInt_lt, h0] at h1
      rw [BitVec.slt_iff_toInt_lt, hc] at h2
      omega

/-- The clipped position at an entry is the signed clamp into `[0, 50256]` of the unclipped position there. -/
theorem posc_read (x1 : X1) (b : Fin 4096) (l : Fin 5) :
    val_main_v13 (F := Ideal) x1 (ix2 b l)
      = IntOp.minsi 50256#32 (IntOp.maxsi 0#32 (val_main_v7 (F := Ideal) x1 (ix2 b l))) := by
  rw [val_main_v13_apply, val_main_call0_v4_apply, val_main_call0_v3_apply, val_main_c_3_apply,
    val_main_call0_v2_apply, val_main_call0_v1_apply, val_main_call0_v0_apply, val_main_c_2_apply]

/-- The clipped position, read as a signed integer, lies in `[0, 50256]`. -/
theorem posc_range (x1 : X1) (b : Fin 4096) (l : Fin 5) :
    0 ≤ (val_main_v13 (F := Ideal) x1 (ix2 b l)).toInt ∧ (val_main_v13 (F := Ideal) x1 (ix2 b l)).toInt ≤ 50256 := by
  rw [posc_read x1 b l]
  exact clamp_toInt_range _

/-- The clipped position, read as a signed integer, is the column `pcol`: it lies in `[0, 50256]`. -/
theorem posc_toInt (x1 : X1) (b : Fin 4096) (l : Fin 5) :
    (val_main_v13 (F := Ideal) x1 (ix2 b l)).toInt = ((pcol x1 b l).val : ℤ) := by
  have hr := posc_range x1 b l
  show _ = (((val_main_v13 (F := Ideal) x1 (ix2 b l)).toNat % 50257 : ℕ) : ℤ)
  generalize val_main_v13 (F := Ideal) x1 (ix2 b l) = w at hr ⊢
  have e := BitVec.toInt_eq_toNat_cond w
  have hw := w.isLt
  split at e <;> omega

/-- The masked weight at an entry is some real number: where the mask holds, the window's weight at the offset, finite
    by hypothesis; elsewhere the constant zero. -/
theorem vals_exists_real (x1 : X1) (x2 : X2) (h2 : FinW x2) (b : Fin 4096) (l : Fin 5) :
    ∃ r : ℝ, val_main_v15 (F := Ideal) x1 x2 (ix2 b l) = (r : EReal) := by
  rw [val_main_v15_apply]
  unfold Scalar.select
  split
  · rw [val_main_call1_v1_apply, val_main_v14_apply]
    exact h2 _
  · rw [val_main_call1_v2_apply, val_main_call1_v0_apply, val_main_cst_apply, Ideal.ofBits_def, Ideal.ofBits_zero_f32]
    exact ⟨0, EReal.coe_zero.symm⟩

/-- The masked weight is a real number: the window's (finite) weight or zero. -/
theorem vals_real (x1 : X1) (x2 : X2) (h2 : FinW x2) (b : Fin 4096) (l : Fin 5) :
    val_main_v15 (F := Ideal) x1 x2 (ix2 b l) = ((wv x1 x2 b l : ℝ) : EReal) := by
  obtain ⟨r, hr⟩ := vals_exists_real x1 x2 h2 b l
  unfold wv; rw [hr]; rfl

end Cert.Chain

end
-- ==== Proof.KerHost.lean ====
/-
  The kernel's program around its region, at the ideal instance: before the region the host computes the masked
  window weights, their row totals, the logits gathered at the clipped columns and the weighted row sums of those;
  after it, per row, log-sum-exp times total weight less the weighted gathered logits, and the mean over the rows.

  The gather takes the logits along the columns at given positions: a position that is negative is wrapped by the
  number of columns, a position outside `[0, 50256]` reads a fill value, and otherwise row `b`'s offset `l` reads the logit of
  row `b` at that position. The clipped positions lie in `[0, 50256]`, so neither the wrap nor the fill ever applies
  and the gathered value is the logit at the clipped column. Every quantity is then a real number read in the
  extended reals, where sums, products and the division by 4096 are the reals' own.
-/
import proofs.«413743_j37546604102464_2_alg».proof.Proof.Gen.KernelIdeal.Frame
import proofs.«413743_j37546604102464_2_alg».proof.Proof.Chain
import Idealize.ShloMosaic.Lib.Pipeline.Value
import Idealize.ShloMosaic.Lib.StableHlo.Run
import Idealize.ShloMosaic.PureOps.Ideal.Laws
import Idealize.ShloMosaic.Lib.IdealHost
import Idealize.ShloMosaic.Lib.Affine

noncomputable section

namespace Cert.KernelIdeal.Host

open Cert.KernelIdeal Cert.KernelIdeal.Gen Cert.Chain
open Idealize.ShloMosaic Idealize.ShloMosaic.TcCoe Idealize.ShloMosaic.ValueIdx Idealize.SL.Sem
open Idealize.ShloMosaic.Pipeline (Dat)
open Cert.ReferenceIdeal.Read (val_main_v13 val_main_v15)
open scoped BigOperators

/-! ## Words, sums and constants -/

/-- A fold of `and` from one over one-bit words that are all one is one. -/
theorem fold_andi_one {ι : Type} [DecidableEq ι] (s : Finset ι) (f : ι → BitVec 1) (hf : ∀ i ∈ s, f i = 1#1) :
    s.fold IntOp.andi 1#1 f = 1#1 := by
  induction s using Finset.induction_on with
  | empty => rfl
  | insert a s ha ih =>
    rw [Finset.fold_insert ha, hf a (Finset.mem_insert_self _ _), ih (fun i hi => hf i (Finset.mem_insert_of_mem hi))]
    decide

/-- A finite sum of reals, read in the extended reals, is the sum of the terms read there. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x45800000` is the real 4096. -/
theorem ofBits_4096_f32 : Ideal.ofBits .f32 0x45800000#32 = ((4096 : ℝ) : EReal) := by
  simp [Ideal.ofBits, Ideal.ieee, -EReal.coe_mul]; norm_num

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The host's sums and the reshape, read at an index -/

/-- A row sum of a [4096, 5] array from zero, read at row `b`. -/
theorem rowSum_apply (y : FVec Ideal S4096x5 .f32) (b : Fin 4096) :
    Host.reduceAdd (F := Ideal) y (constant (F := Ideal) S_ .f32 0x00000000#32) reducesTo_S4096x5_S4096_d1 h_S_ (ix1 b)
      = ∑ l : Fin 5, y (ix2 b l) := by
  have hR : S4096x5.Reduces [1] S4096 := by decide
  rw [hostReduceAdd_apply, Ideal.hostReduceAdd_single reducesTo_S4096x5_S4096_d1 hR, constant_apply,
    Ideal.ofBits_zero_f32, zero_add]
  refine Finset.sum_congr rfl fun l _ => congrArg y ?_
  funext a; refine Fin.ext ?_
  match a with
  | ⟨0, _⟩ => rfl
  | ⟨1, _⟩ => rfl

/-- The sum of a [4096] array from zero. -/
theorem total_apply (y : FVec Ideal S4096 .f32) (i : S_.Idx) :
    Host.reduceAdd (F := Ideal) y (constant (F := Ideal) S_ .f32 0x00000000#32) reducesTo_S4096_S_d0 h_S_ i
      = ∑ b : Fin 4096, y (ix1 b) := by
  rw [hostReduceAdd_apply, Ideal.hostReduceAdd_total reducesTo_S4096_S_d0 (fun b => b.elim0), constant_apply,
    Ideal.ofBits_zero_f32, zero_add]
  exact sum_idx1 y

/-- Dropping the unit axis of a [4096, 1] array. -/
theorem dropCol_apply {α : Type} (y : S4096x1.Idx → α) (b : Fin 4096) :
    shapeCast S4096 y shapeCasts_S4096x1_S4096 (ix1 b) = y (ix2 b (0 : Fin 1)) :=
  shapeCast_apply y shapeCasts_S4096x1_S4096 (ix1 b) (ix2 b (0 : Fin 1))
    (by rw [Shape.rowMajor_val_two, Shape.rowMajor_val_one]; simp)

/-! ## Taking along the columns -/

/-- The positions as the gather reads them: a negative position wrapped by the number of columns, the array given a
    trailing unit axis. -/
def wrapIdx (p : IVec S4096x5 32) : IVec S4096x5x1 32 :=
  shapeCast S4096x5x1
    (select (cmpi .slt p (broadcastInDim S4096x5 ![] bcast_S_S4096x5 (constantI S_ 32 0#32)))
      (addi p (broadcastInDim S4096x5 ![] bcast_S_S4096x5 (constantI S_ 32 50257#32))) p)
    shapeCasts_S4096x5_S4096x5x1

/-- A position that is not negative is read as it is. -/
theorem wrapIdx_apply (p : IVec S4096x5 32) (b : Fin 4096) (l : Fin 5) (h : 0 ≤ (p (ix2 b l)).toInt) :
    wrapIdx p (ix3 b l (0 : Fin 1)) = p (ix2 b l) := by
  unfold wrapIdx
  rw [shapeCast_apply _ shapeCasts_S4096x5_S4096x5x1 (ix3 b l (0 : Fin 1)) (ix2 b l)
    (by rw [Shape.rowMajor_val_two, Shape.rowMajor_val_three]; simp)]
  rw [select_apply]
  have hc : cmpi .slt p (broadcastInDim S4096x5 ![] bcast_S_S4096x5 (constantI S_ 32 0#32)) (ix2 b l) = 0#1 := by
    refine eq_zero_of_ne_one fun e => ?_
    have e' : IntOp.cmpi .slt (p (ix2 b l)) (0#32) = 1#1 := e
    rw [IntOp.cmpi_slt] at e'
    have : (0#32 : BitVec 32).toInt = 0 := by decide
    omega
  rw [hc, select_zero]

/-- The in-bounds mask of a position in `[0, 50256]` is one. -/
theorem mask_apply (idx : IVec S4096x5x1 32) (b : Fin 4096) (l : Fin 5) (k : Fin 50257)
    (hk : (idx (ix3 b l (0 : Fin 1))).toInt = (k.val : ℤ)) :
    Host.reduce IntOp.andi
      (andi (cmpi .sge idx (broadcastInDim S4096x5x1 ![] bcast_S_S4096x5x1 (constantI S_ 32 0#32)))
        (cmpi .sle idx (broadcastInDim S4096x5x1 ![0, 1, 2] bcast_S1x1x1_S4096x5x1_0_1_2
          (broadcastInDim S1x1x1 ![2] bcast_S1_S1x1x1_2 (constantI S1 32 50256#32)))))
      (constantI S_ 1 1#1) reducesTo_S4096x5x1_S4096x5_d2 h_S_ (ix2 b l) = 1#1 := by
  have hR : S4096x5x1.Reduces [2] S4096x5 := by decide
  rw [Host.reduce_eq_fold_single IntOp.andi _ _ reducesTo_S4096x5x1_S4096x5_d2 hR h_S_ (ix2 b l)]
  refine fold_andi_one _ _ fun kk _ => ?_
  have hkk : kk.val = 0 := by have h1 : kk.val < 1 := kk.isLt; omega
  have hl : hR.lift (ix2 b l) kk = ix3 b l (0 : Fin 1) := by
    funext a; refine Fin.ext ?_
    match a with
    | ⟨0, _⟩ => rfl
    | ⟨1, _⟩ => rfl
    | ⟨2, _⟩ => exact hkk
  show IntOp.andi (IntOp.cmpi .sge (idx (hR.lift (ix2 b l) kk)) 0#32) (IntOp.cmpi .sle (idx (hR.lift (ix2 b l) kk)) 50256#32) = 1#1
  rw [hl, IntOp.andi_eq_one, IntOp.cmpi_sge, IntOp.cmpi_sle, hk]
  have h0 : (0#32 : BitVec 32).toInt = 0 := by decide
  have h1 : (50256#32 : BitVec 32).toInt = 50256 := by decide
  have := k.isLt
  constructor <;> omega

/-- The row gather read at `(b, l)`: row `b` of the operand at the column the position names. -/
theorem gather_row_apply (x : FVec Ideal S4096x50257 .f32) (idx : IVec S4096x5x1 32) (b : Fin 4096) (l : Fin 5) (k : Fin 50257)
    (hk : (idx (ix3 b l (0 : Fin 1))).toInt = (k.val : ℤ)) :
    Host.gather gather_S4096x50257_S4096x5x1_S4096x5_n_1_0_0_1_2_11 x idx (ix2 b l) = x (ix2 b k) := by
  unfold Host.gather
  refine congrArg x ?_
  funext a
  refine Fin.ext ?_
  show gather_S4096x50257_S4096x5x1_S4096x5_n_1_0_0_1_2_11.start (ix2 b l) idx a
    + gather_S4096x50257_S4096x5x1_S4096x5_n_1_0_0_1_2_11.batchCoord (ix2 b l) a
    + gather_S4096x50257_S4096x5x1_S4096x5_n_1_0_0_1_2_11.offCoord (ix2 b l) a = (ix2 b k a).val
  generalize hg : gather_S4096x50257_S4096x5x1_S4096x5_n_1_0_0_1_2_11 = gdims
  have hOB : gdims.operandBatchingDims = [0] := by rw [← hg]; rfl
  have hCS : gdims.collapsedSliceDims = [1] := by rw [← hg]; rfl
  have hSM : gdims.startIndexMap = [1] := by rw [← hg]; rfl
  have h0 : gdims.start (ix2 b l) idx (0 : Fin 2) + gdims.batchCoord (ix2 b l) (0 : Fin 2)
      + gdims.offCoord (ix2 b l) (0 : Fin 2) = b.val := by
    have hb : (0 : Fin 2) ∈ gdims.operandBatchingDims := by rw [hOB]; exact List.mem_singleton.mpr rfl
    rw [gdims.start_batching _ idx _ hb, gdims.offCoord_eq_zero _ _ (fun h => ((gdims.mem_sKept _).mp h).2 hb)]
    simp only [Nat.zero_add, Nat.add_zero]
    unfold GatherDims.batchCoord
    rw [dif_pos hb]
    subst hg
    rfl
  have h1 : gdims.start (ix2 b l) idx (1 : Fin 2) + gdims.batchCoord (ix2 b l) (1 : Fin 2)
      + gdims.offCoord (ix2 b l) (1 : Fin 2) = k.val := by
    have hnb : (1 : Fin 2) ∉ gdims.operandBatchingDims := by rw [hOB]; decide
    have hc : (1 : Fin 2) ∈ gdims.collapsedSliceDims := by rw [hCS]; exact List.mem_singleton.mpr rfl
    have hm : (1 : Fin 2) ∈ gdims.startIndexMap := by rw [hSM]; exact List.mem_singleton.mpr rfl
    rw [gdims.batchCoord_eq_zero _ _ hnb, gdims.offCoord_eq_zero _ _ (fun h => ((gdims.mem_sKept _).mp h).1 hc)]
    simp only [Nat.add_zero]
    unfold GatherDims.start
    rw [dif_pos hm]
    have hsi : gdims.siIdx (ix2 b l) ⟨List.idxOf (1 : Fin 2) gdims.startIndexMap,
        List.idxOf_lt_length_iff.2 hm⟩ = ix3 b l (0 : Fin 1) := by
      subst hg
      funext c; refine Fin.ext ?_
      match c with
      | ⟨0, _⟩ => rfl
      | ⟨1, _⟩ => rfl
      | ⟨2, _⟩ => rfl
    rw [hsi, hk]
    subst hg
    show min ((k.val : ℤ)).toNat (50257 - 1) = k.val
    rw [Int.toNat_natCast]
    have := k.isLt
    omega
  match a with
  | ⟨0, _⟩ => exact h0
  | ⟨1, _⟩ => exact h1

/-- Taking along the columns, as the program spells it: the positions wrapped, the logits gathered row by row, and a fill
    value wherever the position falls outside `[0, 50256]`. -/
def takeAlong (x : FVec Ideal S4096x50257 .f32) (p : IVec S4096x5 32) : FVec Ideal S4096x5 .f32 :=
  select
    (Host.reduce IntOp.andi
      (andi (cmpi .sge (wrapIdx p) (broadcastInDim S4096x5x1 ![] bcast_S_S4096x5x1 (constantI S_ 32 0#32)))
        (cmpi .sle (wrapIdx p) (broadcastInDim S4096x5x1 ![0, 1, 2] bcast_S1x1x1_S4096x5x1_0_1_2
          (broadcastInDim S1x1x1 ![2] bcast_S1_S1x1x1_2 (constantI S1 32 50256#32)))))
      (constantI S_ 1 1#1) reducesTo_S4096x5x1_S4096x5_d2 h_S_)
    (Host.gather gather_S4096x50257_S4096x5x1_S4096x5_n_1_0_0_1_2_11 x (wrapIdx p))
    (broadcastInDim S4096x5 ![] bcast_S_S4096x5 (constant (F := Ideal) S_ .f32 0x7FC00000#32))

/-- At a position in `[0, 50256]` it is the logit of that row at that column. -/
theorem takeAlong_apply (x : FVec Ideal S4096x50257 .f32) (p : IVec S4096x5 32) (b : Fin 4096) (l : Fin 5) (k : Fin 50257)
    (hk : (p (ix2 b l)).toInt = (k.val : ℤ)) : takeAlong x p (ix2 b l) = x (ix2 b k) := by
  have hw : wrapIdx p (ix3 b l (0 : Fin 1)) = p (ix2 b l) :=
    wrapIdx_apply p b l (by rw [hk]; exact Int.natCast_nonneg _)
  unfold takeAlong
  rw [select_apply, mask_apply (wrapIdx p) b l k (by rw [hw]; exact hk), select_one,
    gather_row_apply x (wrapIdx p) b l k (by rw [hw]; exact hk)]

/-! ## The tail of the program -/

/-- The tail: per row the region's output times the total weight less the weighted logits, summed over the rows and
    divided by 4096. -/
def tailFn (y : FVec Ideal S4096x1 .f32) (t16 t19 : FVec Ideal S4096 .f32) : FVec Ideal S_ .f32 :=
  Host.divf (F := Ideal)
    (Host.reduceAdd (F := Ideal) (subf (mulf (shapeCast S4096 y shapeCasts_S4096x1_S4096) t16) t19)
      (constant (F := Ideal) S_ .f32 0x00000000#32) reducesTo_S4096_S_d0 h_S_)
    (constant (F := Ideal) S_ .f32 0x45800000#32)

/-- The tail on real data. -/
theorem tailFn_real (y : FVec Ideal S4096x1 .f32) (t16 t19 : FVec Ideal S4096 .f32) (L T G : Fin 4096 → ℝ)
    (hy : ∀ b, y (ix2 b (0 : Fin 1)) = ((L b : ℝ) : EReal)) (h16 : ∀ b, t16 (ix1 b) = ((T b : ℝ) : EReal))
    (h19 : ∀ b, t19 (ix1 b) = ((G b : ℝ) : EReal)) (i : S_.Idx) :
    tailFn y t16 t19 i = (((∑ b, (L b * T b - G b)) / 4096 : ℝ) : EReal) := by
  unfold tailFn
  rw [hostDivf_apply, total_apply, constant_apply, ofBits_4096_f32, Ideal.div_coe (by norm_num)]
  have hrow : ∀ b : Fin 4096, subf (mulf (shapeCast S4096 y shapeCasts_S4096x1_S4096) t16) t19 (ix1 b)
      = ((L b * T b - G b : ℝ) : EReal) := fun b => by
    rw [subf_apply, mulf_apply, dropCol_apply, hy, h16, h19, ← EReal.coe_mul, ← EReal.coe_sub]
  simp only [hrow]
  rw [← coe_finset_sum, ← EReal.coe_mul]
  congr 1
  ring

variable (m : (ℓ : Loc nD τ sig) → Buf (Elt Ideal) ℓ)

/-- The three arguments as the launch memory holds them. -/
abbrev a0 (c : Dev nD) : X0 := m ((c.tc : Thread nD τ).loc main_arg0)
abbrev a1 (c : Dev nD) : X1 := m ((c.tc : Thread nD τ).loc main_arg1)
abbrev a2 (c : Dev nD) : X2 := m ((c.tc : Thread nD τ).loc main_arg2)

/-! ## What the host computed before the region -/

/-- The row totals of the masked weights. -/
theorem V16 (c : Dev nD) :
    Eq (α := S4096.Idx → EReal) (V m c main_v16)
      (Host.reduceAdd (F := Ideal) (val_main_v15 (F := Ideal) (a1 m c) (a2 m c))
          (constant (F := Ideal) S_ .f32 0x00000000#32) reducesTo_S4096x5_S4096_d1 h_S_) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The row sums of the masked weights times the logits taken along the clipped columns. -/
theorem V19 (c : Dev nD) :
    Eq (α := S4096.Idx → EReal) (V m c main_v19)
      (Host.reduceAdd (F := Ideal)
          (mulf (val_main_v15 (F := Ideal) (a1 m c) (a2 m c)) (takeAlong (a0 m c) (val_main_v13 (F := Ideal) (a1 m c))))
          (constant (F := Ideal) S_ .f32 0x00000000#32) reducesTo_S4096x5_S4096_d1 h_S_) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  simp only [StableHlo.TRef.ofBuf, StableHlo.TRef.toBuf, cast_eq]
  rfl

/-- Row `b`'s total weight is a real number. -/
theorem V16_apply (c : Dev nD) (h2 : FinW (a2 m c)) (b : Fin 4096) :
    Eq (α := EReal) (V m c main_v16 (ix1 b)) ((∑ l, wv (a1 m c) (a2 m c) b l : ℝ) : EReal) := by
  refine (congrFun (V16 m c) (ix1 b)).trans ?_
  show @Eq EReal _ _
  rw [rowSum_apply, coe_finset_sum]
  exact Finset.sum_congr rfl fun l _ => vals_real (a1 m c) (a2 m c) h2 b l

/-- Row `b`'s weighted sum of the logits at the clipped columns is a real number. -/
theorem V19_apply (c : Dev nD) (h0 : FinX (a0 m c)) (h2 : FinW (a2 m c)) (b : Fin 4096) :
    Eq (α := EReal) (V m c main_v19 (ix1 b))
      ((∑ l, wv (a1 m c) (a2 m c) b l * xr (a0 m c) b (pcol (a1 m c) b l) : ℝ) : EReal) := by
  refine (congrFun (V19 m c) (ix1 b)).trans ?_
  show @Eq EReal _ _
  rw [rowSum_apply, coe_finset_sum]
  refine Finset.sum_congr rfl fun l _ => ?_
  rw [mulf_apply, vals_real (a1 m c) (a2 m c) h2 b l,
    takeAlong_apply (a0 m c) _ b l (pcol (a1 m c) b l) (posc_toInt (a1 m c) b l), x_real (a0 m c) h0, ← EReal.coe_mul]

/-! ## After the region -/

/-- The result buffer after the tail, in terms of the region's output array and the two row arrays computed before it. -/
theorem tail_form (c : Dev nD)
    (dats : (p : Fin 1) → (c : Dev nD) → Dat τ (Elt Ideal) Unit ℕ (UR sig nD τ) ℕ (cfgs p) c) :
    Pipeline.afterTail₀ cfgs dats 0 (V0 m) [hostOps1] c main_v25
      = tailFn ((dats 0 c).arrAt 1 cfg0.N) (V m c main_v16) (V m c main_v19) := by
  have e20 : Pipeline.withArrays (cfgs 0).spec c (V0 m c) (fun w => (dats 0 c).arrAt w (cfgs 0).N) (Proc.devRef .tc main_v20)
      = (dats 0 c).arrAt 1 cfg0.N := Pipeline.withArrays_arr spec0 launch0.win.arr_inj c _ _ 1
  have e16 : Pipeline.withArrays (cfgs 0).spec c (V0 m c) (fun w => (dats 0 c).arrAt w (cfgs 0).N) (Proc.devRef .tc main_v16)
      = V m c main_v16 :=
    Pipeline.withArrays_of_ne _ c (V0 m c) _ main_v16 (by exact (by decide : ∀ w, Pipeline.arrRef spec0 w ≠ main_v16))
  have e19 : Pipeline.withArrays (cfgs 0).spec c (V0 m c) (fun w => (dats 0 c).arrAt w (cfgs 0).N) (Proc.devRef .tc main_v19)
      = V m c main_v19 :=
    Pipeline.withArrays_of_ne _ c (V0 m c) _ main_v19 (by exact (by decide : ∀ w, Pipeline.arrRef spec0 w ≠ main_v19))
  unfold Pipeline.afterTail₀
  show StableHlo.after hostOps1 _ (Proc.devRef .tc main_v25) = _
  after_results
  rw [e20, e16, e19]
  rfl

/-- THE RESULT of the kernel's program, for ANY proof data of the region whose output array ends holding each row's
    log-sum-exp: the mean over the rows of log-sum-exp times the row's total weight less the weighted gathered logits. -/
theorem tail_value (c : Dev nD)
    (dats : (p : Fin 1) → (c : Dev nD) → Dat τ (Elt Ideal) Unit ℕ (UR sig nD τ) ℕ (cfgs p) c)
    (h0 : FinX (a0 m c)) (h2 : FinW (a2 m c))
    (hfin : ∀ b : Fin 4096, (dats 0 c).arrAt 1 cfg0.N (ix2 b 0) = ((Cert.Spec.lse (xr (a0 m c)) b : ℝ) : EReal)) :
    Pipeline.afterTail₀ cfgs dats 0 (V0 m) [hostOps1] c main_v25
      = fun _ => ((Cert.Spec.kerResult (xr (a0 m c)) (pcol (a1 m c)) (wv (a1 m c) (a2 m c)) 4096 : ℝ) : EReal) := by
  rw [tail_form m c dats]
  funext i
  rw [tailFn_real _ _ _ (fun b => Cert.Spec.lse (xr (a0 m c)) b) (fun b => ∑ l, wv (a1 m c) (a2 m c) b l)
    (fun b => ∑ l, wv (a1 m c) (a2 m c) b l * xr (a0 m c) b (pcol (a1 m c) b l)) hfin (V16_apply m c h2)
    (V19_apply m c h0 h2) i]
  rfl

end Cert.KernelIdeal.Host

end
-- ==== Proof.RefTarget.lean ====
/-
  The reference's soft target, read at an entry: the zero array with each row's five masked window weights added at
  their clipped columns; an entry holds the sum of the weights whose column it is.
-/
import proofs.«413743_j37546604102464_2_alg».proof.Proof.Chain
import Idealize.ShloMosaic.Lib.Pipeline.Value

noncomputable section

namespace Cert.RefTarget

open Cert.ReferenceIdeal Cert.ReferenceIdeal.Read Cert.Chain Idealize.ShloMosaic Idealize.ShloMosaic.ValueIdx

/-! ## The scatter's dimension numbers at an update `(b', l)`

Operand `[4096, 50257]`, indices `[4096, 5, 2]`, updates `[4096, 5]`. Both operand axes are inserted window axes, so an
update has no window coordinate; the two components of the index vector, on the indices' last axis, name the operand's
row and column in order. Update `(b', l)` therefore lands on the entry whose row is the signed reading of the index
array at `(b', l, 0)` and whose column is the signed reading at `(b', l, 1)`, when both are inside the operand. -/

/-- The scatter's dimension numbers. -/
abbrev D := scatter_S4096x50257_S4096x5x2_S4096x5_n_01_01_2

/-- Update `(b', l)` reads component `c` of its start at the index array's entry `(b', l, c)`. -/
theorem siIdx_eq (b' : Fin 4096) (l : Fin 5) (c : Fin D.scatterDimsToOperandDims.length) :
    D.siIdx (ix2 b' l) c = ix3 b' l ⟨c.val, c.isLt⟩ := by
  funext a
  match a with
  | ⟨0, _⟩ => rfl
  | ⟨1, _⟩ => rfl
  | ⟨2, _⟩ => rfl

/-- The start on the row axis is the signed reading of the index array at `(b', l, 0)`. -/
theorem start0 {w : Nat} (b' : Fin 4096) (l : Fin 5) (idx : IVec S4096x5x2 w) :
    D.start (ix2 b' l) idx 0 = (idx (ix3 b' l 0)).toInt := by
  have h : (0 : Fin S4096x50257.rank) ∈ D.scatterDimsToOperandDims := by
    show (0 : Fin 2) ∈ ([0, 1] : List (Fin 2)); simp
  unfold ScatterDims.start
  rw [dif_pos h, siIdx_eq]
  rfl

/-- The start on the column axis is the signed reading of the index array at `(b', l, 1)`. -/
theorem start1 {w : Nat} (b' : Fin 4096) (l : Fin 5) (idx : IVec S4096x5x2 w) :
    D.start (ix2 b' l) idx 1 = (idx (ix3 b' l 1)).toInt := by
  have h : (1 : Fin S4096x50257.rank) ∈ D.scatterDimsToOperandDims := by
    show (1 : Fin 2) ∈ ([0, 1] : List (Fin 2)); simp
  unfold ScatterDims.start
  rw [dif_pos h, siIdx_eq]
  rfl

/-- No operand axis is kept, so every window coordinate is zero. -/
theorem window_eq (j : S4096x5.Idx) (a : Fin S4096x50257.rank) : D.window j a = 0 := by
  have h : a ∉ D.sKept := by
    have hall : ∀ a : Fin S4096x50257.rank, a ∉ Shape.kept S4096x50257 [0, 1] := by decide
    exact hall a
  unfold ScatterDims.window
  rw [dif_neg h]

/-- An update whose index vector reads, signed, a row `b'` and a column `c` of the operand lands on the entry `(b', c)`. -/
theorem resultIdx_eq {w : Nat} (b' : Fin 4096) (l : Fin 5) (idx : IVec S4096x5x2 w) (c : Fin 50257)
    (h0 : (idx (ix3 b' l 0)).toInt = (b'.val : ℤ)) (h1 : (idx (ix3 b' l 1)).toInt = (c.val : ℤ)) :
    D.resultIdx? (ix2 b' l) idx = some (ix2 b' c) := by
  have hb := b'.isLt
  have hc := c.isLt
  have H : ∀ a, 0 ≤ D.start (ix2 b' l) idx a + D.window (ix2 b' l) a ∧
      D.start (ix2 b' l) idx a + D.window (ix2 b' l) a < S4096x50257.size a := by
    intro a
    rw [window_eq]
    match a with
    | ⟨0, _⟩ =>
      show 0 ≤ D.start (ix2 b' l) idx 0 + ((0 : ℕ) : ℤ) ∧ D.start (ix2 b' l) idx 0 + ((0 : ℕ) : ℤ) < ((4096 : ℕ) : ℤ)
      rw [start0, h0]; omega
    | ⟨1, _⟩ =>
      show 0 ≤ D.start (ix2 b' l) idx 1 + ((0 : ℕ) : ℤ) ∧ D.start (ix2 b' l) idx 1 + ((0 : ℕ) : ℤ) < ((50257 : ℕ) : ℤ)
      rw [start1, h1]; omega
  unfold ScatterDims.resultIdx?
  rw [dif_pos H]
  congr 1
  funext a
  apply Fin.ext
  match a with
  | ⟨0, _⟩ =>
    show (D.start (ix2 b' l) idx 0 + ((D.window (ix2 b' l) 0 : ℕ) : ℤ)).toNat = b'.val
    rw [window_eq, start0, h0]; omega
  | ⟨1, _⟩ =>
    show (D.start (ix2 b' l) idx 1 + ((D.window (ix2 b' l) 1 : ℕ) : ℤ)).toNat = c.val
    rw [window_eq, start1, h1]; omega

/-! ## The index array at `(b', l, 0)` and `(b', l, 1)`

The index array joins, along its last axis, the row numbers and the clipped columns, each first passed through the
wrap of a negative index (`v < 0 ? v + n : v`), which is the identity on a word whose signed reading is non-negative. -/

/-- The wrap of a negative index leaves a word with a non-negative signed reading as it is. -/
theorem wrap_nonneg (v a : BitVec 32) (hv : 0 ≤ v.toInt) :
    Scalar.select (IntOp.cmpi .slt v 0#32) a v = v := by
  have h0 : (0#32 : BitVec 32).toInt = 0 := by decide
  have hs : v.slt 0#32 = false := by
    rw [Bool.eq_false_iff]
    intro h
    rw [BitVec.slt_iff_toInt_lt, h0] at h
    omega
  have hc : IntOp.cmpi .slt v 0#32 = 0#1 := by
    show BitVec.ofBool (v.slt 0#32) = 0#1
    rw [hs]; rfl
  rw [hc, select_zero]

/-- The index array at `(b', l, 0)` reads, signed, the row number `b'`. -/
theorem idx_row (x1 : X1) (b' : Fin 4096) (l : Fin 5) :
    (val_main_v32 (F := Ideal) x1 (ix3 b' l 0)).toInt = (b'.val : ℤ) := by
  have hi : ∀ a : Fin S4096x5x1.rank,
      ((ix3 b' l (0 : Fin 1) : S4096x5x1.Idx) a).val
        = ((ix3 b' l (0 : Fin 2) : S4096x5x2.Idx) (a.cast rfl)).val := fun a =>
    match a with
    | ⟨0, _⟩ => rfl
    | ⟨1, _⟩ => rfl
    | ⟨2, _⟩ => rfl
  have hv : (BitVec.ofNat 32 b'.val).toInt = (b'.val : ℤ) :=
    StableHlo.Predicate.toInt_ofNat_small _ (by have := b'.isLt; omega)
  unfold val_main_v32
  rw [concatenate_pair_apply_left (t := S4096x5x2) (s₁ := S4096x5x1) (s₂ := S4096x5x1) (2 : Fin S4096x5x2.rank) _ _ _
    (ix3 b' l 0) rfl (ix3 b' l 0) hi]
  rw [val_main_v30_apply, val_main_v29_apply, val_main_v23_apply, val_main_v20_apply, val_main_v19_apply,
    val_main_c_5_apply, val_main_v18_apply, val_main_v17_apply]
  show (Scalar.select (IntOp.cmpi .slt (BitVec.ofNat 32 b'.val) 0#32) _ (BitVec.ofNat 32 b'.val)).toInt = _
  rw [wrap_nonneg _ _ (by rw [hv]; omega), hv]

/-- The index array at `(b', l, 1)` reads, signed, the clipped column `pcol b' l`. -/
theorem idx_col (x1 : X1) (b' : Fin 4096) (l : Fin 5) :
    (val_main_v32 (F := Ideal) x1 (ix3 b' l 1)).toInt = ((pcol x1 b' l).val : ℤ) := by
  have hi : ∀ a : Fin S4096x5x1.rank, a.cast (rfl : S4096x5x1.rank = S4096x5x2.rank) ≠ 2 →
      ((ix3 b' l (0 : Fin 1) : S4096x5x1.Idx) a).val
        = ((ix3 b' l (1 : Fin 2) : S4096x5x2.Idx) (a.cast rfl)).val := fun a h =>
    match a, h with
    | ⟨0, _⟩, _ => rfl
    | ⟨1, _⟩, _ => rfl
    | ⟨2, _⟩, h => absurd (Fin.ext rfl) h
  have hx : idx_main_v31 (ix3 b' l (0 : Fin 1)) = ix2 b' l := by
    funext a
    match a with
    | ⟨0, _⟩ => rfl
    | ⟨1, _⟩ => rfl
  unfold val_main_v32
  rw [concatenate_pair_apply_right (t := S4096x5x2) (s₁ := S4096x5x1) (s₂ := S4096x5x1) (2 : Fin S4096x5x2.rank) _ _ _
    (ix3 b' l 1) rfl rfl (ix3 b' l 0) hi rfl]
  rw [val_main_v31_apply, val_main_v28_apply, val_main_v25_apply, val_main_v24_apply, val_main_c_7_apply, hx,
    wrap_nonneg _ _ (posc_range x1 b' l).1]
  exact posc_toInt x1 b' l

/-- Update `(b', l)` lands on the entry `(b', pcol b' l)`. -/
theorem resultIdx_v32 (x1 : X1) (b' : Fin 4096) (l : Fin 5) :
    D.resultIdx? (ix2 b' l) (val_main_v32 (F := Ideal) x1) = some (ix2 b' (pcol x1 b' l)) :=
  resultIdx_eq b' l _ _ (idx_row x1 b' l) (idx_col x1 b' l)

/-! ## The target at an entry -/

/-- A finite sum of real numbers, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The array scattered into is zero everywhere. -/
theorem zeros_apply (i : S4096x50257.Idx) : val_main_v16 (F := Ideal) i = 0 := by
  rw [val_main_v16_apply, val_main_cst_4_apply, Ideal.ofBits_def, Ideal.ofBits_zero_f32]

/-- The accumulating scatter at an entry, at the ideal values: the operand's entry plus the sum of the updates that land
    on it. -/
theorem scatterAdd_apply {s si su : Shape} {w : ℕ} (d : ScatterDims s si su) (x : FVec Ideal s .f32) (idx : IVec si w)
    (upd : FVec Ideal su .f32) (i : s.Idx) :
    Host.scatterAdd d x idx upd i
      = x i + ∑ u ∈ Finset.univ.filter (fun u => d.resultIdx? u idx = some i), upd u := rfl

/-- Updates indexed by `(b', l)`, each landing on an entry `(b', p b' l)` of its own row: those that land on `(b, j)`
    are row `b`'s offsets `l` with `p b l = j`. -/
theorem sum_landing {n0 n1 m : ℕ} (land : (⟨2, ![n0, n1]⟩ : Shape).Idx → Option (⟨2, ![n0, m]⟩ : Shape).Idx)
    (p : Fin n0 → Fin n1 → Fin m) (hland : ∀ b' l, land (ix2 b' l) = some (ix2 b' (p b' l)))
    (f : (⟨2, ![n0, n1]⟩ : Shape).Idx → EReal) (b : Fin n0) (j : Fin m)
    [DecidablePred fun u => land u = some (ix2 b j)] :
    ∑ u ∈ Finset.univ.filter (fun u => land u = some (ix2 b j)), f u
      = ∑ l ∈ Finset.univ.filter (fun l => p b l = j), f (ix2 b l) := by
  rw [Finset.sum_filter, sum_idx2, Finset.sum_eq_single b, Finset.sum_filter]
  · refine Finset.sum_congr rfl fun l _ => ?_
    have hiff : ((some (ix2 b (p b l)) : Option (⟨2, ![n0, m]⟩ : Shape).Idx) = some (ix2 b j)) ↔ p b l = j :=
      ⟨fun e => congrFun (Option.some.inj e) 1, fun e => by rw [e]⟩
    by_cases h : p b l = j
    · rw [if_pos h, if_pos (by rw [hland]; exact hiff.mpr h)]
    · rw [if_neg h, if_neg (by rw [hland]; exact fun e => h (hiff.mp e))]
  · intro b' _ hb'
    refine Finset.sum_eq_zero fun l _ => ?_
    rw [if_neg]
    rw [hland]
    intro e
    exact hb' (congrFun (Option.some.inj e) 0)
  · intro h
    exact absurd (Finset.mem_univ b) h

theorem target_apply (x1 : X1) (x2 : X2) (h2 : FinW x2) (b : Fin 4096) (j : Fin 50257) :
    val_main_v33 (F := Ideal) x1 x2 (ix2 b j)
      = ((∑ l ∈ Finset.univ.filter (fun l => pcol x1 b l = j), wv x1 x2 b l : ℝ) : EReal) := by
  refine (scatterAdd_apply D (val_main_v16 (F := Ideal)) (val_main_v32 (F := Ideal) x1)
    (val_main_v15 (F := Ideal) x1 x2) (ix2 b j)).trans ?_
  rw [zeros_apply, zero_add,
    sum_landing (fun u => D.resultIdx? u (val_main_v32 (F := Ideal) x1)) (pcol x1) (resultIdx_v32 x1) _ b j, ← coe_sum]
  exact Finset.sum_congr rfl fun l _ => vals_real x1 x2 h2 b l

end Cert.RefTarget

end
-- ==== Proof.RefLogp.lean ====
/-
  The reference's log-softmax, read at an entry: the logit less the row's maximum, less the logarithm of the row's sum
  of shifted exponentials.

  First the facts about extended reals the reading rests on, over abstract finite index types: the fold of `max` from
  `⊥` over coerced reals is the coerced maximum, a finite sum of coerced reals is the coerced sum, the exponential of a
  coerced real and the logarithm of a coerced positive real are the coerced real functions.  Then the stages of the
  inlined log-softmax one after the other, each read at explicit coordinates: the row's maximum, the shifted logits,
  their exponentials, the row's sum, its logarithm.
-/
import proofs.«413743_j37546604102464_2_alg».proof.Proof.Chain
import Idealize.ShloMosaic.Lib.Pipeline.Value
import Idealize.ShloMosaic.PureOps.Ideal.Laws

noncomputable section

namespace Cert.RefLogp

open Cert.ReferenceIdeal Cert.ReferenceIdeal.Read Cert.Chain Idealize.ShloMosaic Idealize.ShloMosaic.ValueIdx

/-! ### Extended reals -/

/-- The fold of `max` from `⊥` over the coercions of finitely many reals (at least one) is the coercion of their
    maximum. -/
theorem fold_max_coe {κ : Type} [Fintype κ] [Nonempty κ] (f : κ → ℝ) :
    (Finset.univ : Finset κ).fold max (⊥ : EReal) (fun k => (f k : EReal))
      = ((Finset.univ.sup' Finset.univ_nonempty f : ℝ) : EReal) := by
  have h : (Finset.univ : Finset κ).fold max (⊥ : EReal) (fun k => (f k : EReal))
      = Finset.univ.sup (fun k => (f k : EReal)) := rfl
  rw [h]
  apply le_antisymm
  · exact Finset.sup_le fun k _ => EReal.coe_le_coe_iff.2 (Finset.le_sup' f (Finset.mem_univ k))
  · obtain ⟨k, _, hk⟩ := Finset.exists_mem_eq_sup' Finset.univ_nonempty f
    rw [hk]
    exact Finset.le_sup (f := fun k => (f k : EReal)) (Finset.mem_univ k)

/-- A finite sum of coerced reals is the coerced sum. -/
theorem sum_coe {κ : Type} (s : Finset κ) (f : κ → ℝ) :
    ∑ k ∈ s, (f k : EReal) = ((∑ k ∈ s, f k : ℝ) : EReal) := by
  classical
  refine Finset.induction_on s ?_ ?_
  · simp
  · intro a s ha ih
    rw [Finset.sum_insert ha, Finset.sum_insert ha, ih, EReal.coe_add]

/-- The exponential of a coerced real. -/
theorem exp_coe (r : ℝ) : Ideal.exp (r : EReal) = ((Real.exp r : ℝ) : EReal) := rfl

/-- The logarithm of a coerced positive real. -/
theorem log_coe_pos {r : ℝ} (h : 0 < r) : Ideal.log (r : EReal) = ((Real.log r : ℝ) : EReal) := by
  rw [Ideal.log_coe, if_neg (not_le.2 h)]

/-- The pattern `0xFF800000` denotes `-∞`. -/
theorem ofBits_neg_inf : Ideal.ofBits .f32 0xFF800000#32 = ⊥ := by
  simp [Ideal.ofBits, Ideal.ieee]

/-- The pattern `0x45800000` denotes `4096`, the number of rows (the divisor of the mean). -/
theorem ofBits_4096 : Ideal.ofBits .f32 0x45800000#32 = ((4096 : ℝ) : EReal) := by
  simp [Ideal.ofBits, Ideal.ieee, -EReal.coe_mul]; norm_num

/-! ### The stages of the log-softmax -/

/-- The row's maximum: the reduction by `max` from `-∞` along the columns is the coerced maximum of the row. -/
theorem rowmax_apply (x0 : X0) (h0 : FinX x0) (b : Fin 4096) :
    val_main_call2_v0 (F := Ideal) x0 (ix1 b) = ((Cert.Spec.rowMax (xr x0) b : ℝ) : EReal) := by
  have h : S4096x50257.Reduces [1] S4096 := by decide
  unfold val_main_call2_v0
  rw [Host.reduce_eq_fold_single (α := Ideal .f32) (FloatOps.maximumf (F := Ideal) (φ := .f32)) x0 _
    Cert.ReferenceIdeal.Gen.reducesTo_S4096x50257_S4096_d1 h Cert.ReferenceIdeal.Gen.h_S_ (ix1 b)]
  have hfun : (x0 ∘ h.lift (ix1 b)) = fun k : Fin 50257 => ((xr x0 b k : ℝ) : EReal) := by
    funext k
    show x0 (h.lift (ix1 b) k) = _
    rw [← x_real x0 h0 b k]
    exact congrArg x0 (funext fun a => Fin.ext (by match a with | ⟨0, _⟩ => rfl | ⟨1, _⟩ => rfl))
  show (Finset.univ : Finset (Fin 50257)).fold max (Ideal.ofBits .f32 0xFF800000#32) (x0 ∘ h.lift (ix1 b)) = _
  rw [hfun, ofBits_neg_inf]
  unfold Cert.Spec.rowMax
  exact fold_max_coe (xr x0 b)

/-- The shifted logit: the logit less its row's maximum (the second `max` against `-∞` changes nothing). -/
theorem shifted_apply (x0 : X0) (h0 : FinX x0) (b : Fin 4096) (j : Fin 50257) :
    val_main_call2_v5 (F := Ideal) x0 (ix2 b j)
      = ((xr x0 b j - Cert.Spec.rowMax (xr x0) b : ℝ) : EReal) := by
  have hi : idx_main_call2_v3 (idx_main_call2_v4 (ix2 b j)) = ix1 b :=
    funext fun a => Fin.ext (by match a with | ⟨0, _⟩ => rfl)
  rw [val_main_call2_v5_apply, val_main_call2_v4_apply, val_main_call2_v3_apply, val_main_call2_v2_apply,
    val_main_call2_v1_apply, val_main_call2_cst_0_apply, hi, rowmax_apply x0 h0 b, x_real x0 h0 b j]
  simp only [Ideal.subf_def, Ideal.maximumf_def, Ideal.ofBits_def, ofBits_neg_inf]
  rw [max_eq_right bot_le, ← EReal.coe_sub]

/-- The exponential of the shifted logit. -/
theorem exp_apply (x0 : X0) (h0 : FinX x0) (b : Fin 4096) (j : Fin 50257) :
    val_main_call2_v6 (F := Ideal) x0 (ix2 b j)
      = ((Real.exp (xr x0 b j - Cert.Spec.rowMax (xr x0) b) : ℝ) : EReal) := by
  rw [val_main_call2_v6_apply, shifted_apply x0 h0 b j, Ideal.hostUnary_exp_def, exp_coe]

/-- The row's sum of the exponentials. -/
theorem sumexp_apply (x0 : X0) (h0 : FinX x0) (b : Fin 4096) :
    val_main_call2_v7 (F := Ideal) x0 (ix1 b) = ((Cert.Spec.rowSumExp (xr x0) b : ℝ) : EReal) := by
  have hk : ∀ k : Fin 50257, idx_main_call2_v7 (ix1 b) k = ix2 b k := fun k =>
    funext fun a => Fin.ext (by match a with | ⟨0, _⟩ => rfl | ⟨1, _⟩ => rfl)
  rw [val_main_call2_v7_apply, val_main_call2_cst_1_apply, Ideal.ofBits_def, Ideal.ofBits_zero_f32, zero_add]
  simp only [hk, exp_apply x0 h0 b]
  rw [sum_coe]
  rfl

/-- The logarithm of the row's sum, broadcast along the row. -/
theorem logsum_apply (x0 : X0) (h0 : FinX x0) (b : Fin 4096) (j : Fin 50257) :
    val_main_call2_v10 (F := Ideal) x0 (ix2 b j)
      = ((Real.log (Cert.Spec.rowSumExp (xr x0) b) : ℝ) : EReal) := by
  have hi : idx_main_call2_v8 (idx_main_call2_v10 (ix2 b j)) = ix1 b :=
    funext fun a => Fin.ext (by match a with | ⟨0, _⟩ => rfl)
  rw [val_main_call2_v10_apply, val_main_call2_v9_apply, val_main_call2_v8_apply, hi, sumexp_apply x0 h0 b,
    Ideal.hostUnary_log_def, log_coe_pos (Cert.Spec.rowSumExp_pos (xr x0) b)]

/-- The log-softmax at an entry. -/
theorem logp_apply (x0 : X0) (h0 : FinX x0) (b : Fin 4096) (j : Fin 50257) :
    val_main_v34 (F := Ideal) x0 (ix2 b j)
      = (((xr x0 b j - Cert.Spec.rowMax (xr x0) b) - Real.log (Cert.Spec.rowSumExp (xr x0) b) : ℝ) : EReal) := by
  rw [val_main_v34_apply, shifted_apply x0 h0 b j, logsum_apply x0 h0 b j, Ideal.subf_def, ← EReal.coe_sub]

end Cert.RefLogp

end
-- ==== Proof.RefValue.lean ====
/-
  The reference's result: the negated mean over the rows of the sum over every column of target times log-softmax.

  Every stage is a coerced real: an entry of the product, a row's sum, the sum of the rows' sums, the quotient by the
  number of rows (the constant `4096`), the negation; the real number they compute is the specification's `refResult`.
-/
import proofs.«413743_j37546604102464_2_alg».proof.Proof.RefTarget
import proofs.«413743_j37546604102464_2_alg».proof.Proof.RefLogp

noncomputable section

namespace Cert.RefValue

open Cert.ReferenceIdeal Cert.ReferenceIdeal.Read Cert.Chain Idealize.ShloMosaic Idealize.ShloMosaic.ValueIdx

/-- One entry of the product of the soft target and the log-softmax. -/
theorem prod_apply (x0 : X0) (x1 : X1) (x2 : X2) (h0 : FinX x0) (h2 : FinW x2) (b : Fin 4096) (j : Fin 50257) :
    val_main_v35 (F := Ideal) x0 x1 x2 (ix2 b j)
      = (((∑ l ∈ Finset.univ.filter (fun l => pcol x1 b l = j), wv x1 x2 b l)
          * ((xr x0 b j - Cert.Spec.rowMax (xr x0) b) - Real.log (Cert.Spec.rowSumExp (xr x0) b)) : ℝ) : EReal) := by
  rw [val_main_v35_apply, Cert.RefTarget.target_apply x1 x2 h2 b j, Cert.RefLogp.logp_apply x0 h0 b j, Ideal.mulf_def,
    ← EReal.coe_mul]

/-- The sum of the products along a row. -/
theorem rowsum_apply (x0 : X0) (x1 : X1) (x2 : X2) (h0 : FinX x0) (h2 : FinW x2) (b : Fin 4096) :
    val_main_v36 (F := Ideal) x0 x1 x2 (ix1 b)
      = ((∑ j : Fin 50257, (∑ l ∈ Finset.univ.filter (fun l => pcol x1 b l = j), wv x1 x2 b l)
          * ((xr x0 b j - Cert.Spec.rowMax (xr x0) b) - Real.log (Cert.Spec.rowSumExp (xr x0) b)) : ℝ) : EReal) := by
  have hk : ∀ k : Fin 50257, idx_main_v36 (ix1 b) k = ix2 b k := fun k =>
    funext fun a => Fin.ext (by match a with | ⟨0, _⟩ => rfl | ⟨1, _⟩ => rfl)
  rw [val_main_v36_apply, val_main_cst_9_apply, Ideal.ofBits_def, Ideal.ofBits_zero_f32, zero_add]
  refine Eq.trans ?_ (Cert.RefLogp.sum_coe Finset.univ _)
  exact Finset.sum_congr rfl fun k _ =>
    (congrArg (val_main_v35 (F := Ideal) x0 x1 x2) (hk k)).trans (prod_apply x0 x1 x2 h0 h2 b k)

/-- The sum of the rows' sums: a sum over the rank-1 index set is the sum over the rows. -/
theorem total_apply (x0 : X0) (x1 : X1) (x2 : X2) (h0 : FinX x0) (h2 : FinW x2) :
    ∑ i : S4096.Idx, val_main_v36 (F := Ideal) x0 x1 x2 i
      = ((∑ b : Fin 4096, ∑ j : Fin 50257, (∑ l ∈ Finset.univ.filter (fun l => pcol x1 b l = j), wv x1 x2 b l)
          * ((xr x0 b j - Cert.Spec.rowMax (xr x0) b) - Real.log (Cert.Spec.rowSumExp (xr x0) b)) : ℝ) : EReal) := by
  have hs : ∑ i : S4096.Idx, val_main_v36 (F := Ideal) x0 x1 x2 i
      = ∑ b : Fin 4096, val_main_v36 (F := Ideal) x0 x1 x2 (ix1 b) :=
    Fintype.sum_equiv (⟨fun i => i 0, ix1, fun i => (eq_ix1 i).symm, fun _ => rfl⟩ : S4096.Idx ≃ Fin 4096) _ _
      (fun i => congrArg (val_main_v36 (F := Ideal) x0 x1 x2) (eq_ix1 i))
  refine hs.trans (Eq.trans ?_ (Cert.RefLogp.sum_coe Finset.univ _))
  exact Finset.sum_congr rfl fun b _ => rowsum_apply x0 x1 x2 h0 h2 b

/-- The reference's result is the coerced real loss. -/
theorem ref_value (x0 : X0) (x1 : X1) (x2 : X2) (h0 : FinX x0) (h2 : FinW x2) :
    val_main_v39 (F := Ideal) x0 x1 x2
      = fun _ => ((Cert.Spec.refResult (xr x0) (pcol x1) (wv x1 x2) 4096 : ℝ) : EReal) := by
  funext i
  rw [val_main_v39_apply, val_main_v38_apply, val_main_v37_apply, val_main_cst_10_apply, val_main_cst_11_apply,
    total_apply x0 x1 x2 h0 h2]
  simp only [Ideal.hostNegf_def, Ideal.negf_def, Ideal.hostDivf_def, Ideal.ofBits_def, Ideal.ofBits_zero_f32,
    Cert.RefLogp.ofBits_4096, zero_add]
  unfold Cert.Spec.refResult
  rw [Ideal.div_coe (by norm_num : (4096 : ℝ) ≠ 0), ← EReal.coe_mul, ← EReal.coe_neg, mul_one_div]

end Cert.RefValue

end
-- ==== Proof.Finite.lean ====
/-
  The precondition, read: it is the conjunction of "every logit has absolute value below +∞" and "every window weight
  has absolute value below +∞"; over the extended reals that says every logit and every weight is a real number.
-/
import proofs.«413743_j37546604102464_2_alg».proof.Pre_finite_inputs
import Idealize.ShloMosaic.PureOps.Ideal
import Idealize.ShloMosaic.Lib.ReduceAll

noncomputable section

namespace Cert.Finite

open Idealize.ShloMosaic Cert.Pre_finite_inputs

variable [Cert.Pre_finite_inputs.Facts]

/-- An extended real whose absolute value is below +∞ is a real. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The bit pattern of +∞ denotes +∞. -/
theorem top_f32 : (Ideal.ofBits .f32 0x7F800000#32 : EReal) = ⊤ := by simp [Ideal.ofBits, Ideal.ieee]

theorem finite_of_pre (x0 : FVec Ideal S4096x50257 .f32) (x1 : IVec S4096 32) (x2 : FVec Ideal S5 .f32)
    (h : fn (F := Ideal) x0 x1 x2 = fun _ => 1#1) :
    (∀ i, ∃ r : ℝ, x0 i = (r : EReal)) ∧ (∀ i, ∃ r : ℝ, x2 i = (r : EReal)) := by
  haveI : Subsingleton S_.Idx := ⟨fun a b => funext fun d => d.elim0⟩
  have h' := congrFun h (fun a => a.elim0)
  dsimp only [fn, andi] at h'
  obtain ⟨ha, hb⟩ := IntOp.andi_eq_one.1 h'
  refine ⟨fun i => ?_, fun i => ?_⟩
  · have e := Host.reduce_andi_all _ _ _ _ _ ha i
    have e' : Ideal.cmp .olt (max (x0 i) (-(x0 i))) ⊤ = 1#1 := by
      rw [← top_f32]; exact e
    exact real_of_abs_lt_top _ e'
  · have e := Host.reduce_andi_all _ _ _ _ _ hb i
    have e' : Ideal.cmp .olt (max (x2 i) (-(x2 i))) ⊤ = 1#1 := by
      rw [← top_f32]; exact e
    exact real_of_abs_lt_top _ e'

end Cert.Finite

end
-- ==== Proof.lean ====
/-
  The certificate: a label-smoothing cross-entropy. For logits `x` (4096 rows of 50257 columns), a label per row and a
  window of five weights, each row's target puts the window, centred at the label and truncated at the vocabulary's
  edges, on the columns around the label; the loss is the mean over the rows of `-∑ target · log_softmax x`.

  The reference scatters the weights into a full target array and sums it against the log-softmax. The kernel's program
  never builds the target: a Pallas kernel streams the logits once, in (512, 3072) blocks, keeping per row a running
  maximum and a running sum of exponentials shifted by it, and returns each row's log-sum-exp; the host gathers the five
  logits under the window and returns the mean of `lse · (∑ weights) - ∑ weights · gathered logits`. Over the reals the two
  are one number (`Cert.Spec.ker_eq_ref`): the sum of target times log-softmax over a row only meets the window's columns,
  and log-softmax is the logit less the row's log-sum-exp.

  The kernel's last column block overhangs the array by 1967 columns, which it masks to a large negative constant before
  anything reads them; the certificate names that constant: it stands for -∞ (the maximum's identity, whose exponential
  is zero), which is how the idealized kernel reads it (`preserves`). The precondition (every logit and weight finite)
  is what lets the arithmetic be done in the reals.

  The frames of both kernel programs are proved on the launch theorem for a pipeline with scratch carried between grid
  points (the two accumulators), the body run by symbolic execution at each of its three kinds of grid point; the
  reference's run is the generated one.
-/
import proofs.«413743_j37546604102464_2_alg».proof.Defs
import proofs.«413743_j37546604102464_2_alg».proof.Proof.Gen.Kernel
import proofs.«413743_j37546604102464_2_alg».proof.Proof.Gen.KernelIdeal
import proofs.«413743_j37546604102464_2_alg».proof.Proof.Gen.ReferenceIdeal
import proofs.«413743_j37546604102464_2_alg».proof.Proof.Gen.Pre_finite_inputs
import proofs.«413743_j37546604102464_2_alg».proof.Proof.RefRun
import proofs.«413743_j37546604102464_2_alg».proof.Proof.RefRead
import proofs.«413743_j37546604102464_2_alg».proof.Proof.K.Frame
import proofs.«413743_j37546604102464_2_alg».proof.Proof.KI.Frame
import proofs.«413743_j37546604102464_2_alg».proof.Proof.KerValue
import proofs.«413743_j37546604102464_2_alg».proof.Proof.KerHost
import proofs.«413743_j37546604102464_2_alg».proof.Proof.RefValue
import proofs.«413743_j37546604102464_2_alg».proof.Proof.Finite
import Idealize.ShloMosaic.Adequacy
import Idealize.ShloMosaic.Init

noncomputable section

namespace Cert.Proof

open Idealize.ShloMosaic Idealize.SL.Sem

/-- The kernel's program, as printed, runs to the end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask's fill constant is named, and the name denotes -∞. -/
theorem preserves : Cert.preserves_Kernel_KernelIdeal :=
  IdealRules.named_const.statement Cert.KernelIdeal.κ "neg_big" .f32 0xF149F2CA#32 ⊥ rfl

/-- At the ideal instance both programs end at the same loss. -/
theorem algebraic : Cert.algebraic_KernelIdeal_ReferenceIdeal := by
  intro m ρ m' ρ' hpre hagree
  have hfin : ∀ c, Cert.Chain.FinX (Cert.KernelIdeal.Host.a0 m c) ∧ Cert.Chain.FinW (Cert.KernelIdeal.Host.a2 m c) :=
    fun c => Cert.Finite.finite_of_pre _ _ _ (hpre c)
  refine ⟨fun c _ => ((Cert.Spec.kerResult (Cert.Chain.xr (Cert.KernelIdeal.Host.a0 m c))
      (Cert.Chain.pcol (Cert.KernelIdeal.Host.a1 m c))
      (Cert.Chain.wv (Cert.KernelIdeal.Host.a1 m c) (Cert.KernelIdeal.Host.a2 m c)) 4096 : ℝ) : EReal), ?_, ?_⟩
  · refine (θ_run Cert.KernelIdeal.defs _ _).mono (fun r h c => ⟨?_, ?_, ?_, ?_⟩)
      (Cert.KernelIdeal.Hand.run_main (F := Ideal) m ρ)
    · exact ((h c).2 Cert.KernelIdeal.main_v25 (Pipeline.mem_restRefs_of Cert.KernelIdeal.main_v25 (by decide) (by decide))).trans
        (Cert.KernelIdeal.Host.tail_value m c (Cert.KernelIdeal.Hand.dats m) (hfin c).1 (hfin c).2
          (fun b => Cert.KernelIdeal.Hand.lse_array m (Cert.Chain.xr (Cert.KernelIdeal.Host.a0 m c)) c
            (fun b j => Cert.Chain.x_real _ (hfin c).1 b j) b))
    · exact ((h c).1 0).trans (((Cert.KernelIdeal.Hand.dats m 0 c).arrAt_in 0 rfl _).trans
        ((Cert.KernelIdeal.Hand.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Hand.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Hand.dats m) c)
  · refine (θ_run Cert.ReferenceIdeal.defs _ _).mono (fun r h c => ⟨?_, (h c).2⟩)
      (Cert.ReferenceIdeal.Value.run (F := Ideal) m' ρ')
    rw [(h c).1, Cert.ReferenceIdeal.Read.val_main_v39_eq, (hagree c).1, (hagree c).2.1, (hagree c).2.2]
    rw [show Cert.ReferenceIdeal.Read.val_main_v39 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) = _ from
      Cert.RefValue.ref_value (Cert.KernelIdeal.Host.a0 m c) (Cert.KernelIdeal.Host.a1 m c) (Cert.KernelIdeal.Host.a2 m c) (hfin c).1 (hfin c).2]
    funext _
    show ((Cert.Spec.refResult _ _ _ _ : ℝ) : EReal) = ((Cert.Spec.kerResult _ _ _ _ : ℝ) : EReal)
    rw [Cert.Spec.ker_eq_ref]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
